-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S129x16 : Shape := ⟨2, ![129, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S129x16 : S_.BroadcastsInDim S129x16 (![] : Fin 0 → Fin S129x16.rank)
  reducesTo_S129x16_S_d0_1 : S129x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x800000 32 := broadcastInDim S2x800000 ![] bcast_S_S2x800000 main_c_8
  let main_v25 : IVec S2x800000 1 := cmpi .sge main_arg1 main_v24
  let main_c_9 : IVec S_ 32 := constantI S_ 32 50000#32
  let main_v26 : IVec S2x800000 32 := broadcastInDim S2x800000 ![] bcast_S_S2x800000 main_c_9
  let main_v27 : IVec S2x800000 1 := cmpi .slt main_arg1 main_v26
  let main_v28 : IVec S2x800000 1 := andi main_v25 main_v27
  let main_c_10 : IVec S_ 1 := constantI S_ 1 1#1
  let main_v29 : IVec S_ 1 := (fun x v => Host.reduce IntOp.andi x v reducesTo_S2x800000_S_d0_1 h_S_) main_v28 main_c_10
  let main_v30 : IVec S_ 1 := andi main_v23 main_v29
  main_v30

def fn {F : FTy → Type} [FloatOps F] (main_arg0 : FVec F S50000x64 .f32) (main_arg1 : IVec S2x800000 32) (main_arg2 : FVec F S129x16 .f32) (main_arg3 : FVec F S16 .f32) (main_arg4 : FVec F S16x1 .f32) (main_arg5 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S129x16 .f32 := Host.absf main_arg2
  let main_cst_0 : FVec F S_ .f32 := constant S_ .f32 0x7F800000#32
  let main_v5 : FVec F S129x16 .f32 := broadcastInDim S129x16 ![] bcast_S_S129x16 main_cst_0
  let main_v6 : IVec S129x16 1 := cmpf .olt main_v4 main_v5
  let main_c_1 : IVec S_ 1 := constantI S_ 1 1#1
  let main_v7 : IVec S_ 1 := (fun x v => Host.reduce IntOp.andi x v reducesTo_S129x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg1 main_arg5 main_v13 main_v16
-- ==== Kernel.lean ====
abbrev S50000x64 : Shape := ⟨2, ![50000, 64]⟩
abbrev S2x800000 : Shape := ⟨2, ![2, 800000]⟩
abbrev S129x16 : Shape := ⟨2, ![129, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x16 : Shape := ⟨2, ![1, 16]⟩
abbrev S800000x65 : Shape := ⟨2, ![800000, 65]⟩
abbrev S8000x64 : Shape := ⟨2, ![8000, 64]⟩
abbrev S8000x65 : Shape := ⟨2, ![8000, 65]⟩
abbrev S8000 : Shape := ⟨1, ![8000]⟩
abbrev S8000x1 : Shape := ⟨2, ![8000, 1]⟩
abbrev S64x16 : Shape := ⟨2, ![64, 16]⟩
abbrev S8000x16 : Shape := ⟨2, ![8000, 16]⟩
abbrev S50000x65 : Shape := ⟨2, ![50000, 65]⟩
abbrev S50000x1 : Shape := ⟨2, ![50000, 1]⟩
abbrev S50000 : Shape := ⟨1, ![50000]⟩

abbrev nBuf : Space → Nat
  | .hbm => 72
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S129x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S1, .i32⟩
  | .hbm, ⟨19, _⟩ => ⟨S_, .i32⟩
  | .hbm, ⟨20, _⟩ => ⟨S800000x1, .i32⟩
  | .hbm, ⟨21, _⟩ => ⟨S800000x1, .i1⟩
  | .hbm, ⟨22, _⟩ => ⟨S1x1, .i32⟩
  | .hbm, ⟨23, _⟩ => ⟨S800000x1, .i32⟩
  | .hbm, ⟨24, _⟩ => ⟨S800000x1, .i1⟩
  | .hbm, ⟨25, _⟩ => ⟨S800000x1, .i1⟩
  | .hbm, ⟨26, _⟩ => ⟨S_, .i1⟩
  | .hbm, ⟨27, _⟩ => ⟨S800000, .i1⟩
  | .hbm, ⟨28, _⟩ => ⟨S800000x64, .f32⟩
  | .hbm, ⟨29, _⟩ => ⟨S800000x64, .i1⟩
  | .hbm, ⟨30, _⟩ => ⟨S_, .f32⟩
  | .hbm, ⟨31, _⟩ => ⟨S800000x64, .f32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S1, .i32⟩
  | .hbm, ⟨42, _⟩ => ⟨S_, .i32⟩
  | .hbm, ⟨43, _⟩ => ⟨S800000x1, .i32⟩
  | .hbm, ⟨44, _⟩ => ⟨S800000x1, .i1⟩
  | .hbm, ⟨45, _⟩ => ⟨S1x1, .i32⟩
  | .hbm, ⟨46, _⟩ => ⟨S800000x1, .i32⟩
  | .hbm, ⟨47, _⟩ => ⟨S800000x1, .i1⟩
  | .hbm, ⟨48, _⟩ => ⟨S800000x1, .i1⟩
  | .hbm, ⟨49, _⟩ => ⟨S_, .i1⟩
  | .hbm, ⟨50, _⟩ => ⟨S800000, .i1⟩
  | .hbm, ⟨51, _⟩ => ⟨S800000x64, .f32⟩
  | .hbm, ⟨52, _⟩ => ⟨S800000x64, .i1⟩
  | .hbm, ⟨53, _⟩ => ⟨S_, .f32⟩
  | .hbm, ⟨54, _⟩ => ⟨S800000x64, .f32⟩
  | .hbm, ⟨55, _⟩ => ⟨S800000x64, .f32⟩
  | .hbm, ⟨56, _⟩ => ⟨S1x16, .f32⟩
  | .hbm, ⟨57, _⟩ => ⟨S1x1, .f32⟩
  | .hbm, ⟨58, _⟩ => ⟨S800000x65, .f32⟩
  | .hbm, ⟨59, _⟩ => ⟨S_, .f32⟩
  | .hbm, ⟨60, _⟩ => ⟨S50000x65, .f32⟩
  | .hbm, ⟨61, _⟩ => ⟨S800000x1, .i32⟩
  | .hbm, ⟨62, _⟩ => ⟨S50000x65, .f32⟩
  | .hbm, ⟨63, _⟩ => ⟨S50000x64, .f32⟩
  | .hbm, ⟨64, _⟩ => ⟨S50000x1, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x64, .f32⟩
  | .hbm, ⟨71, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S129x16, .f32⟩
  | .local _ .vmem, ⟨5, _⟩ => ⟨S1x16, .f32⟩
  | .local _ .vmem, ⟨6, _⟩ => ⟨S16x1, .f32⟩
  | .local _ .vmem, ⟨7, _⟩ => ⟨S1x1, .f32⟩
  | .local _ .vmem, ⟨8, _⟩ => ⟨S8000x65, .f32⟩
  | .local _ .vmem, ⟨9, _⟩ => ⟨S8000x65, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_cst : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst_0 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x65 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S16_S1x16 : S16.ShapeCasts S1x16
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S129x16_S64x16_0_0 : ∀ a, (![0, 0] : Fin 2 → Nat) a + S64x16.size a ≤ S129x16.size a
  h_S64x16 : 0 < S64x16.numel
  inb_S129x16_S64x16_64_0 : ∀ a, (![64, 0] : Fin 2 → Nat) a + S64x16.size a ≤ S129x16.size a
  inb_S129x16_S1x16_128_0 : ∀ a, (![128, 0] : Fin 2 → Nat) a + S1x16.size a ≤ S129x16.size a
  h_S1x16 : 0 < S1x16.numel
  inb_S1x16_S1x16_0_0 : ∀ a, (![0, 0] : Fin 2 → Nat) a + S1x16.size a ≤ S1x16.size a
  shapeCasts_S1x16_S1x16 : S1x16.ShapeCasts S1x16
  bitsLt_bf16_f32 : FTy.bits .bf16 < FTy.bits .f32
  broadcasts_S8000x1_S8000x16 : S8000x1.Broadcasts S8000x16
  broadcasts_S1x16_S8000x16 : S1x16.Broadcasts S8000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x64 : S8000x1.Broadcasts S8000x64
  inb_S8000x65_S8000x64_0_0 : ∀ a, (![0, 0] : Fin 2 → Nat) a + S8000x64.size a ≤ S8000x65.size a
  inb_S8000x65_S8000x1_0_64 : ∀ a, (![0, 64] : Fin 2 → Nat) a + S8000x1.size a ≤ S8000x65.size a
  h_S8000x1 : 0 < S8000x1.numel
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S8000x64_S64x16_S8000x16_1_0_0_1_n_n_wf : DotDims.WF S8000x64 S64x16 S8000x16 [1] [0] [0] [1] [] []
  dot_S8000x16_S16x1_S8000x1_1_0_0_1_n_n_wf : DotDims.WF S8000x16 S16x1 S8000x1 [1] [0] [0] [1] [] []
  scatter_S50000x65_S800000x1_S800000x65_1_0_0_1_wf : ScatterDims.WF S50000x65 S800000x1 S800000x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x16.size a ≤ S129x16.size a
  hwx0_2 : ∀ i : grid0.Coords, EltTy.bits .f32 = 32 ∨ (Rect.block (s := S129x16) S129x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x65.size a ≤ S800000x65.size a
  hwx0_6 : ∀ i : grid0.Coords, EltTy.bits .f32 = 32 ∨ (Rect.block (s := S800000x65) S8000x65.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S129x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8000x65.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S129x16 : Shape := ⟨2, ![129, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x129 : Shape := ⟨2, ![800000, 129]⟩
abbrev S800000x16 : Shape := ⟨2, ![800000, 16]⟩
abbrev S1x16 : Shape := ⟨2, ![1, 16]⟩
abbrev S1x1 : Shape := ⟨2, ![1, 1]⟩
abbrev S50000 : Shape := ⟨1, ![50000]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S129x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S800000, .f32⟩
  | .hbm, ⟨32, _⟩ => ⟨S800000x1, .f32⟩
  | .hbm, ⟨33, _⟩ => ⟨S800000x1, .f32⟩
  | .hbm, ⟨34, _⟩ => ⟨S_, .f32⟩
  | .hbm, ⟨35, _⟩ => ⟨S800000x1, .f32⟩
  | .hbm, ⟨36, _⟩ => ⟨S800000x1, .f32⟩
  | .hbm, ⟨37, _⟩ => ⟨S800000x1, .f32⟩
  | .hbm, ⟨38, _⟩ => ⟨S800000x129, .f32⟩
  | .hbm, ⟨39, _⟩ => ⟨S800000x16, .f32⟩
  | .hbm, ⟨40, _⟩ => ⟨S1x16, .f32⟩
  | .hbm, ⟨41, _⟩ => ⟨S800000x16, .f32⟩
  | .hbm, ⟨42, _⟩ => ⟨S800000x16, .f32⟩
  | .hbm, ⟨43, _⟩ => ⟨S_, .f32⟩
  | .hbm, ⟨44, _⟩ => ⟨S800000x16, .f32⟩
  | .hbm, ⟨45, _⟩ => ⟨S800000x16, .i1⟩
  | .hbm, ⟨46, _⟩ => ⟨S_, .f32⟩
  | .hbm, ⟨47, _⟩ => ⟨S800000x16, .f32⟩
  | .hbm, ⟨48, _⟩ => ⟨S800000x16, .i1⟩
  | .hbm, ⟨49, _⟩ => ⟨S_, .f32⟩
  | .hbm, ⟨50, _⟩ => ⟨S_, .f32⟩
  | .hbm, ⟨51, _⟩ => ⟨S800000x16, .f32⟩
  | .hbm, ⟨52, _⟩ => ⟨S800000x16, .f32⟩
  | .hbm, ⟨53, _⟩ => ⟨S800000x16, .f32⟩
  | .hbm, ⟨54, _⟩ => ⟨S_, .f32⟩
  | .hbm, ⟨55, _⟩ => ⟨S800000x16, .f32⟩
  | .hbm, ⟨56, _⟩ => ⟨S800000x16, .f32⟩
  | .hbm, ⟨57, _⟩ => ⟨S800000x16, .f32⟩
  | .hbm, ⟨58, _⟩ => ⟨S800000x1, .f32⟩
  | .hbm, ⟨59, _⟩ => ⟨S1x1, .f32⟩
  | .hbm, ⟨60, _⟩ => ⟨S800000x1, .f32⟩
  | .hbm, ⟨61, _⟩ => ⟨S800000x1, .f32⟩
  | .hbm, ⟨62, _⟩ => ⟨S800000x1, .f32⟩
  | .hbm, ⟨63, _⟩ => ⟨S800000x1, .f32⟩
  | .hbm, ⟨64, _⟩ => ⟨S_, .f32⟩
  | .hbm, ⟨65, _⟩ => ⟨S800000x1, .f32⟩
  | .hbm, ⟨66, _⟩ => ⟨S800000x1, .f32⟩
  | .hbm, ⟨67, _⟩ => ⟨S_, .f32⟩
  | .hbm, ⟨68, _⟩ => ⟨S800000x1, .f32⟩
  | .hbm, ⟨69, _⟩ => ⟨S800000x1, .f32⟩
  | .hbm, ⟨70, _⟩ => ⟨S800000, .f32⟩
  | .hbm, ⟨71, _⟩ => ⟨S800000x1, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S_, .f32⟩
  | .hbm, ⟨79, _⟩ => ⟨S50000, .f32⟩
  | .hbm, ⟨80, _⟩ => ⟨S800000x1, .i32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x64, .f32⟩
  | .hbm, ⟨87, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_cst_1 : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_v4 : Ref sig .tc := ⟨.hbm, 52, rfl⟩
abbrev main_call0_v5 : Ref sig .tc := ⟨.hbm, 53, rfl⟩
abbrev main_call0_cst_2 : Ref sig .tc := ⟨.hbm, 54, rfl⟩
abbrev main_call0_v6 : Ref sig .tc := ⟨.hbm, 55, rfl⟩
abbrev main_call0_v7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  bcast_S_S800000x1 : S_.BroadcastsInDim S800000x1 (![] : Fin 0 → Fin S800000x1.rank)
  concatenates_S800000x64_S800000x64_S800000x1_S800000x129_d1 : Shape.Concatenates [S800000x64, S800000x64, S800000x1] S800000x129 1
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  bcast_S_S800000x16 : S_.BroadcastsInDim S800000x16 (![] : Fin 0 → Fin S800000x16.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x129_S129x16_S800000x16_1_0_0_1_n_n_wf : DotDims.WF S800000x129 S129x16 S800000x16 [1] [0] [0] [1] [] []
  dot_S800000x16_S16x1_S800000x1_1_0_0_1_n_n_wf : DotDims.WF S800000x16 S16x1 S800000x1 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x16_S800000x16_1_0_0_1_n_n : DotDims S800000x129 S129x16 S800000x16 where
  lhsContracting := [1]
  rhsContracting := [0]
  lhsNonContracting := [0]
  rhsNonContracting := [1]
  lhsBatch := []
  rhsBatch := []
  wf := dot_S800000x129_S129x16_S800000x16_1_0_0_1_n_n_wf
def dot_S800000x16_S16x1_S800000x1_1_0_0_1_n_n : DotDims S800000x16 S16x1 S800000x1 where
  lhsContracting := [1]
  rhsContracting := [0]
  lhsNonContracting := [0]
  rhsNonContracting := [1]
  lhsBatch := []
  rhsBatch := []
  wf := dot_S800000x16_S16x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Spec.lean ====
/-
  The mathematics both programs compute, as functions of the argument arrays; no program is imported here.

  An edge e joins a source node and a destination node, named by two index words. With hs and hd the feature rows
  (64 entries) of the two nodes, the edge's Gaussian similarity is exp(-‖hd - hs‖² / 128); the first layer's column c
  is Σ_k hd_k·W1[k,c] + Σ_k hs_k·W1[64+k,c] + sim·W1[128,c] + b1[c]; the activation is ELU (x for x > 0, eˣ - 1
  otherwise); the edge's gate is the logistic function of Σ_c elu(pre_c)·W2[c] + b2. Node i receives, from every edge
  whose destination word is i, the source row scaled by the gate; the result is that sum divided by the larger of the
  sum of those gates and the floor 1e-8.

  Sums over extended reals are commutative and associative, and nothing below distributes or cancels, so no entry is
  assumed finite. The one hypothesis is on the index words: read signed they name a row of the feature table
  (`InRange`).
-/
import Idealize.ShloMosaic.PureOps.Ideal
import Idealize.ShloMosaic.PureOps.Ideal.Laws
import Idealize.ShloMosaic.Lib.ValueIdx
import Idealize.ShloMosaic.Lib.IdealHost

noncomputable section

open Idealize.ShloMosaic Idealize.ShloMosaic.ValueIdx

namespace EdgeGate

/-- The divisor 128 (twice the feature width) under the squared distance, kept as its word: both programs carry it. -/
abbrev c128 : EReal := Ideal.ofBits .f32 0x43000000#32
/-- The floor 1e-8 under the sum of gates, kept as its word: both programs carry it. -/
abbrev floorW : EReal := Ideal.ofBits .f32 0x322BCC77#32

/-- Squared distance of two feature rows. -/
def sqDist (hs hd : Fin 64 → EReal) : EReal := ∑ k : Fin 64, (hd k - hs k) * (hd k - hs k)

/-- Gaussian similarity exp(-‖hd - hs‖² / 128). -/
def sim (hs hd : Fin 64 → EReal) : EReal := Ideal.exp (Ideal.div (-(sqDist hs hd)) c128)

/-- The rows of the first layer's matrix that meet the destination features, the source features, the similarity. -/
def rowD (k : Fin 64) : Fin 129 := ⟨k.val, by omega⟩
def rowS (k : Fin 64) : Fin 129 := ⟨64 + k.val, by omega⟩
def rowSim : Fin 129 := ⟨128, by omega⟩

/-- A sum over the 129 rows is the sum over the destination rows, plus that over the source rows, plus the last. -/
theorem sum129_split {M : Type} [AddCommMonoid M] (f : Fin 129 → M) :
    ∑ k : Fin 129, f k = (∑ k : Fin 64, f (rowD k)) + (∑ k : Fin 64, f (rowS k)) + f rowSim := by
  have e1 : ∑ k : Fin 129, f k = ∑ k : Fin (128 + 1), f (Fin.cast (by norm_num) k) :=
    (Fintype.sum_equiv (finCongr (by norm_num : 128 + 1 = 129)) _ _ (fun _ => rfl)).symm
  rw [e1, Fin.sum_univ_castSucc]
  have e2 : ∑ k : Fin 128, f (Fin.cast (by norm_num : 128 + 1 = 129) (Fin.castSucc k))
      = ∑ k : Fin (64 + 64), f (Fin.cast (by norm_num : 128 + 1 = 129) (Fin.castSucc (Fin.cast (by norm_num) k))) :=
    (Fintype.sum_equiv (finCongr (by norm_num : 64 + 64 = 128)) _ _ (fun _ => rfl)).symm
  rw [e2, Fin.sum_univ_add]
  rfl

/-- The first layer before the activation, column c. -/
def pre (hs hd : Fin 64 → EReal) (W1 : Fin 129 → Fin 16 → EReal) (b1 : Fin 16 → EReal) (c : Fin 16) : EReal :=
  ((∑ k : Fin 64, hd k * W1 (rowD k) c) + (∑ k : Fin 64, hs k * W1 (rowS k) c) + sim hs hd * W1 rowSim c) + b1 c

/-- ELU with unit slope: x for x > 0, eˣ - 1 otherwise. -/
def elu (x : EReal) : EReal := if 0 < x then x else Ideal.exp x - 1

/-- The edge's gate: the logistic function of the second layer. -/
def gate (hs hd : Fin 64 → EReal) (W1 : Fin 129 → Fin 16 → EReal) (b1 : Fin 16 → EReal) (W2 : Fin 16 → EReal) (b2 : EReal) : EReal :=
  Ideal.logistic ((∑ c : Fin 16, elu (pre hs hd W1 b1 c) * W2 c) + b2)

/-- An index word read as a row of the feature table: signed, clamped into [0, 49999]; in range it is the word. -/
def rowOf (w : BitVec 32) : Fin 50000 := ⟨min w.toInt.toNat 49999, by omega⟩

/-- Every index word, read signed, names a row of the feature table. -/
def InRange (ei : IVec ⟨2, ![2, 800000]⟩ 32) : Prop :=
  ∀ (r : Fin 2) (e : Fin 800000), 0 ≤ (ei (ix2 r e)).toInt ∧ (ei (ix2 r e)).toInt < 50000

theorem rowOf_val {w : BitVec 32} (h0 : 0 ≤ w.toInt) (h1 : w.toInt < 50000) : ((rowOf w).val : ℤ) = w.toInt := by
  show ((min w.toInt.toNat 49999 : ℕ) : ℤ) = w.toInt
  omega

section Arrays

variable (h : (⟨2, ![50000, 64]⟩ : Shape).Idx → EReal) (ei : IVec ⟨2, ![2, 800000]⟩ 32)
  (W1 : (⟨2, ![129, 16]⟩ : Shape).Idx → EReal) (b1 : (⟨1, ![16]⟩ : Shape).Idx → EReal)
  (W2 : (⟨2, ![16, 1]⟩ : Shape).Idx → EReal) (b2 : (⟨1, ![1]⟩ : Shape).Idx → EReal)

/-- The feature row of edge e's source node (index row 0) and of its destination node (index row 1). -/
def srcRow (e : Fin 800000) : Fin 64 → EReal := fun k => h (ix2 (rowOf (ei (ix2 (0 : Fin 2) e))) k)
def dstRow (e : Fin 800000) : Fin 64 → EReal := fun k => h (ix2 (rowOf (ei (ix2 (1 : Fin 2) e))) k)

/-- Edge e's gate. -/
def edgeGate (e : Fin 800000) : EReal :=
  gate (srcRow h ei e) (dstRow h ei e) (fun k c => W1 (ix2 k c)) (fun c => b1 (ix1 c)) (fun c => W2 (ix2 c (0 : Fin 1))) (b2 (ix1 (0 : Fin 1)))

/-- The edges whose destination word, read signed, is node i. -/
def into (i : Fin 50000) : Finset (Fin 800000) :=
  Finset.univ.filter fun e : Fin 800000 => (ei (ix2 (1 : Fin 2) e)).toInt = (i.val : ℤ)

/-- The result at node i, feature j. -/
def Gat (i : Fin 50000) (j : Fin 64) : EReal :=
  Ideal.div (∑ e ∈ into ei i, srcRow h ei e j * edgeGate h ei W1 b1 W2 b2 e)
    (max (∑ e ∈ into ei i, edgeGate h ei W1 b1 W2 b2 e) floorW)

/-- THE RESULT ARRAY as one function of the argument arrays. -/
def G : (⟨2, ![50000, 64]⟩ : Shape).Idx → EReal := fun ij => Gat h ei W1 b1 W2 b2 (ij 0) (ij 1)

end Arrays

/-- What one launch of the edge kernel leaves in its 65-column output, as a function of its two 64-column inputs (x0
    the source rows, x1 the destination rows) and the layer parameters: columns 0..63 the source row scaled by the
    row's gate, column 64 the gate. Generic in the number of rows. -/
def outRows {R : ℕ} (x0 x1 : (⟨2, ![R, 64]⟩ : Shape).Idx → EReal) (x2 : (⟨2, ![129, 16]⟩ : Shape).Idx → EReal)
    (x3 : (⟨2, ![1, 16]⟩ : Shape).Idx → EReal) (x4 : (⟨2, ![16, 1]⟩ : Shape).Idx → EReal) (x5 : (⟨2, ![1, 1]⟩ : Shape).Idx → EReal) :
    (⟨2, ![R, 65]⟩ : Shape).Idx → EReal := fun rj =>
  let g := gate (fun k => x0 (ix2 (rj 0) k)) (fun k => x1 (ix2 (rj 0) k)) (fun k c => x2 (ix2 k c))
    (fun c => x3 (ix2 (0 : Fin 1) c)) (fun c => x4 (ix2 c (0 : Fin 1))) (x5 (ix2 (0 : Fin 1) (0 : Fin 1)))
  if hj : (rj 1).val < 64 then x0 (ix2 (rj 0) ⟨(rj 1).val, hj⟩) * g else g

end EdgeGate

end
-- ==== Proof.PreDecode.lean ====
/-
  The one fact the proof takes from the precondition: it ends in a conjunct that asks, of every index word, 0 ≤ w and
  w < 50000 as signed compares, reduced by "and" over the whole 2 × 800000 array. If the whole predicate is 1, that last
  conjunct is 1, so every entry of the compared array is 1, so each word read signed lies in [0, 50000).
-/
import proofs.«430099_j78073915507114_1_alg».proof.Pre_finite_inputs
import proofs.«430099_j78073915507114_1_alg».proof.Proof.Spec
import Idealize.ShloMosaic.Lib.ReduceAll
import Idealize.ShloMosaic.Lib.Affine
import Idealize.ShloMosaic.Lib.IdealHost

noncomputable section

open Idealize.ShloMosaic Idealize.ShloMosaic.ValueIdx

namespace Cert.Pre_finite_inputs.Decode

open Cert.Pre_finite_inputs

variable [Facts]

instance : Subsingleton S_.Idx := ⟨fun a b => funext fun d => d.elim0⟩

/-- Where the precondition holds, every index word read signed names a row of the feature table. -/
theorem inRange_of_pre (a0 : FVec Ideal S50000x64 .f32) (a1 : IVec S2x800000 32) (a2 : FVec Ideal S129x16 .f32)
    (a3 : FVec Ideal S16 .f32) (a4 : FVec Ideal S16x1 .f32) (a5 : FVec Ideal S1 .f32)
    (h : fn (F := Ideal) a0 a1 a2 a3 a4 a5 = fun _ => 1#1) : EdgeGate.InRange a1 := by
  have h0 := congrFun h ValueIdx.ix0
  dsimp only [fn, fn_part1] at h0
  obtain ⟨_, hlast⟩ := IntOp.andi_eq_one.1 h0
  intro r e
  have hre := Host.reduce_andi_all _ _ _ _ _ hlast (ix2 r e)
  obtain ⟨hge, hlt⟩ := IntOp.andi_eq_one.1 hre
  have hge' := IntOp.cmpi_sge.1 hge
  have hlt' := IntOp.cmpi_slt.1 hlt
  rw [broadcastInDim_scalar_apply] at hge' hlt'
  have z0 : (0#32 : BitVec 32).toInt = 0 := by decide
  have z1 : (50000#32 : BitVec 32).toInt = 50000 := by decide
  exact ⟨by simpa [constantI, z0] using hge', by simpa [constantI, z1] using hlt'⟩

end Cert.Pre_finite_inputs.Decode

end
-- ==== Proof.KPay.lean ====
/-
  The arithmetic of the edge kernel's body at one row of its block: each pure value the body stores, read at an index
  at the extended reals, is the row's gate (the logistic function of the second layer over the ELU of the first) or
  the source entry times that gate.
-/
import proofs.«430099_j78073915507114_1_alg».proof.Proof.Gen.KernelIdeal.Skeleton
import proofs.«430099_j78073915507114_1_alg».proof.Proof.Spec
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

open Idealize.ShloMosaic Idealize.ShloMosaic.ValueIdx

namespace Cert.KernelIdeal.EdgePay

open Cert.KernelIdeal Cert.KernelIdeal.Gen

/-! ## Layout operations of the body at an index -/

section Layout
variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## The lane sum and the three products of the body at an index -/

/-- The sum over the 64 lanes of an `8000 × 64` vector, at row `r`. -/
theorem laneSum_apply (src : FVec Ideal S8000x64 .f32) (hφ : FKind.Formats .f32)
    (hacc : (0x00000000#32 : BitVec 32) = FKind.add.neutral .f32 hφ) (r : Fin 8000) :
    multiReduction .add [1] S8000 src 0x00000000#32 reduces_S8000x64_S8000 hφ hacc (ix1 r) = ∑ k : Fin 64, src (ix2 r k) := by
  refine (Ideal.multiReduction_add_single src 0x00000000#32 reduces_S8000x64_S8000 hφ hacc (ix1 r)).trans ?_
  refine Finset.sum_congr rfl fun k _ => congrArg src ?_
  funext a
  match a with
  | ⟨0, _⟩ => rfl
  | ⟨1, _⟩ => rfl

/-! ## The two contractions of the body at an index

Each `tpu.matmul` contracts the second axis of its left operand with the first axis of its right one; the four lemmas
per record say which coordinate of the result index, or of the contraction index, each operand axis reads. -/

theorem lhs_first_0 (i : S8000x16.Idx) (q : dot_S8000x64_S64x16_S8000x16_1_0_0_1_n_n.contr.Idx) :
    (dot_S8000x64_S64x16_S8000x16_1_0_0_1_n_n.lhsIdx i q 0).val = (i 0).val := by
  unfold DotDims.lhsIdx
  rw [dif_neg (show ¬(0 : Fin S8000x64.rank) ∈ dot_S8000x64_S64x16_S8000x16_1_0_0_1_n_n.lhsBatch by decide),
    dif_pos (show (0 : Fin S8000x64.rank) ∈ dot_S8000x64_S64x16_S8000x16_1_0_0_1_n_n.lhsNonContracting by decide)]
  rfl
theorem lhs_first_1 (i : S8000x16.Idx) (q : dot_S8000x64_S64x16_S8000x16_1_0_0_1_n_n.contr.Idx) :
    (dot_S8000x64_S64x16_S8000x16_1_0_0_1_n_n.lhsIdx i q 1).val = (q ⟨0, by decide⟩).val :=
  dot_S8000x64_S64x16_S8000x16_1_0_0_1_n_n.lhsIdx_val_of_single rfl i q
theorem rhs_first_0 (i : S8000x16.Idx) (q : dot_S8000x64_S64x16_S8000x16_1_0_0_1_n_n.contr.Idx) :
    (dot_S8000x64_S64x16_S8000x16_1_0_0_1_n_n.rhsIdx i q 0).val = (q ⟨0, by decide⟩).val :=
  dot_S8000x64_S64x16_S8000x16_1_0_0_1_n_n.rhsIdx_val_of_single rfl i q
theorem rhs_first_1 (i : S8000x16.Idx) (q : dot_S8000x64_S64x16_S8000x16_1_0_0_1_n_n.contr.Idx) :
    (dot_S8000x64_S64x16_S8000x16_1_0_0_1_n_n.rhsIdx i q 1).val = (i 1).val := by
  unfold DotDims.rhsIdx
  rw [dif_neg (show ¬(1 : Fin S64x16.rank) ∈ dot_S8000x64_S64x16_S8000x16_1_0_0_1_n_n.rhsBatch by decide),
    dif_pos (show (1 : Fin S64x16.rank) ∈ dot_S8000x64_S64x16_S8000x16_1_0_0_1_n_n.rhsNonContracting by decide)]
  rfl

/-- A first-layer product at `(r, c)`: the row of the left operand against the column of the right one. -/
theorem firstDot_apply (l : FVec Ideal S8000x64 .bf16) (w : FVec Ideal S64x16 .bf16) (r : Fin 8000) (c : Fin 16) :
    matmul dot_S8000x64_S64x16_S8000x16_1_0_0_1_n_n none l w (constant (F := Ideal) S8000x16 .f32 0x00000000#32) (ix2 r c)
      = ∑ k : Fin 64, l (ix2 r k) * w (ix2 k c) := by
  simp only [matmul]
  rw [Ideal.matmul_constant_zero_apply, ← Equiv.sum_comp (contrEquiv1 dot_S8000x64_S64x16_S8000x16_1_0_0_1_n_n 64 rfl rfl).symm]
  refine Finset.sum_congr rfl fun k _ => ?_
  have hk := contrEquiv1_symm_val dot_S8000x64_S64x16_S8000x16_1_0_0_1_n_n 64 rfl rfl k
  have el : dot_S8000x64_S64x16_S8000x16_1_0_0_1_n_n.lhsIdx (ix2 r c) ((contrEquiv1 dot_S8000x64_S64x16_S8000x16_1_0_0_1_n_n 64 rfl rfl).symm k) = ix2 r k :=
    funext fun a => Fin.ext (by
      match a with
      | ⟨0, _⟩ => exact lhs_first_0 _ _
      | ⟨1, _⟩ => exact (lhs_first_1 _ _).trans hk)
  have er : dot_S8000x64_S64x16_S8000x16_1_0_0_1_n_n.rhsIdx (ix2 r c) ((contrEquiv1 dot_S8000x64_S64x16_S8000x16_1_0_0_1_n_n 64 rfl rfl).symm k) = ix2 k c :=
    funext fun a => Fin.ext (by
      match a with
      | ⟨0, _⟩ => exact (rhs_first_0 _ _).trans hk
      | ⟨1, _⟩ => exact rhs_first_1 _ _)
  rw [el, er]

theorem lhs_second_0 (i : S8000x1.Idx) (q : dot_S8000x16_S16x1_S8000x1_1_0_0_1_n_n.contr.Idx) :
    (dot_S8000x16_S16x1_S8000x1_1_0_0_1_n_n.lhsIdx i q 0).val = (i 0).val := by
  unfold DotDims.lhsIdx
  rw [dif_neg (show ¬(0 : Fin S8000x16.rank) ∈ dot_S8000x16_S16x1_S8000x1_1_0_0_1_n_n.lhsBatch by decide),
    dif_pos (show (0 : Fin S8000x16.rank) ∈ dot_S8000x16_S16x1_S8000x1_1_0_0_1_n_n.lhsNonContracting by decide)]
  rfl
theorem lhs_second_1 (i : S8000x1.Idx) (q : dot_S8000x16_S16x1_S8000x1_1_0_0_1_n_n.contr.Idx) :
    (dot_S8000x16_S16x1_S8000x1_1_0_0_1_n_n.lhsIdx i q 1).val = (q ⟨0, by decide⟩).val :=
  dot_S8000x16_S16x1_S8000x1_1_0_0_1_n_n.lhsIdx_val_of_single rfl i q
theorem rhs_second_0 (i : S8000x1.Idx) (q : dot_S8000x16_S16x1_S8000x1_1_0_0_1_n_n.contr.Idx) :
    (dot_S8000x16_S16x1_S8000x1_1_0_0_1_n_n.rhsIdx i q 0).val = (q ⟨0, by decide⟩).val :=
  dot_S8000x16_S16x1_S8000x1_1_0_0_1_n_n.rhsIdx_val_of_single rfl i q
theorem rhs_second_1 (i : S8000x1.Idx) (q : dot_S8000x16_S16x1_S8000x1_1_0_0_1_n_n.contr.Idx) :
    (dot_S8000x16_S16x1_S8000x1_1_0_0_1_n_n.rhsIdx i q 1).val = (i 1).val := by
  unfold DotDims.rhsIdx
  rw [dif_neg (show ¬(1 : Fin S16x1.rank) ∈ dot_S8000x16_S16x1_S8000x1_1_0_0_1_n_n.rhsBatch by decide),
    dif_pos (show (1 : Fin S16x1.rank) ∈ dot_S8000x16_S16x1_S8000x1_1_0_0_1_n_n.rhsNonContracting by decide)]
  rfl

/-- The second-layer product at `(r, u)`: row `r` of the activations against the one column of weights. -/
theorem secondDot_apply (l : FVec Ideal S8000x16 .bf16) (w : FVec Ideal S16x1 .bf16) (r : Fin 8000) (u : Fin 1) :
    matmul dot_S8000x16_S16x1_S8000x1_1_0_0_1_n_n none l w (constant (F := Ideal) S8000x1 .f32 0x00000000#32) (ix2 r u)
      = ∑ k : Fin 16, l (ix2 r k) * w (ix2 k u) := by
  simp only [matmul]
  rw [Ideal.matmul_constant_zero_apply, ← Equiv.sum_comp (contrEquiv1 dot_S8000x16_S16x1_S8000x1_1_0_0_1_n_n 16 rfl rfl).symm]
  refine Finset.sum_congr rfl fun k _ => ?_
  have hk := contrEquiv1_symm_val dot_S8000x16_S16x1_S8000x1_1_0_0_1_n_n 16 rfl rfl k
  have el : dot_S8000x16_S16x1_S8000x1_1_0_0_1_n_n.lhsIdx (ix2 r u) ((contrEquiv1 dot_S8000x16_S16x1_S8000x1_1_0_0_1_n_n 16 rfl rfl).symm k) = ix2 r k :=
    funext fun a => Fin.ext (by
      match a with
      | ⟨0, _⟩ => exact lhs_second_0 _ _
      | ⟨1, _⟩ => exact (lhs_second_1 _ _).trans hk)
  have er : dot_S8000x16_S16x1_S8000x1_1_0_0_1_n_n.rhsIdx (ix2 r u) ((contrEquiv1 dot_S8000x16_S16x1_S8000x1_1_0_0_1_n_n 16 rfl rfl).symm k) = ix2 k u :=
    funext fun a => Fin.ext (by
      match a with
      | ⟨0, _⟩ => exact (rhs_second_0 _ _).trans hk
      | ⟨1, _⟩ => exact rhs_second_1 _ _)
  rw [el, er]

/-! ## The body's stored values at an index -/

/-- The first payload is the block it loaded: a cast of a shape to itself. -/
theorem pay3_eq (v0 : Vec Ideal S8000x64 .f32) : (k0_pay3 (F := Ideal) v0 : S8000x64.Idx → EReal) = (v0 : S8000x64.Idx → EReal) :=
  shapeCast_self v0 shapeCasts_S8000x64_S8000x64

/-- A row `[1, b]` broadcast over the rows of `[a, b]` reads, at `(r, c)`, the row at `c`. -/
theorem broadcastTo_1b_ab_apply {α : Type} {a b : ℕ} (v : (⟨2, ![1, b]⟩ : Shape).Idx → α) (h : (⟨2, ![1, b]⟩ : Shape).Broadcasts ⟨2, ![a, b]⟩)
    (r : Fin a) (c : Fin b) : broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The exponential and the logistic function of a vector act entry by entry. -/
theorem pay_exp_apply {s : Shape} {φ : FTy} (x : FVec Ideal s φ) (i : s.Idx) : exp x i = Ideal.exp (x i) := rfl
theorem pay_logistic_apply {s : Shape} {φ : FTy} (x : FVec Ideal s φ) (i : s.Idx) : logistic x i = Ideal.logistic (x i) := rfl

/-- The ELU the body spells as a comparison with zero and a selection between x and eˣ - 1, at an index. -/
theorem pay_elu_apply (x : FVec Ideal S8000x16 .f32) (i : S8000x16.Idx) :
    select (cmpf .ogt x (broadcast S8000x16 (Scalar.ofBits (F := Ideal) .f32 0x00000000#32))) x
        (subf (exp x) (broadcast S8000x16 (Scalar.ofBits (F := Ideal) .f32 0x3F800000#32))) i = EdgeGate.elu (x i) := by
  show Scalar.select (Ideal.cmp .ogt (x i) (Ideal.ofBits .f32 0x00000000#32)) (x i)
      (Ideal.exp (x i) - Ideal.ofBits .f32 0x3F800000#32) = if 0 < x i then x i else Ideal.exp (x i) - 1
  rw [Ideal.ofBits_zero_f32, Ideal.ofBits_one_f32]
  by_cases h : 0 < x i
  · rw [if_pos h]
    have : Ideal.cmp .ogt (x i) 0 = 1#1 := by simp [Ideal.cmp, h]
    rw [this, select_one]
  · rw [if_neg h]
    have : Ideal.cmp .ogt (x i) 0 = 0#1 := by simp [Ideal.cmp, h]
    rw [this, select_zero]

/-- The lane sum of the squared differences at row r is the squared distance of the two rows. -/
theorem pay_sqDist_apply (v0 v2 : Vec Ideal S8000x64 .f32) (hφ : FKind.Formats .f32)
    (hacc : (0x00000000#32 : BitVec 32) = FKind.add.neutral .f32 hφ) (r : Fin 8000) :
    multiReduction .add [1] S8000
        (mulf (subf (shapeCast S8000x64 v2 shapeCasts_S8000x64_S8000x64) (k0_pay3 (F := Ideal) v0))
          (subf (shapeCast S8000x64 v2 shapeCasts_S8000x64_S8000x64) (k0_pay3 (F := Ideal) v0)))
        0x00000000#32 reduces_S8000x64_S8000 hφ hacc (ix1 r)
      = EdgeGate.sqDist (fun k => (v0 : S8000x64.Idx → EReal) (ix2 r k)) (fun k => (v2 : S8000x64.Idx → EReal) (ix2 r k)) := by
  refine (laneSum_apply _ hφ hacc r).trans ?_
  rw [shapeCast_self, pay3_eq]
  rfl

/-- The similarity column at (r, u), over any column of squared distances: exp(-d / 128). -/
theorem pay_sim_apply (sq : FVec Ideal S8000 .f32) (r : Fin 8000) (u : Fin 1) :
    exp (divf (subf (broadcast S8000x1 (Scalar.ofBits (F := Ideal) .f32 0x00000000#32)) (shapeCast S8000x1 sq shapeCasts_S8000_S8000x1))
        (broadcast S8000x1 (Scalar.ofBits (F := Ideal) .f32 0x43000000#32))) (ix2 r u)
      = Ideal.exp (Ideal.div (-(sq (ix1 r))) EdgeGate.c128) := by
  show Ideal.exp (Ideal.div (Ideal.ofBits .f32 0x00000000#32 - shapeCast S8000x1 sq shapeCasts_S8000_S8000x1 (ix2 r u))
      (Ideal.ofBits .f32 0x43000000#32)) = _
  rw [shapeCast_a_a1_apply, Ideal.ofBits_zero_f32, zero_sub]

/-- The activations at row r, column c: the ELU of the first layer — the destination row against the first 64 rows of
    weights, plus the source row against the next 64, plus the similarity times the last row, plus the bias. Here v0 is
    the block of source rows, v2 that of destination rows, v13 / v14 / v15 the three row ranges of the weights, v16 the
    bias row. -/
theorem pay4_apply (v0 v2 : Vec Ideal S8000x64 .f32) (v13 v14 : Vec Ideal S64x16 .f32) (v15 v16 : Vec Ideal S1x16 .f32)
    (r : Fin 8000) (c : Fin 16) :
    (k0_pay4 (F := Ideal) v0 v2 v13 v14 v15 v16 : S8000x16.Idx → EReal) (ix2 r c)
      = EdgeGate.elu ((((∑ k : Fin 64, (v2 : S8000x64.Idx → EReal) (ix2 r k) * (v13 : S64x16.Idx → EReal) (ix2 k c))
            + (∑ k : Fin 64, (v0 : S8000x64.Idx → EReal) (ix2 r k) * (v14 : S64x16.Idx → EReal) (ix2 k c)))
          + EdgeGate.sim (fun k => (v0 : S8000x64.Idx → EReal) (ix2 r k)) (fun k => (v2 : S8000x64.Idx → EReal) (ix2 r k))
              * (v15 : S1x16.Idx → EReal) (ix2 (0 : Fin 1) c))
        + (v16 : S1x16.Idx → EReal) (ix2 (0 : Fin 1) c)) := by
  unfold k0_pay4
  dsimp only
  -- the selection is the ELU of the first layer's sum; that sum is read one addend at a time, in the body's order
  refine (pay_elu_apply _ _).trans (congrArg EdgeGate.elu ?_)
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · -- the destination rows against the first 64 rows of weights
        refine (firstDot_apply _ _ r c).trans ?_
        rw [shapeCast_self]
        rfl
      · -- the source rows against the next 64
        refine (firstDot_apply _ _ r c).trans ?_
        rw [pay3_eq]
        rfl
    · refine (mulf_apply _ _ _).trans (congrArg₂ (· * ·) ?_ ?_)
      · -- the similarity column, broadcast over the 16 columns
        refine (broadcastTo_a1_ab_apply _ _ r c).trans ?_
        refine (pay_sim_apply _ r 0).trans ?_
        exact congrArg (fun x => Ideal.exp (Ideal.div (-x) EdgeGate.c128)) (pay_sqDist_apply v0 v2 _ _ r)
      · exact broadcastTo_1b_ab_apply _ _ r c
  · -- the bias row, broadcast over the rows
    refine (broadcastTo_1b_ab_apply _ _ r c).trans ?_
    rw [shapeCast_self]

/-- The gate column at row r: the logistic function of the activations against the second layer's weights, plus its bias. -/
theorem pay1_apply (v36 : FVec Ideal S8000x16 .f32) (v37 : Vec Ideal S16x1 .f32) (v38 : Vec Ideal S1x1 .f32) (r : Fin 8000) :
    (k0_pay1 (F := Ideal) v36 v37 v38 : S8000x1.Idx → EReal) (ix2 r (0 : Fin 1))
      = Ideal.logistic ((∑ c : Fin 16, (v36 : S8000x16.Idx → EReal) (ix2 r c) * (v37 : S16x1.Idx → EReal) (ix2 c (0 : Fin 1)))
          + (v38 : S1x1.Idx → EReal) (ix2 (0 : Fin 1) (0 : Fin 1))) := by
  unfold k0_pay1
  refine (pay_logistic_apply _ _).trans (congrArg Ideal.logistic ?_)
  refine (addf_apply _ _ _).trans (congrArg₂ (· + ·) ?_ ?_)
  · exact secondDot_apply _ _ r 0
  · refine (broadcastTo_1b_ab_apply _ _ r 0).trans ?_
    rw [shapeCast_self]

/-- The weighted source row at (r, k): the source entry times the row's gate. -/
theorem pay2_apply (v1 : FVec Ideal S8000x64 .f32) (v36 : FVec Ideal S8000x16 .f32) (v37 : Vec Ideal S16x1 .f32) (v38 : Vec Ideal S1x1 .f32)
    (r : Fin 8000) (k : Fin 64) :
    (k0_pay2 (F := Ideal) v1 v36 v37 v38 : S8000x64.Idx → EReal) (ix2 r k)
      = (v1 : S8000x64.Idx → EReal) (ix2 r k) * (k0_pay1 (F := Ideal) v36 v37 v38 : S8000x1.Idx → EReal) (ix2 r (0 : Fin 1)) := by
  unfold k0_pay2
  exact (mulf_apply _ _ _).trans (congrArg₂ (· * ·) rfl (broadcastTo_a1_ab_apply _ _ r k))

end Cert.KernelIdeal.EdgePay

end
-- ==== Proof.KBody.lean ====
/-
  One launch of the edge kernel, as a value: whatever staging memrefs it runs on, the 8000 × 65 block it leaves is the
  function `EdgeGate.outRows` of its input blocks — columns 0..63 the source row scaled by the row's gate, column 64
  the gate.
-/
import proofs.«430099_j78073915507114_1_alg».proof.Proof.Gen.KernelIdeal.Frame
import proofs.«430099_j78073915507114_1_alg».proof.Proof.Spec
import proofs.«430099_j78073915507114_1_alg».proof.Proof.KPay

noncomputable section

open Idealize.ShloMosaic Idealize.ShloMosaic.TcCoe Idealize.SL.Sem Idealize.ShloMosaic.ValueIdx

namespace Cert.KernelIdeal.EdgeValue

open Cert.KernelIdeal Cert.KernelIdeal.Gen Cert.KernelIdeal.EdgePay

namespace BodyRows

/-- The offsets `![0, 0]` are the zero offsets. -/
theorem off00 : (![0, 0] : Fin 2 → Nat) = fun _ => 0 := by
  funext a
  match a with
  | ⟨0, _⟩ => rfl
  | ⟨1, _⟩ => rfl

/-! ## The three row ranges of the first layer's matrix, as the body loads them -/

/-- Rows 0..63 of the matrix, as a block: the rows that meet the destination features. -/
def wD (x2 : Vec Ideal S129x16 .f32) : Vec Ideal S64x16 .f32 :=
  View.ld (Val := Elt Ideal) (e' := .f32) x2 (Rect.unit (s := S129x16) ![0, 0] S64x16.size inb_S129x16_S64x16_0_0)
/-- Rows 64..127 of the matrix, as a block: the rows that meet the source features. -/
def wS (x2 : Vec Ideal S129x16 .f32) : Vec Ideal S64x16 .f32 :=
  View.ld (Val := Elt Ideal) (e' := .f32) x2 (Rect.unit (s := S129x16) ![64, 0] S64x16.size inb_S129x16_S64x16_64_0)
/-- Row 128 of the matrix, as a block: the row that meets the similarity. -/
def wSim (x2 : Vec Ideal S129x16 .f32) : Vec Ideal S1x16 .f32 :=
  View.ld (Val := Elt Ideal) (e' := .f32) x2 (Rect.unit (s := S129x16) ![128, 0] S1x16.size inb_S129x16_S1x16_128_0)

theorem wD_apply (x2 : Vec Ideal S129x16 .f32) (k : Fin 64) (c : Fin 16) :
    (wD x2 : S64x16.Idx → EReal) (ix2 k c) = (x2 : S129x16.Idx → EReal) (ix2 (EdgeGate.rowD k) c) := by
  unfold wD
  refine congrArg (x2 : S129x16.Idx → EReal) (funext fun a => Fin.ext ?_)
  match a with
  | ⟨0, _⟩ => show 0 + 1 * k.val = k.val; omega
  | ⟨1, _⟩ => show 0 + 1 * c.val = c.val; omega

theorem wS_apply (x2 : Vec Ideal S129x16 .f32) (k : Fin 64) (c : Fin 16) :
    (wS x2 : S64x16.Idx → EReal) (ix2 k c) = (x2 : S129x16.Idx → EReal) (ix2 (EdgeGate.rowS k) c) := by
  unfold wS
  refine congrArg (x2 : S129x16.Idx → EReal) (funext fun a => Fin.ext ?_)
  match a with
  | ⟨0, _⟩ => show 64 + 1 * k.val = 64 + k.val; omega
  | ⟨1, _⟩ => show 0 + 1 * c.val = c.val; omega

theorem wSim_apply (x2 : Vec Ideal S129x16 .f32) (c : Fin 16) :
    (wSim x2 : S1x16.Idx → EReal) (ix2 (0 : Fin 1) c) = (x2 : S129x16.Idx → EReal) (ix2 EdgeGate.rowSim c) := by
  unfold wSim
  refine congrArg (x2 : S129x16.Idx → EReal) (funext fun a => Fin.ext ?_)
  match a with
  | ⟨0, _⟩ => show 128 + 1 * 0 = 128; rfl
  | ⟨1, _⟩ => show 0 + 1 * c.val = c.val; omega

/-! ## The gate of one row of the block -/

/-- The gate of row r: `EdgeGate.gate` of row r of the source block and of the destination block. -/
def rowGate (x0 x1 : Vec Ideal S8000x64 .f32) (x2 : Vec Ideal S129x16 .f32) (x3 : Vec Ideal S1x16 .f32) (x4 : Vec Ideal S16x1 .f32) (x5 : Vec Ideal S1x1 .f32) (r : Fin 8000) : EReal :=
  EdgeGate.gate (fun k => (x0 : S8000x64.Idx → EReal) (ix2 r k)) (fun k => (x1 : S8000x64.Idx → EReal) (ix2 r k))
    (fun k c => (x2 : S129x16.Idx → EReal) (ix2 k c)) (fun c => (x3 : S1x16.Idx → EReal) (ix2 (0 : Fin 1) c))
    (fun c => (x4 : S16x1.Idx → EReal) (ix2 c (0 : Fin 1))) ((x5 : S1x1.Idx → EReal) (ix2 (0 : Fin 1) (0 : Fin 1)))

/-- The stored gate column at row r is the row's gate. -/
theorem gate_at (x0 x1 : Vec Ideal S8000x64 .f32) (x2 : Vec Ideal S129x16 .f32) (x3 : Vec Ideal S1x16 .f32) (x4 : Vec Ideal S16x1 .f32) (x5 : Vec Ideal S1x1 .f32) (r : Fin 8000) :
    (k0_pay1 (F := Ideal) (k0_pay4 (F := Ideal) x0 x1 (wD x2) (wS x2) (wSim x2) x3) x4 x5 : S8000x1.Idx → EReal) (ix2 r (0 : Fin 1))
      = rowGate x0 x1 x2 x3 x4 x5 r := by
  rw [pay1_apply]
  unfold rowGate EdgeGate.gate
  refine congrArg Ideal.logistic (congrArg (· + _) (Finset.sum_congr rfl fun c _ => ?_))
  rw [pay4_apply]
  unfold EdgeGate.pre
  simp only [wD_apply, wS_apply, wSim_apply]

/-- The result block at an index of column 64 is the row's gate. -/
theorem outRows_gate (x0 x1 : Vec Ideal S8000x64 .f32) (x2 : Vec Ideal S129x16 .f32) (x3 : Vec Ideal S1x16 .f32) (x4 : Vec Ideal S16x1 .f32) (x5 : Vec Ideal S1x1 .f32) (rj : S8000x65.Idx) (r : Fin 8000)
    (h0 : (rj 0).val = r.val) (h1 : (rj 1).val = 64) :
    EdgeGate.outRows (R := 8000) x0 x1 x2 x3 x4 x5 rj = rowGate x0 x1 x2 x3 x4 x5 r := by
  have e0 : rj 0 = r := Fin.ext h0
  unfold EdgeGate.outRows rowGate
  dsimp only
  rw [dif_neg (by omega), e0]

/-- The result block at an index of a column k below 64 is the source entry times the row's gate. -/
theorem outRows_row (x0 x1 : Vec Ideal S8000x64 .f32) (x2 : Vec Ideal S129x16 .f32) (x3 : Vec Ideal S1x16 .f32) (x4 : Vec Ideal S16x1 .f32) (x5 : Vec Ideal S1x1 .f32) (rj : S8000x65.Idx) (r : Fin 8000) (k : Fin 64)
    (h0 : (rj 0).val = r.val) (h1 : (rj 1).val = k.val) :
    EdgeGate.outRows (R := 8000) x0 x1 x2 x3 x4 x5 rj
      = (x0 : S8000x64.Idx → EReal) (ix2 r k) * rowGate x0 x1 x2 x3 x4 x5 r := by
  have e0 : rj 0 = r := Fin.ext h0
  have hk : (rj 1).val < 64 := by have := k.isLt; omega
  have ek : (⟨(rj 1).val, hk⟩ : Fin 64) = k := Fin.ext h1
  unfold EdgeGate.outRows rowGate
  dsimp only
  rw [dif_pos hk, ek, e0]

/-! ## The two stored pieces against the result block -/

/-- The piece stored at column 64 agrees with the result block at its indices. -/
theorem gate_piece (x0 x1 : Vec Ideal S8000x64 .f32) (x2 : Vec Ideal S129x16 .f32) (x3 : Vec Ideal S1x16 .f32) (x4 : Vec Ideal S16x1 .f32) (x5 : Vec Ideal S1x1 .f32) (x : S8000x1.Idx) :
    (k0_pay1 (F := Ideal) (k0_pay4 (F := Ideal) x0 x1 (wD x2) (wS x2) (wSim x2) x3) x4 x5 : S8000x1.Idx → EReal) x
      = EdgeGate.outRows (R := 8000) x0 x1 x2 x3 x4 x5
          ((Rect.unit (s := S8000x65) ![0, 64] ![8000, 1] inb_S8000x65_S8000x1_0_64).emb x) := by
  obtain ⟨r, u, rfl⟩ : ∃ (r : Fin 8000) (u : Fin 1), x = ix2 r u := ⟨x 0, x 1, eq_ix2 x⟩
  obtain rfl : u = 0 := Subsingleton.elim _ _
  rw [outRows_gate x0 x1 x2 x3 x4 x5 _ r (by show 0 + 1 * r.val = r.val; omega) (by show 64 + 1 * 0 = 64; rfl)]
  exact gate_at x0 x1 x2 x3 x4 x5 r

/-- The piece stored at columns 0..63 agrees with the result block at its indices. -/
theorem row_piece (x0 x1 : Vec Ideal S8000x64 .f32) (x2 : Vec Ideal S129x16 .f32) (x3 : Vec Ideal S1x16 .f32) (x4 : Vec Ideal S16x1 .f32) (x5 : Vec Ideal S1x1 .f32) (x : S8000x64.Idx) :
    (k0_pay2 (F := Ideal) (k0_pay3 (F := Ideal) x0) (k0_pay4 (F := Ideal) x0 x1 (wD x2) (wS x2) (wSim x2) x3) x4 x5 : S8000x64.Idx → EReal) x
      = EdgeGate.outRows (R := 8000) x0 x1 x2 x3 x4 x5
          ((Rect.unit (s := S8000x65) ![0, 0] ![8000, 64] inb_S8000x65_S8000x64_0_0).emb x) := by
  obtain ⟨r, k, rfl⟩ : ∃ (r : Fin 8000) (k : Fin 64), x = ix2 r k := ⟨x 0, x 1, eq_ix2 x⟩
  rw [outRows_row x0 x1 x2 x3 x4 x5 _ r k (by show 0 + 1 * r.val = r.val; omega) (by show 0 + 1 * k.val = k.val; omega)]
  rw [pay2_apply, gate_at, pay3_eq]

end BodyRows

open BodyRows

/-- The block the kernel's run leaves in its output, at the extended reals, is `outRows` of the blocks it loaded. -/
theorem out_rows (c : Dev nD) (i : grid0.Coords) (arg1 : Memref sig .tc .vmem S8000x64 .f32) (harg1 : arg1.IsWhole) (arg2 : Memref sig .tc .vmem S8000x64 .f32) (harg2 : arg2.IsWhole) (arg3 : Memref sig .tc .vmem S129x16 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S1x1 .f32) (harg6 : arg6.IsWhole) (arg7 : Memref sig .tc .vmem S8000x65 .f32) (harg7 : arg7.IsWhole)
    (x0 : Vec Ideal S8000x64 .f32) (x1 : Vec Ideal S8000x64 .f32) (x2 : Vec Ideal S129x16 .f32) (x3 : Vec Ideal S1x16 .f32) (x4 : Vec Ideal S16x1 .f32) (x5 : Vec Ideal S1x1 .f32) :
    out0_A_6 (F := Ideal) c i arg1 harg1 arg2 harg2 arg3 harg3 arg4 harg4 arg5 harg5 arg6 harg6 arg7 harg7 x0 x1 x2 x3 x4 x5
      = EdgeGate.outRows (R := 8000) x0 x1 x2 x3 x4 x5 := by
  unfold out0_A_6
  rw [View.read_writes_eq_canon _ _ _ (cover0_A_6 (F := Ideal) c i arg1 harg1 arg2 harg2 arg3 harg3 arg4 harg4 arg5 harg5 arg6 harg6 arg7 harg7 x0 x1 x2 x3 x4 x5)]
  funext rj
  refine View.canon_apply_of_pieces (Val := Elt Ideal) (S := S8000x65) (e := .f32) (EdgeGate.outRows (R := 8000) x0 x1 x2 x3 x4 x5) _ ?_ rj
    (cover0_A_6 (F := Ideal) c i arg1 harg1 arg2 harg2 arg3 harg3 arg4 harg4 arg5 harg5 arg6 harg6 arg7 harg7 x0 x1 x2 x3 x4 x5 rj)
  unfold kernelRun0_A
  dsimp only
  sl_unfold_words
  simp only [View.readAt_eq_ld, harg1.read_unread, harg2.read_unread, harg3.read_unread, harg4.read_unread, harg5.read_unread,
    harg6.read_unread, View.ld_unit_zero (S := S8000x64) off00, View.ld_unit_zero (S := S1x16) off00,
    View.ld_unit_zero (S := S16x1) off00, View.ld_unit_zero (S := S1x1) off00]
  intro p hp
  rcases List.mem_cons.mp hp with rfl | hp
  · exact gate_piece x0 x1 x2 x3 x4 x5
  rcases List.mem_cons.mp hp with rfl | hp
  · exact row_piece x0 x1 x2 x3 x4 x5
  · exact absurd hp List.not_mem_nil

end Cert.KernelIdeal.EdgeValue

end
-- ==== Proof.KBlocks.lean ====
/-
  From blocks to the array: grid point t of the 100 writes rows 8000·t … 8000·t + 7999 of the 800000 × 65 output, the
  function `outRows` of the same rows of the two gathered arrays and of the whole parameter arrays; the blocks tile
  the array, so the array after the launch is `outRows` of the whole arrays.
-/
import proofs.«430099_j78073915507114_1_alg».proof.Proof.Gen.KernelIdeal.Frame
import proofs.«430099_j78073915507114_1_alg».proof.Proof.Spec
import proofs.«430099_j78073915507114_1_alg».proof.Proof.KBody
import Idealize.ShloMosaic.Lib.Pipeline.Value

noncomputable section

open Idealize.ShloMosaic Idealize.ShloMosaic.TcCoe Idealize.SL.Sem Idealize.ShloMosaic.ValueIdx

namespace Cert.KernelIdeal.EdgeValue

open Cert.KernelIdeal Cert.KernelIdeal.Gen

/-- `outRows` depends, at a row, only on that row of the two feature arrays: a row of a block and the row of the
    whole arrays it was cut from give the same 65 entries. -/
theorem outRows_row {B R : ℕ} (x0 x1 : (⟨2, ![B, 64]⟩ : Shape).Idx → EReal) (X0 X1 : (⟨2, ![R, 64]⟩ : Shape).Idx → EReal)
    (p2 : (⟨2, ![129, 16]⟩ : Shape).Idx → EReal) (p3 : (⟨2, ![1, 16]⟩ : Shape).Idx → EReal)
    (p4 : (⟨2, ![16, 1]⟩ : Shape).Idx → EReal) (p5 : (⟨2, ![1, 1]⟩ : Shape).Idx → EReal)
    (r : Fin B) (r' : Fin R) (h0 : ∀ k : Fin 64, x0 (ix2 r k) = X0 (ix2 r' k)) (h1 : ∀ k : Fin 64, x1 (ix2 r k) = X1 (ix2 r' k))
    (q q' : Fin 65) (hq : q'.val = q.val) :
    EdgeGate.outRows x0 x1 p2 p3 p4 p5 (ix2 r q) = EdgeGate.outRows X0 X1 p2 p3 p4 p5 (ix2 r' q') := by
  obtain rfl : q' = q := Fin.ext hq
  have e0 : (fun k : Fin 64 => x0 (ix2 r k)) = fun k => X0 (ix2 r' k) := funext h0
  have e1 : (fun k : Fin 64 => x1 (ix2 r k)) = fun k => X1 (ix2 r' k) := funext h1
  unfold EdgeGate.outRows
  show (if hj : q'.val < 64 then x0 (ix2 r ⟨q'.val, hj⟩) * EdgeGate.gate (fun k => x0 (ix2 r k)) (fun k => x1 (ix2 r k)) _ _ _ _
      else EdgeGate.gate (fun k => x0 (ix2 r k)) (fun k => x1 (ix2 r k)) _ _ _ _)
    = (if hj : q'.val < 64 then X0 (ix2 r' ⟨q'.val, hj⟩) * EdgeGate.gate (fun k => X0 (ix2 r' k)) (fun k => X1 (ix2 r' k)) _ _ _ _
      else EdgeGate.gate (fun k => X0 (ix2 r' k)) (fun k => X1 (ix2 r' k)) _ _ _ _)
  rw [e0, e1]
  split
  · rename_i hj; rw [h0 ⟨q'.val, hj⟩]
  · rfl

variable (m : (ℓ : Loc nD τ sig) → Buf (Elt Ideal) ℓ)

/-- The printed index maps over the 100 grid points: the two feature windows and the output move by blocks of rows
    (block index = the point), the four parameter windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Reading a block of any array

The index maps say where a block sits, whatever the array holds: the two feature windows' block at point t is rows
8000·t … 8000·t + 7999, a parameter window's block is the whole array. Stated over an arbitrary array X, so that nothing
about how the launch's arrays were computed is opened here. -/

theorem read_rows0 (X : S800000x64.Idx → EReal) (t : Fin cfg0.N) (y : S8000x64.Idx) (i : S800000x64.Idx)
    (h0 : (i 0).val = t.val * 8000 + (y 0).val) (h1 : (i 1).val = (y 1).val) :
    ((cfg0.win 0).blk t).view.read (Elt Ideal) X y = X i := by
  show X (((cfg0.win 0).blk t).view.emb y) = X i
  refine congrArg X ?_
  obtain ⟨e0, e1, -⟩ := idx_facts t
  funext a; apply Fin.ext
  match a with
  | ⟨0, _⟩ => show win0_0.index t (0 : Fin 2) * 8000 + 1 * (y 0).val = (i 0).val; omega
  | ⟨1, _⟩ => show win0_0.index t (1 : Fin 2) * 64 + 1 * (y 1).val = (i 1).val; omega

theorem read_rows1 (X : S800000x64.Idx → EReal) (t : Fin cfg0.N) (y : S8000x64.Idx) (i : S800000x64.Idx)
    (h0 : (i 0).val = t.val * 8000 + (y 0).val) (h1 : (i 1).val = (y 1).val) :
    ((cfg0.win 1).blk t).view.read (Elt Ideal) X y = X i := by
  show X (((cfg0.win 1).blk t).view.emb y) = X i
  refine congrArg X ?_
  obtain ⟨-, -, e0, e1, -⟩ := idx_facts t
  funext a; apply Fin.ext
  match a with
  | ⟨0, _⟩ => show win0_1.index t (0 : Fin 2) * 8000 + 1 * (y 0).val = (i 0).val; omega
  | ⟨1, _⟩ => show win0_1.index t (1 : Fin 2) * 64 + 1 * (y 1).val = (i 1).val; omega

theorem read_whole2 (X : S129x16.Idx → EReal) (t : Fin cfg0.N) :
    ((cfg0.win 2).blk t).view.read (Elt Ideal) X = X := by
  funext y
  show X (((cfg0.win 2).blk t).view.emb y) = X y
  refine congrArg X ?_
  obtain ⟨-, -, -, -, e0, e1, -⟩ := idx_facts t
  funext a; apply Fin.ext
  match a with
  | ⟨0, _⟩ => show win0_2.index t (0 : Fin 2) * 129 + 1 * (y 0).val = (y 0).val; omega
  | ⟨1, _⟩ => show win0_2.index t (1 : Fin 2) * 16 + 1 * (y 1).val = (y 1).val; omega

theorem read_whole3 (X : S1x16.Idx → EReal) (t : Fin cfg0.N) :
    ((cfg0.win 3).blk t).view.read (Elt Ideal) X = X := by
  funext y
  show X (((cfg0.win 3).blk t).view.emb y) = X y
  refine congrArg X ?_
  obtain ⟨-, -, -, -, -, -, e0, e1, -⟩ := idx_facts t
  funext a; apply Fin.ext
  match a with
  | ⟨0, _⟩ => show win0_3.index t (0 : Fin 2) * 1 + 1 * (y 0).val = (y 0).val; omega
  | ⟨1, _⟩ => show win0_3.index t (1 : Fin 2) * 16 + 1 * (y 1).val = (y 1).val; omega

theorem read_whole4 (X : S16x1.Idx → EReal) (t : Fin cfg0.N) :
    ((cfg0.win 4).blk t).view.read (Elt Ideal) X = X := by
  funext y
  show X (((cfg0.win 4).blk t).view.emb y) = X y
  refine congrArg X ?_
  obtain ⟨-, -, -, -, -, -, -, -, e0, e1, -⟩ := idx_facts t
  funext a; apply Fin.ext
  match a with
  | ⟨0, _⟩ => show win0_4.index t (0 : Fin 2) * 16 + 1 * (y 0).val = (y 0).val; omega
  | ⟨1, _⟩ => show win0_4.index t (1 : Fin 2) * 1 + 1 * (y 1).val = (y 1).val; omega

theorem read_whole5 (X : S1x1.Idx → EReal) (t : Fin cfg0.N) :
    ((cfg0.win 5).blk t).view.read (Elt Ideal) X = X := by
  funext y
  show X (((cfg0.win 5).blk t).view.emb y) = X y
  refine congrArg X ?_
  obtain ⟨-, -, -, -, -, -, -, -, -, -, e0, e1, -⟩ := idx_facts t
  funext a; apply Fin.ext
  match a with
  | ⟨0, _⟩ => show win0_5.index t (0 : Fin 2) * 1 + 1 * (y 0).val = (y 0).val; omega
  | ⟨1, _⟩ => show win0_5.index t (1 : Fin 2) * 1 + 1 * (y 1).val = (y 1).val; omega

/-- The arrays the launch finds, and its blocks at a point, under their literal types. -/
abbrev srcArr (c : Dev nD) : (⟨2, ![800000, 64]⟩ : Shape).Idx → EReal := V m c main_v4
abbrev dstArr (c : Dev nD) : (⟨2, ![800000, 64]⟩ : Shape).Idx → EReal := V m c main_v5
abbrev w1Arr (c : Dev nD) : (⟨2, ![129, 16]⟩ : Shape).Idx → EReal := V m c main_arg2
abbrev b1Arr (c : Dev nD) : (⟨2, ![1, 16]⟩ : Shape).Idx → EReal := V m c main_v6
abbrev w2Arr (c : Dev nD) : (⟨2, ![16, 1]⟩ : Shape).Idx → EReal := V m c main_arg4
abbrev b2Arr (c : Dev nD) : (⟨2, ![1, 1]⟩ : Shape).Idx → EReal := V m c main_v7
abbrev srcBlk (c : Dev nD) (t : Fin cfg0.N) : (⟨2, ![8000, 64]⟩ : Shape).Idx → EReal := iblk m c 0 t
abbrev dstBlk (c : Dev nD) (t : Fin cfg0.N) : (⟨2, ![8000, 64]⟩ : Shape).Idx → EReal := iblk m c 1 t
abbrev w1Blk (c : Dev nD) (t : Fin cfg0.N) : (⟨2, ![129, 16]⟩ : Shape).Idx → EReal := iblk m c 2 t
abbrev b1Blk (c : Dev nD) (t : Fin cfg0.N) : (⟨2, ![1, 16]⟩ : Shape).Idx → EReal := iblk m c 3 t
abbrev w2Blk (c : Dev nD) (t : Fin cfg0.N) : (⟨2, ![16, 1]⟩ : Shape).Idx → EReal := iblk m c 4 t
abbrev b2Blk (c : Dev nD) (t : Fin cfg0.N) : (⟨2, ![1, 1]⟩ : Shape).Idx → EReal := iblk m c 5 t

/-- An entry of the source block at point t is the entry of the gathered source rows 8000·t rows further down. -/
theorem srcBlk_apply (c : Dev nD) (t : Fin cfg0.N) (y : S8000x64.Idx) (i : S800000x64.Idx)
    (h0 : (i 0).val = t.val * 8000 + (y 0).val) (h1 : (i 1).val = (y 1).val) :
    srcBlk m c t y = srcArr m c i :=
  read_rows0 (V m c main_v4) t y i h0 h1

/-- An entry of the destination block at point t is the entry of the gathered destination rows 8000·t rows further down. -/
theorem dstBlk_apply (c : Dev nD) (t : Fin cfg0.N) (y : S8000x64.Idx) (i : S800000x64.Idx)
    (h0 : (i 0).val = t.val * 8000 + (y 0).val) (h1 : (i 1).val = (y 1).val) :
    dstBlk m c t y = dstArr m c i :=
  read_rows1 (V m c main_v5) t y i h0 h1

/-- A parameter window's block is its whole array at every point. -/
theorem w1Blk_eq (c : Dev nD) (t : Fin cfg0.N) : w1Blk m c t = w1Arr m c := read_whole2 (V m c main_arg2) t
theorem b1Blk_eq (c : Dev nD) (t : Fin cfg0.N) : b1Blk m c t = b1Arr m c := read_whole3 (V m c main_v6) t
theorem w2Blk_eq (c : Dev nD) (t : Fin cfg0.N) : w2Blk m c t = w2Arr m c := read_whole4 (V m c main_arg4) t
theorem b2Blk_eq (c : Dev nD) (t : Fin cfg0.N) : b2Blk m c t = b2Arr m c := read_whole5 (V m c main_v7) t

/-- The whole output array as one function of the arrays the launch finds. -/
abbrev outArr (c : Dev nD) : (⟨2, ![800000, 65]⟩ : Shape).Idx → EReal :=
  EdgeGate.outRows (R := 800000) (srcArr m c) (dstArr m c) (w1Arr m c) (b1Arr m c) (w2Arr m c) (b2Arr m c)

/-- What the body leaves in the output's staging buffer at point t: `outRows` of the point's input blocks. -/
theorem outsAt_eq (c : Dev nD) (t : Fin cfg0.N) :
    outsAt0 (F := Ideal) m c t
      = EdgeGate.outRows (R := 8000) (srcBlk m c t) (dstBlk m c t) (w1Blk m c t) (b1Blk m c t) (w2Blk m c t) (b2Blk m c t) :=
  out_rows c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (iblk m c 0 t) (iblk m c 1 t) (iblk m c 2 t) (iblk m c 3 t) (iblk m c 4 t) (iblk m c 5 t)

/-- Row r of the block point t writes is row 8000·t + r of `outArr`. -/
theorem outRows_blk (c : Dev nD) (t : Fin cfg0.N) (r : Fin 8000) (q : Fin 65) (r' : Fin 800000) (hr : r'.val = t.val * 8000 + r.val) :
    EdgeGate.outRows (R := 8000) (srcBlk m c t) (dstBlk m c t) (w1Blk m c t) (b1Blk m c t) (w2Blk m c t) (b2Blk m c t) (ix2 r q)
      = outArr m c (ix2 r' q) := by
  rw [w1Blk_eq, b1Blk_eq, w2Blk_eq, b2Blk_eq]
  exact outRows_row (srcBlk m c t) (dstBlk m c t) (srcArr m c) (dstArr m c) (w1Arr m c) (b1Arr m c) (w2Arr m c) (b2Arr m c) r r'
    (fun k => srcBlk_apply m c t (ix2 r k) (ix2 r' k) hr rfl) (fun k => dstBlk_apply m c t (ix2 r k) (ix2 r' k) hr rfl) q q rfl

/-- WHAT POINT t WRITES BACK is block t of `outArr`. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6, outsAt_eq]
  refine funext fun (j : S8000x65.Idx) => ?_
  obtain ⟨e0, e1⟩ : win0_6.index t (0 : Fin 2) = t.val ∧ win0_6.index t (1 : Fin 2) = 0 := by
    obtain ⟨-, -, -, -, -, -, -, -, -, -, -, -, e0, e1⟩ := idx_facts t
    exact ⟨e0, e1⟩
  have ht : t.val < 100 := t.isLt
  have hj0 : (j 0).val < 8000 := (j 0).isLt
  have hemb : ((cfg0.win 6).blk t).view.emb j = ix2 (⟨t.val * 8000 + (j 0).val, by omega⟩ : Fin 800000) (j 1) := by
    funext a; apply Fin.ext
    match a with
    | ⟨0, _⟩ => show win0_6.index t (0 : Fin 2) * 8000 + 1 * (j 0).val = t.val * 8000 + (j 0).val; omega
    | ⟨1, _⟩ => show win0_6.index t (1 : Fin 2) * 65 + 1 * (j 1).val = (j 1).val; omega
  show EdgeGate.outRows (R := 8000) (srcBlk m c t) (dstBlk m c t) (w1Blk m c t) (b1Blk m c t) (w2Blk m c t) (b2Blk m c t) j
    = outArr m c (((cfg0.win 6).blk t).view.emb j)
  rw [hemb]
  exact (congrArg (EdgeGate.outRows (R := 8000) (srcBlk m c t) (dstBlk m c t) (w1Blk m c t) (b1Blk m c t) (w2Blk m c t) (b2Blk m c t)) (eq_ix2 j)).trans
    (outRows_blk m c t (j 0) (j 1) _ rfl)

/-- An index of the output array is in point t's block iff each coordinate is in the block's range on its axis. -/
theorem mem_blk (t : Fin cfg0.N) (i : S800000x65.Idx) :
    i ∈ ((cfg0.win 6).blk t).view.set ↔ ∀ a : Fin 2, win0_6.index t a * S8000x65.size a ≤ (i a).val ∧ (i a).val < win0_6.index t a * S8000x65.size a + S8000x65.size a := by
  show i ∈ ((View.whole main_v8).slice (win0_6.rect t)).set ↔ _
  rw [View.set_slice_whole, Rect.mem_set_unit]
  exact Iff.rfl

/-- Every entry of the output array lies in the block of the point that is its row divided by 8000. -/
theorem cover (i : S800000x65.Idx) : ∃ t : Fin cfg0.N, (cfg0.win 6).flush t = true ∧ i ∈ ((cfg0.win 6).blk t).view.set := by
  have hi0 : (i 0).val < 800000 := (i 0).isLt
  have hi1 : (i 1).val < 65 := (i 1).isLt
  refine ⟨⟨(i 0).val / 8000, by show (i 0).val / 8000 < 100; omega⟩, flush0_6 _, ?_⟩
  rw [mem_blk]
  obtain ⟨-, -, -, -, -, -, -, -, -, -, -, -, e0, e1⟩ := idx_facts ⟨(i 0).val / 8000, by show (i 0).val / 8000 < 100; omega⟩
  intro a
  match a with
  | ⟨0, _⟩ =>
    show win0_6.index _ (0 : Fin 2) * 8000 ≤ (i 0).val ∧ (i 0).val < win0_6.index _ (0 : Fin 2) * 8000 + 8000
    rw [e0]; show (i 0).val / 8000 * 8000 ≤ (i 0).val ∧ (i 0).val < (i 0).val / 8000 * 8000 + 8000; omega
  | ⟨1, _⟩ =>
    show win0_6.index _ (1 : Fin 2) * 65 ≤ (i 1).val ∧ (i 1).val < win0_6.index _ (1 : Fin 2) * 65 + 65
    rw [e1]; omega

/-- The output array after the launch is `outRows` of the arrays the launch found. -/
theorem out_array (c : Dev nD) :
    ((dats m 0 c).arrAt 6 cfg0.N : S800000x65.Idx → EReal)
      = EdgeGate.outRows (R := 800000) (V m c main_v4) (V m c main_v5) (V m c main_arg2) (V m c main_v6) (V m c main_arg4) (V m c main_v7) :=
  (dats m 0 c).arrAt_eq_of_cover 6 (outArr m c) (fun t _ => flushed_eq m c t) cover

end Cert.KernelIdeal.EdgeValue

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.KHost.lean ====
/-
  The two bias arguments as the launch finds them: each reshaped on the host into a one-row matrix, read at an index.
-/
import proofs.«430099_j78073915507114_1_alg».proof.Proof.Gen.KernelIdeal.Frame
import proofs.«430099_j78073915507114_1_alg».proof.Proof.Spec
import proofs.«430099_j78073915507114_1_alg».proof.Proof.LibScatterRead
import Idealize.ShloMosaic.Lib.Pipeline.Value

noncomputable section

open Idealize.ShloMosaic Idealize.ShloMosaic.TcCoe Idealize.SL.Sem Idealize.ShloMosaic.ValueIdx

namespace Cert.KernelIdeal.EdgeValue

open Cert.KernelIdeal Cert.KernelIdeal.Gen

variable (m : (ℓ : Loc nD τ sig) → Buf (Elt Ideal) ℓ)

/-- A vector laid out as a one-row matrix reads, at (0, q), its entry q: both sit at row-major position q. -/
theorem cast_row {α : Type} {n : ℕ} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) := by
  refine shapeCast_apply x h _ _ ?_
  rw [Shape.rowMajor_val_one, Shape.rowMajor_val_two]
  show q.val = 0 * n + q.val
  omega

/-- The first bias as a 1 × 16 row. -/
theorem V_b1 (c : Dev nD) (q : Fin 16) :
    (V m c main_v6 : S1x16.Idx → EReal) (ix2 (0 : Fin 1) q) = (m ((c.tc : Thread nD τ).loc main_arg3) : S16.Idx → EReal) (ix1 q) := by
  have e : (V m c main_v6 : S1x16.Idx → EReal)
      = shapeCast S1x16 (m ((c.tc : Thread nD τ).loc main_arg3) : S16.Idx → EReal) Facts₀.shapeCasts_S16_S1x16 := by
    dsimp only [Gen.V, Gen.V0]
    simp only [hostOps0, hostOps0_1, hostOps0_2, hostOps0_3, List.flatten_cons, List.flatten_nil, List.append_nil, List.cons_append, List.nil_append]
    after_results
    rfl
  rw [e]
  exact cast_row _ _ q

/-- The second bias as a 1 × 1 block. -/
theorem V_b2 (c : Dev nD) :
    (V m c main_v7 : S1x1.Idx → EReal) (ix2 (0 : Fin 1) (0 : Fin 1)) = (m ((c.tc : Thread nD τ).loc main_arg5) : S1.Idx → EReal) (ix1 (0 : Fin 1)) := by
  have e : (V m c main_v7 : S1x1.Idx → EReal)
      = shapeCast S1x1 (m ((c.tc : Thread nD τ).loc main_arg5) : S1.Idx → EReal) Facts₀.shapeCasts_S1_S1x1 := by
    dsimp only [Gen.V, Gen.V0]
    simp only [hostOps0, hostOps0_1, hostOps0_2, hostOps0_3, List.flatten_cons, List.flatten_nil, List.append_nil, List.cons_append, List.nil_append]
    after_results
    rfl
  rw [e]
  exact cast_row _ _ (0 : Fin 1)

end Cert.KernelIdeal.EdgeValue

end
-- ==== Proof.KGather.lean ====
/-
  The two row gathers before the launch, read at an index. The kernel program gathers in fill mode: a negative word is
  wrapped by the table's height, a mask asks of every wrapped word 0 ≤ w ≤ 49999, and a row whose word fails it is
  filled with a constant. For index words in range nothing wraps and the mask is true everywhere, so row e of each
  gathered array is the row of the feature table its word names.
-/
import proofs.«430099_j78073915507114_1_alg».proof.Proof.Gen.KernelIdeal.Frame
import proofs.«430099_j78073915507114_1_alg».proof.Proof.Spec
import proofs.«430099_j78073915507114_1_alg».proof.Proof.LibScatterRead
import Idealize.ShloMosaic.Lib.Pipeline.Value
import Idealize.ShloMosaic.Lib.Affine
import Idealize.ShloMosaic.PureOps.Reduce

noncomputable section

open Idealize.ShloMosaic Idealize.ShloMosaic.TcCoe Idealize.SL.Sem Idealize.ShloMosaic.ValueIdx
open Idealize.ShloMosaic.StableHlo

namespace Cert.KernelIdeal.EdgeValue

open Cert.KernelIdeal Cert.KernelIdeal.Gen

variable (m : (ℓ : Loc nD τ sig) → Buf (Elt Ideal) ℓ)

/-! ## Words -/

/-- A word that is not negative read signed is not below zero: the wrap keeps it. -/
theorem wrap_keep {α : Type} (a : BitVec 32) (h0 : 0 ≤ a.toInt) (p q : α) :
    Scalar.select (IntOp.cmpi .slt a 0#32) p q = q := by
  have hc : IntOp.cmpi .slt a 0#32 = 0#1 := eq_zero_of_ne_one fun h => by
    have h1 := IntOp.cmpi_slt.1 h
    rw [show (0#32 : BitVec 32).toInt = 0 from by decide] at h1
    omega
  rw [hc, select_zero]

/-- A word in [0, 49999] read signed passes both tests of the fill mask. -/
theorem inside_word (a : BitVec 32) (h0 : 0 ≤ a.toInt) (h1 : a.toInt ≤ 49999) :
    IntOp.andi (IntOp.cmpi .sge a 0#32) (IntOp.cmpi .sle a 49999#32) = 1#1 := by
  refine IntOp.andi_eq_one.2 ⟨IntOp.cmpi_sge.2 ?_, IntOp.cmpi_sle.2 ?_⟩
  · rw [show (0#32 : BitVec 32).toInt = 0 from by decide]; exact h0
  · rw [show (49999#32 : BitVec 32).toInt = 49999 from by decide]; exact h1

/-- A left fold by `and` from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi (1#1 : BitVec 1) 1#1 = 1#1 from by decide]
    exact foldl_andi_ones f l fun n hn => h n (List.mem_cons_of_mem _ hn)

/-! ## The stages of the take -/

/-- One row of the index array as a vector of words: the slice at the row, flattened. -/
theorem rowWords_apply (off : Fin 2 → ℕ) (r : Fin 2) (h0 : off 0 = r.val) (h1 : off 1 = 0) (hs : S2x800000.Slices off S1x800000)
    (ei : IVec S2x800000 32) (e : Fin 800000) :
    shapeCast S800000 (extractStridedSlice S1x800000 off ei hs) shapeCasts_S1x800000_S800000 (ix1 e) = ei (ix2 r e) := by
  rw [shapeCast_apply _ _ (ix1 e) (ix2 (0 : Fin 1) e) (by
    rw [Shape.rowMajor_val_one, Shape.rowMajor_val_two]
    show 0 * 800000 + e.val = e.val
    omega)]
  refine extractStridedSlice_apply off ei hs _ (ix2 r e) fun a => ?_
  match a with
  | ⟨0, _⟩ => show r.val = off 0 + 0; omega
  | ⟨1, _⟩ => show e.val = off 1 + e.val; omega

/-- In range, every word of a row of the index array is in range. -/
theorem inRange_row (ei : IVec S2x800000 32) (hr : EdgeGate.InRange ei) (off : Fin 2 → ℕ) (r : Fin 2) (h0 : off 0 = r.val) (h1 : off 1 = 0)
    (hs : S2x800000.Slices off S1x800000) (e : Fin 800000) :
    0 ≤ (shapeCast S800000 (extractStridedSlice S1x800000 off ei hs) shapeCasts_S1x800000_S800000 (ix1 e)).toInt
      ∧ (shapeCast S800000 (extractStridedSlice S1x800000 off ei hs) shapeCasts_S1x800000_S800000 (ix1 e)).toInt < 50000 := by
  rw [rowWords_apply off r h0 h1 hs ei e]
  exact hr r e

/-- The words with a negative one wrapped by the table's height, as a column. -/
def wrapped (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- A word that is not negative is not wrapped. -/
theorem wrapped_apply (w : IVec S800000 32) (e : Fin 800000) (h0 : 0 ≤ (w (ix1 e)).toInt) :
    wrapped w (ix2 e (0 : Fin 1)) = w (ix1 e) := by
  unfold wrapped
  rw [broadcastInDim_apply _ _ _ (ix2 e (0 : Fin 1)) (ix1 e) (fun a => by
    match a with
    | ⟨0, _⟩ => rfl)]
  rw [select_apply]
  exact wrap_keep _ h0 _ _

/-- The fill mask: every wrapped word of the row in [0, 49999]. -/
def inside (v : IVec S800000x1 32) : IVec S800000 1 :=
  Host.reduce IntOp.andi
    (andi (cmpi .sge v (broadcastInDim S800000x1 ![] bcast_S_S800000x1 (constantI S_ 32 0#32)))
      (cmpi .sle v (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- With every word in [0, 49999] the mask is true everywhere. -/
theorem inside_apply (v : IVec S800000x1 32) (hv : ∀ i, 0 ≤ (v i).toInt ∧ (v i).toInt ≤ 49999) (j : S800000.Idx) :
    inside v j = 1#1 := by
  unfold inside
  rw [Host.reduce_eq_foldl]
  exact foldl_andi_ones _ _ fun i _ => inside_word (v i) (hv i).1 (hv i).2

/-- The take in fill mode: rows of x at the wrapped words, a row whose word is outside the table filled with a constant. -/
def takeRows (x : FVec Ideal S50000x64 .f32) (w : IVec S800000 32) : FVec Ideal S800000x64 .f32 :=
  select (broadcastInDim S800000x64 ![0] bcast_S800000_S800000x64_0 (inside (wrapped w)))
    (Host.gather gather_S50000x64_S800000x1_S800000x64_1_0_n_n_0_1_164 x (wrapped w))
    (broadcastInDim S800000x64 ![] bcast_S_S800000x64 (constant (F := Ideal) S_ .f32 0x7FC00000#32))

/-- For words in range, row e of the take is the row of x its word names. -/
theorem takeRows_apply (x : FVec Ideal S50000x64 .f32) (w : IVec S800000 32)
    (hw : ∀ e : Fin 800000, 0 ≤ (w (ix1 e)).toInt ∧ (w (ix1 e)).toInt < 50000) (e : Fin 800000) (k : Fin 64) :
    takeRows x w (ix2 e k) = x (ix2 (EdgeGate.rowOf (w (ix1 e))) k) := by
  have hv : ∀ i, 0 ≤ (wrapped w i).toInt ∧ (wrapped w i).toInt ≤ 49999 := fun i => by
    obtain ⟨a, b, rfl⟩ : ∃ (a : Fin 800000) (b : Fin 1), i = ix2 a b := ⟨i 0, i 1, eq_ix2 i⟩
    obtain rfl : b = 0 := Subsingleton.elim _ _
    rw [wrapped_apply w a (hw a).1]
    have := hw a
    omega
  unfold takeRows
  rw [select_apply, broadcastInDim_apply _ _ _ (ix2 e k) (ix1 e) (fun a => by
    match a with
    | ⟨0, _⟩ => rfl), inside_apply _ hv, select_one]
  refine ScatterRead.gather_rows_apply _ rfl rfl rfl rfl rfl rfl rfl x _ e k (EdgeGate.rowOf (w (ix1 e))) ?_
  rw [wrapped_apply w e (hw e).1]
  exact (EdgeGate.rowOf_val (hw e).1 (hw e).2).symm

/-- A transport along an equation of a type with itself is the identity. -/
theorem cast_self {α : Type} (h : α = α) (a : α) : cast h a = a := (cast_eq h a).trans (Eq.refl a)

/-- The take with its stages written out, as the host operations spell it. -/
theorem take_at (x : FVec Ideal S50000x64 .f32) (w : IVec S800000 32)
    (hw : ∀ e : Fin 800000, 0 ≤ (w (ix1 e)).toInt ∧ (w (ix1 e)).toInt < 50000) (e : Fin 800000) (k : Fin 64) :
    select
      (broadcastInDim S800000x64 ![0] bcast_S800000_S800000x64_0
        (Host.reduce IntOp.andi
          (andi
            (cmpi .sge (broadcastInDim S800000x1 ![0] bcast_S800000_S800000x1_0
          (select (cmpi .slt w (broadcastInDim S800000 ![] bcast_S_S800000 (constantI S_ 32 0#32)))
            (addi w (broadcastInDim S800000 ![] bcast_S_S800000 (constantI S_ 32 50000#32))) w))
              (broadcastInDim S800000x1 ![] bcast_S_S800000x1 (constantI S_ 32 0#32)))
            (cmpi .sle (broadcastInDim S800000x1 ![0] bcast_S800000_S800000x1_0
          (select (cmpi .slt w (broadcastInDim S800000 ![] bcast_S_S800000 (constantI S_ 32 0#32)))
            (addi w (broadcastInDim S800000 ![] bcast_S_S800000 (constantI S_ 32 50000#32))) w))
              (broadcastInDim S800000x1 ![0, 1] bcast_S1x1_S800000x1_0_1
                (broadcastInDim S1x1 ![1] bcast_S1_S1x1_1 (constantI S1 32 49999#32)))))
          (constantI S_ 1 1#1) reducesTo_S800000x1_S800000_d1 h_S_))
      (Host.gather gather_S50000x64_S800000x1_S800000x64_1_0_n_n_0_1_164 x (broadcastInDim S800000x1 ![0] bcast_S800000_S800000x1_0
          (select (cmpi .slt w (broadcastInDim S800000 ![] bcast_S_S800000 (constantI S_ 32 0#32)))
            (addi w (broadcastInDim S800000 ![] bcast_S_S800000 (constantI S_ 32 50000#32))) w)))
      (broadcastInDim S800000x64 ![] bcast_S_S800000x64 (constant (F := Ideal) S_ .f32 0x7FC00000#32)) (ix2 e k)
    = x (ix2 (EdgeGate.rowOf (w (ix1 e))) k) :=
  takeRows_apply x w hw e k

/-! ## The two gathered arrays as the launch finds them -/

/-- Row e of the gathered source rows is the feature row its source word names. -/
theorem V_src (c : Dev nD) (hr : EdgeGate.InRange (m ((c.tc : Thread nD τ).loc main_arg1))) (e : Fin 800000) (k : Fin 64) :
    (V m c main_v4 : S800000x64.Idx → EReal) (ix2 e k)
      = (m ((c.tc : Thread nD τ).loc main_arg0) : S50000x64.Idx → EReal)
          (ix2 (EdgeGate.rowOf ((m ((c.tc : Thread nD τ).loc main_arg1) : S2x800000.Idx → BitVec 32) (ix2 (0 : Fin 2) e))) k) := by
  dsimp only [Gen.V, Gen.V0]
  simp only [hostOps0, hostOps0_1, hostOps0_2, hostOps0_3, List.flatten_cons, List.flatten_nil, List.append_nil, List.cons_append, List.nil_append]
  after_results_simp
  simp only [TRef.ofBuf, TRef.toBuf, cast_self]
  refine (take_at _ _ (fun e' => ?_) e k).trans ?_
  · exact inRange_row _ hr ![0, 0] 0 rfl rfl slices_S2x800000_S1x800000_0_0 e'
  · exact congrArg (fun r => (m ((c.tc : Thread nD τ).loc main_arg0) : S50000x64.Idx → EReal) (ix2 (EdgeGate.rowOf r) k))
      (rowWords_apply ![0, 0] 0 rfl rfl slices_S2x800000_S1x800000_0_0 (m ((c.tc : Thread nD τ).loc main_arg1)) e)

/-- Row e of the gathered destination rows is the feature row its destination word names. -/
theorem V_dst (c : Dev nD) (hr : EdgeGate.InRange (m ((c.tc : Thread nD τ).loc main_arg1))) (e : Fin 800000) (k : Fin 64) :
    (V m c main_v5 : S800000x64.Idx → EReal) (ix2 e k)
      = (m ((c.tc : Thread nD τ).loc main_arg0) : S50000x64.Idx → EReal)
          (ix2 (EdgeGate.rowOf ((m ((c.tc : Thread nD τ).loc main_arg1) : S2x800000.Idx → BitVec 32) (ix2 (1 : Fin 2) e))) k) := by
  dsimp only [Gen.V, Gen.V0]
  simp only [hostOps0, hostOps0_1, hostOps0_2, hostOps0_3, List.flatten_cons, List.flatten_nil, List.append_nil, List.cons_append, List.nil_append]
  after_results_simp
  simp only [TRef.ofBuf, TRef.toBuf, cast_self]
  refine (take_at _ _ (fun e' => ?_) e k).trans ?_
  · exact inRange_row _ hr ![1, 0] 1 rfl rfl slices_S2x800000_S1x800000_1_0 e'
  · exact congrArg (fun r => (m ((c.tc : Thread nD τ).loc main_arg0) : S50000x64.Idx → EReal) (ix2 (EdgeGate.rowOf r) k))
      (rowWords_apply ![1, 0] 1 rfl rfl slices_S2x800000_S1x800000_1_0 (m ((c.tc : Thread nD τ).loc main_arg1)) e)

end Cert.KernelIdeal.EdgeValue

end
-- ==== Proof.KTail.lean ====
/-
  The host operations after the launch, read at an index: the scatter-add of the 65-column array by destination word
  (from zero), the split into the 64 feature columns and the gate column, the floor under the gate sums and the
  quotient.
-/
import proofs.«430099_j78073915507114_1_alg».proof.Proof.Gen.KernelIdeal.Frame
import proofs.«430099_j78073915507114_1_alg».proof.Proof.Spec
import proofs.«430099_j78073915507114_1_alg».proof.Proof.LibScatterRead
import Idealize.ShloMosaic.Lib.Pipeline.Value

noncomputable section

open Idealize.ShloMosaic Idealize.ShloMosaic.TcCoe Idealize.SL.Sem Idealize.ShloMosaic.ValueIdx

namespace Cert.KernelIdeal.EdgeValue

open Cert.KernelIdeal Cert.KernelIdeal.Gen

variable (m : (ℓ : Loc nD τ sig) → Buf (Elt Ideal) ℓ)

/-- The destination words as the tail finds them: row 1 of the index argument cut out and laid flat, read at e. -/
theorem dst_word (ei : IVec S2x800000 32) (e : Fin 800000) :
    shapeCast S800000 (extractStridedSlice S1x800000 ![1, 0] ei Facts₀.slices_S2x800000_S1x800000_1_0) Facts₀.shapeCasts_S1x800000_S800000 (ix1 e)
      = ei (ix2 (1 : Fin 2) e) := by
  refine (shapeCast_apply _ _ _ (ix2 (0 : Fin 1) e) ?_).trans ?_
  · rw [Shape.rowMajor_val_two, Shape.rowMajor_val_one]
    show 0 * 800000 + e.val = e.val
    omega
  · exact extractStridedSlice_apply _ ei _ _ (ix2 (1 : Fin 2) e) (fun ax => by
      match ax with
      | ⟨0, _⟩ => rfl
      | ⟨1, _⟩ => exact (Nat.zero_add _).symm)

/-- The scatter-add of the rows of X by the words D, from zero. -/
def sums (D : IVec S800000 32) (X : FVec Ideal S800000x65 .f32) : FVec Ideal S50000x65 .f32 :=
  Host.scatterAdd (F := Ideal) scatter_S50000x65_S800000x1_S800000x65_1_0_0_1
    (broadcastInDim S50000x65 ![] Facts₀.bcast_S_S50000x65 (constant (F := Ideal) S_ .f32 0x00000000#32))
    (broadcastInDim S800000x1 ![0] Facts₀.bcast_S800000_S800000x1_0 D) X

/-- Entry (a, k) of the scatter-add from zero is the sum of column k over the rows whose word, read signed, is a. -/
theorem sums_apply (D : IVec S800000 32) (X : FVec Ideal S800000x65 .f32) (a : Fin 50000) (k : Fin 65) :
    sums D X (ix2 a k) = ∑ e ∈ Finset.univ.filter (fun e : Fin 800000 => (D (ix1 e)).toInt = (a.val : ℤ)), X (ix2 e k) := by
  unfold sums
  rw [ScatterRead.scatterAdd_rows_apply _ rfl rfl rfl rfl, broadcastInDim_scalar_apply, constant_apply, Ideal.ofBits_zero_f32, zero_add]
  refine Finset.sum_congr (Finset.filter_congr fun e _ => ?_) fun _ _ => rfl
  have hw : broadcastInDim S800000x1 ![0] Facts₀.bcast_S800000_S800000x1_0 D (ix2 e (0 : Fin 1)) = D (ix1 e) :=
    broadcastInDim_apply _ _ D _ (ix1 e) (fun ax => by
      match ax with
      | ⟨0, _⟩ => rfl)
  rw [hw]

/-- The tail after the scatter-add: the 64 feature columns over the gate column's sum floored. -/
def tailOf (D : IVec S800000 32) (X : FVec Ideal S800000x65 .f32) : FVec Ideal S50000x64 .f32 :=
  Host.divf (F := Ideal)
    (extractStridedSlice S50000x64 ![0, 0] (sums D X) Facts₀.slices_S50000x65_S50000x64_0_0)
    (broadcastInDim S50000x64 ![0, 1] Facts₀.bcast_S50000x1_S50000x64_0_1
      (broadcastInDim S50000x1 ![0] Facts₀.bcast_S50000_S50000x1_0
        (maximumf (F := Ideal)
          (shapeCast S50000 (extractStridedSlice S50000x1 ![0, 64] (sums D X) Facts₀.slices_S50000x65_S50000x1_0_64) Facts₀.shapeCasts_S50000x1_S50000)
          (broadcastInDim S50000 ![] Facts₀.bcast_S_S50000 (constant (F := Ideal) S_ .f32 0x322BCC77#32)))))

/-- The tail at (i, j): the quotient of column j's sum by the floored sum of column 64. -/
theorem tailOf_apply (D : IVec S800000 32) (X : FVec Ideal S800000x65 .f32) (i : Fin 50000) (j : Fin 64) :
    tailOf D X (ix2 i j) = Ideal.div (sums D X (ix2 i (⟨j.val, by omega⟩ : Fin 65)))
      (max (sums D X (ix2 i (⟨64, by omega⟩ : Fin 65))) EdgeGate.floorW) := by
  unfold tailOf
  rw [hostDivf_apply]
  refine congrArg₂ Ideal.div ?_ ?_
  · exact extractStridedSlice_apply _ (sums D X) _ _ (ix2 i (⟨j.val, by omega⟩ : Fin 65)) (fun ax => by
      match ax with
      | ⟨0, _⟩ => exact (Nat.zero_add _).symm
      | ⟨1, _⟩ => exact (Nat.zero_add _).symm)
  · refine (broadcastInDim_apply _ _ _ _ (ix2 i (0 : Fin 1)) (fun ax => by
      match ax with
      | ⟨0, _⟩ => rfl
      | ⟨1, _⟩ => rfl)).trans ?_
    refine (broadcastInDim_apply _ _ _ _ (ix1 i) (fun ax => by
      match ax with
      | ⟨0, _⟩ => rfl)).trans ?_
    rw [maximumf_apply, broadcastInDim_scalar_apply, constant_apply]
    refine congrArg (fun z : EReal => max z EdgeGate.floorW) ?_
    refine (shapeCast_apply _ _ _ (ix2 i (0 : Fin 1)) ?_).trans ?_
    · rw [Shape.rowMajor_val_two, Shape.rowMajor_val_one]
      show i.val * 1 + 0 = i.val
      omega
    · exact extractStridedSlice_apply _ (sums D X) _ _ (ix2 i (⟨64, by omega⟩ : Fin 65)) (fun ax => by
        match ax with
        | ⟨0, _⟩ => exact (Nat.zero_add _).symm
        | ⟨1, _⟩ => rfl)

/-- The same with the words taken from row 1 of the index array: the rows summed are the edges into i. -/
theorem tailOf_words (ei : IVec S2x800000 32) (A : FVec Ideal S800000x65 .f32) (i : Fin 50000) (j : Fin 64) :
    tailOf (shapeCast S800000 (extractStridedSlice S1x800000 ![1, 0] ei Facts₀.slices_S2x800000_S1x800000_1_0) Facts₀.shapeCasts_S1x800000_S800000) A (ix2 i j)
      = Ideal.div (∑ e ∈ EdgeGate.into ei i, A (ix2 e (⟨j.val, by omega⟩ : Fin 65)))
          (max (∑ e ∈ EdgeGate.into ei i, A (ix2 e (⟨64, by omega⟩ : Fin 65))) EdgeGate.floorW) := by
  rw [tailOf_apply, sums_apply, sums_apply]
  unfold EdgeGate.into
  simp only [dst_word]

/-- The destination words the tail reads are no output of the launch: they are what the host operations before the
    launch left, row 1 of the index argument cut out and laid flat. -/
theorem dstWords_eq (c : Dev nD) :
    (Pipeline.withArrays (cfgs 0).spec c (V0 m c) (fun w => (dats m 0 c).arrAt w (cfgs 0).N) (Proc.devRef .tc main_v3) : S800000.Idx → BitVec 32)
      = shapeCast S800000 (extractStridedSlice S1x800000 ![1, 0] (m ((c.tc : Thread nD τ).loc main_arg1) : S2x800000.Idx → BitVec 32)
          Facts₀.slices_S2x800000_S1x800000_1_0) Facts₀.shapeCasts_S1x800000_S800000 := by
  rw [Pipeline.withArrays_of_ne _ _ _ _ main_v3 (by decide)]
  show (V m c main_v3 : S800000.Idx → BitVec 32) = _
  dsimp only [Gen.V, Gen.V0]
  simp only [hostOps0, hostOps0_1, hostOps0_2, hostOps0_3, List.flatten_cons, List.flatten_nil, List.append_nil, List.cons_append, List.nil_append]
  after_results
  rfl

/-- The tail's result at (i, j) is the tail's term over the words and the 65-column array it finds. -/
theorem tail_term (c : Dev nD) (i : Fin 50000) (j : Fin 64) :
    (Pipeline.afterTail₀ cfgs (dats m) 0 (V0 m) [hostOps1] c main_v19 : S50000x64.Idx → EReal) (ix2 i j)
      = tailOf (Pipeline.withArrays (cfgs 0).spec c (V0 m c) (fun w => (dats m 0 c).arrAt w (cfgs 0).N) (Proc.devRef .tc main_v3)) (Pipeline.withArrays (cfgs 0).spec c (V0 m c) (fun w => (dats m 0 c).arrAt w (cfgs 0).N) (Proc.devRef .tc main_v8)) (ix2 i j) := by
  unfold Pipeline.afterTail₀
  show StableHlo.after hostOps1 _ (Proc.devRef .tc main_v19) (ix2 i j) = _
  after_results
  rfl

/-- The result after the host tail, at node i and feature j, from the 65-column array A the launch left: the sum of
    column j over the edges into i, over the larger of the sum of column 64 over those edges and the floor. -/
theorem tail_apply (c : Dev nD) (A : S800000x65.Idx → EReal) (hA : ((dats m 0 c).arrAt 6 cfg0.N : S800000x65.Idx → EReal) = A)
    (i : Fin 50000) (j : Fin 64) :
    (Pipeline.afterTail₀ cfgs (dats m) 0 (V0 m) [hostOps1] c main_v19 : S50000x64.Idx → EReal) (ix2 i j)
      = Ideal.div (∑ e ∈ EdgeGate.into (m ((c.tc : Thread nD τ).loc main_arg1)) i, A (ix2 e (⟨j.val, by omega⟩ : Fin 65)))
          (max (∑ e ∈ EdgeGate.into (m ((c.tc : Thread nD τ).loc main_arg1)) i, A (ix2 e (⟨64, by omega⟩ : Fin 65))) EdgeGate.floorW) := by
  have h8 : ((Pipeline.withArrays (cfgs 0).spec c (V0 m c) (fun w => (dats m 0 c).arrAt w (cfgs 0).N) (Proc.devRef .tc main_v8)) : S800000x65.Idx → EReal) = A :=
    (Pipeline.withArrays_arr spec0 launch0.win.arr_inj c _ _ 6).trans hA
  rw [tail_term, h8, dstWords_eq]
  exact tailOf_words _ A i j

end Cert.KernelIdeal.EdgeValue

end
-- ==== Proof.KRun.lean ====
/-
  The kernel program's run, read: under the index-range hypothesis the result buffer ends at `EdgeGate.G` of the
  argument arrays. The launch's output array is `outRows` of the two gathered arrays and the parameters; at edge e
  its first 64 entries are the source row times the edge's gate and its last the gate, because the gathered rows are
  the rows the index words name; the host tail sums those entries over the edges into each node and divides.
-/
import proofs.«430099_j78073915507114_1_alg».proof.Proof.Gen.KernelIdeal.Frame
import proofs.«430099_j78073915507114_1_alg».proof.Proof.Spec
import proofs.«430099_j78073915507114_1_alg».proof.Proof.KBlocks
import proofs.«430099_j78073915507114_1_alg».proof.Proof.KHost
import proofs.«430099_j78073915507114_1_alg».proof.Proof.KGather
import proofs.«430099_j78073915507114_1_alg».proof.Proof.KTail

noncomputable section

open Idealize.ShloMosaic Idealize.ShloMosaic.TcCoe Idealize.SL.Sem Idealize.ShloMosaic.ValueIdx

namespace Cert.KernelIdeal.EdgeValue

open Cert.KernelIdeal Cert.KernelIdeal.Gen

variable (m : (ℓ : Loc nD τ sig) → Buf (Elt Ideal) ℓ)

/-- The six argument arrays as launched on core c. -/
abbrev arg0 (c : Dev nD) : S50000x64.Idx → EReal := m ((c.tc : Thread nD τ).loc main_arg0)
abbrev arg1 (c : Dev nD) : S2x800000.Idx → BitVec 32 := m ((c.tc : Thread nD τ).loc main_arg1)
abbrev arg2 (c : Dev nD) : S129x16.Idx → EReal := m ((c.tc : Thread nD τ).loc main_arg2)
abbrev arg3 (c : Dev nD) : S16.Idx → EReal := m ((c.tc : Thread nD τ).loc main_arg3)
abbrev arg4 (c : Dev nD) : S16x1.Idx → EReal := m ((c.tc : Thread nD τ).loc main_arg4)
abbrev arg5 (c : Dev nD) : S1.Idx → EReal := m ((c.tc : Thread nD τ).loc main_arg5)

/-- The gate the launch computes at edge e is the edge's gate of the argument arrays. -/
theorem gate_at (c : Dev nD) (hr : EdgeGate.InRange (arg1 m c)) (e : Fin 800000) :
    EdgeGate.gate (fun k => (V m c main_v4 : S800000x64.Idx → EReal) (ix2 e k)) (fun k => (V m c main_v5 : S800000x64.Idx → EReal) (ix2 e k))
        (fun k q => (V m c main_arg2 : S129x16.Idx → EReal) (ix2 k q)) (fun q => (V m c main_v6 : S1x16.Idx → EReal) (ix2 (0 : Fin 1) q))
        (fun q => (V m c main_arg4 : S16x1.Idx → EReal) (ix2 q (0 : Fin 1))) ((V m c main_v7 : S1x1.Idx → EReal) (ix2 (0 : Fin 1) (0 : Fin 1)))
      = EdgeGate.edgeGate (arg0 m c) (arg1 m c) (arg2 m c) (arg3 m c) (arg4 m c) (arg5 m c) e := by
  have e0 : (fun k => (V m c main_v4 : S800000x64.Idx → EReal) (ix2 e k)) = EdgeGate.srcRow (arg0 m c) (arg1 m c) e :=
    funext fun k => V_src m c hr e k
  have e1 : (fun k => (V m c main_v5 : S800000x64.Idx → EReal) (ix2 e k)) = EdgeGate.dstRow (arg0 m c) (arg1 m c) e :=
    funext fun k => V_dst m c hr e k
  have e2 : (V m c main_arg2 : S129x16.Idx → EReal) = arg2 m c := V_main_arg2 m c
  have e3 : (fun q => (V m c main_v6 : S1x16.Idx → EReal) (ix2 (0 : Fin 1) q)) = fun q => arg3 m c (ix1 q) :=
    funext fun q => V_b1 m c q
  have e4 : (V m c main_arg4 : S16x1.Idx → EReal) = arg4 m c := V_main_arg4 m c
  have e5 : (V m c main_v7 : S1x1.Idx → EReal) (ix2 (0 : Fin 1) (0 : Fin 1)) = arg5 m c (ix1 (0 : Fin 1)) := V_b2 m c
  rw [e0, e1, e2, e3, e4, e5]
  rfl

/-- The launch's output array at edge e, column 64: the edge's gate. -/
theorem out_gate (c : Dev nD) (hr : EdgeGate.InRange (arg1 m c)) (e : Fin 800000) :
    EdgeGate.outRows (R := 800000) (V m c main_v4) (V m c main_v5) (V m c main_arg2) (V m c main_v6) (V m c main_arg4) (V m c main_v7)
        (ix2 e (⟨64, by omega⟩ : Fin 65))
      = EdgeGate.edgeGate (arg0 m c) (arg1 m c) (arg2 m c) (arg3 m c) (arg4 m c) (arg5 m c) e := by
  unfold EdgeGate.outRows
  refine (dif_neg (by show ¬ (64 < 64); omega)).trans ?_
  exact gate_at m c hr e

/-- The launch's output array at edge e, column j < 64: the source row's entry times the edge's gate. -/
theorem out_feat (c : Dev nD) (hr : EdgeGate.InRange (arg1 m c)) (e : Fin 800000) (j : Fin 64) :
    EdgeGate.outRows (R := 800000) (V m c main_v4) (V m c main_v5) (V m c main_arg2) (V m c main_v6) (V m c main_arg4) (V m c main_v7)
        (ix2 e (⟨j.val, by omega⟩ : Fin 65))
      = EdgeGate.srcRow (arg0 m c) (arg1 m c) e j * EdgeGate.edgeGate (arg0 m c) (arg1 m c) (arg2 m c) (arg3 m c) (arg4 m c) (arg5 m c) e := by
  unfold EdgeGate.outRows
  refine (dif_pos (show j.val < 64 from j.isLt)).trans ?_
  refine congrArg₂ (· * ·) ?_ (gate_at m c hr e)
  exact V_src m c hr e j

/-- The result buffer after the host tail is `G` of the argument arrays. -/
theorem result_eq (c : Dev nD) (hr : EdgeGate.InRange (arg1 m c)) :
    (Pipeline.afterTail₀ cfgs (dats m) 0 (V0 m) [hostOps1] c main_v19 : S50000x64.Idx → EReal)
      = EdgeGate.G (arg0 m c) (arg1 m c) (arg2 m c) (arg3 m c) (arg4 m c) (arg5 m c) := by
  funext ij
  obtain ⟨i, j, rfl⟩ : ∃ (i : Fin 50000) (j : Fin 64), ij = ix2 i j := ⟨ij 0, ij 1, eq_ix2 ij⟩
  rw [tail_apply m c _ (out_array m c) i j]
  show _ = EdgeGate.Gat (arg0 m c) (arg1 m c) (arg2 m c) (arg3 m c) (arg4 m c) (arg5 m c) i j
  unfold EdgeGate.Gat
  rw [Finset.sum_congr rfl (fun e _ => out_feat m c hr e j), Finset.sum_congr rfl (fun e _ => out_gate m c hr e)]

/-- THE KERNEL PROGRAM'S RUN: every weakly fair execution ends with the result at `G` of the arguments and the
    arguments unchanged, when the index words are in range. -/
theorem run (ρ : Dev nD → PrngReg) (hr : ∀ c : Dev nD, EdgeGate.InRange (arg1 m c)) :
    θ_run (defs (F := Ideal)) (onTc (τ := τ) (main (F := Ideal))) ⟨m, fun _ => 0, ρ⟩ fun r => ∀ c : Dev nD,
      r.2.mem ((c.tc : Thread nD τ).loc main_v19) = EdgeGate.G (arg0 m c) (arg1 m c) (arg2 m c) (arg3 m c) (arg4 m c) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v19 (Pipeline.mem_restRefs_of main_v19 (by decide) (by decide))).trans (result_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.EdgeValue

end
-- ==== Proof.RVal.lean ====
/-
  The reference's host function read as a pure function of its six argument arrays, stage by stage, each stage the
  chain of the host operations the program carries there, in the program's order: the two rows of index words; the row
  gather (a negative word first wrapped by the table's height); the Gaussian similarity; the first layer over the 129
  joined columns; the unit-slope ELU (the helper functions' operations in place where they are called); the second layer
  and the logistic function; the two scatter-adds by destination word, the floor and the quotient.
-/
import proofs.«430099_j78073915507114_1_alg».proof.Proof.Gen.ReferenceIdeal
import Idealize.ShloMosaic.PureOps.Ideal

noncomputable section

namespace Cert.ReferenceIdeal.EdgeValue

open Cert.ReferenceIdeal Cert.ReferenceIdeal.Gen Idealize.ShloMosaic Idealize.ShloMosaic.TcCoe Idealize.SL.Sem

/-- Row 0 of the index array (the source words) as a vector over the edges. -/
def srcWords (a1 : IVec S2x800000 32) : IVec S800000 32 :=
  let main_v0 : IVec S1x800000 32 := extractStridedSlice S1x800000 ![0, 0] a1 slices_S2x800000_S1x800000_0_0
  shapeCast S800000 main_v0 shapeCasts_S1x800000_S800000

/-- Row 1 of the index array (the destination words) as a vector over the edges. -/
def dstWords (a1 : IVec S2x800000 32) : IVec S800000 32 :=
  let main_v2 : IVec S1x800000 32 := extractStridedSlice S1x800000 ![1, 0] a1 slices_S2x800000_S1x800000_1_0
  shapeCast S800000 main_v2 shapeCasts_S1x800000_S800000

/-- The rows of the feature table the words name: a negative word wraps by the table's height, then the row gather. -/
def gatherRows (a0 : FVec Ideal S50000x64 .f32) (w : IVec S800000 32) : FVec Ideal S800000x64 .f32 :=
  let main_c : IVec S_ 32 := constantI S_ 32 0#32
  let main_v4 : IVec S800000 32 := broadcastInDim S800000 ![] bcast_S_S800000 main_c
  let main_v5 : IVec S800000 1 := cmpi .slt w main_v4
  let main_c_0 : IVec S_ 32 := constantI S_ 32 50000#32
  let main_v6 : IVec S800000 32 := broadcastInDim S800000 ![] bcast_S_S800000 main_c_0
  let main_v7 : IVec S800000 32 := addi w main_v6
  let main_v8 : IVec S800000 32 := select main_v5 main_v7 w
  let main_v9 : IVec S800000x1 32 := broadcastInDim S800000x1 ![0] bcast_S800000_S800000x1_0 main_v8
  Host.gather gather_S50000x64_S800000x1_S800000x64_1_0_n_n_0_1_164 a0 main_v9

/-- The Gaussian similarity column: exp of minus the squared distance of the two rows, over 128. -/
def simCol (hs hd : FVec Ideal S800000x64 .f32) : FVec Ideal S800000x1 .f32 :=
  let main_v18 : FVec Ideal S800000x64 .f32 := subf hd hs
  let main_v19 : FVec Ideal S800000x64 .f32 := mulf main_v18 main_v18
  let main_cst : FVec Ideal S_ .f32 := constant (F := Ideal) S_ .f32 0x00000000#32
  let main_v20 : FVec Ideal S800000 .f32 := Host.reduceAdd (F := Ideal) main_v19 main_cst reducesTo_S800000x64_S800000_d1 h_S_
  let main_v21 : FVec Ideal S800000x1 .f32 := broadcastInDim S800000x1 ![0] bcast_S800000_S800000x1_0 main_v20
  let main_v22 : FVec Ideal S800000x1 .f32 := Host.negf (F := Ideal) main_v21
  let main_cst_3 : FVec Ideal S_ .f32 := constant (F := Ideal) S_ .f32 0x43000000#32
  let main_v23 : FVec Ideal S800000x1 .f32 := broadcastInDim S800000x1 ![] bcast_S_S800000x1 main_cst_3
  let main_v24 : FVec Ideal S800000x1 .f32 := Host.divf (F := Ideal) main_v22 main_v23
  Host.exp (F := Ideal) main_v24

/-- The first layer: the destination rows, the source rows and the similarity joined into 129 columns, times the
    129 x 16 matrix, plus the bias row. -/
def layer1 (hs hd : FVec Ideal S800000x64 .f32) (sm : FVec Ideal S800000x1 .f32) (a2 : FVec Ideal S129x16 .f32)
    (a3 : FVec Ideal S16 .f32) : FVec Ideal S800000x16 .f32 :=
  let main_v26 : FVec Ideal S800000x129 .f32 := concatenate S800000x129 1 [⟨S800000x64, hd⟩, ⟨S800000x64, hs⟩, ⟨S800000x1, sm⟩] concatenates_S800000x64_S800000x64_S800000x1_S800000x129_d1
  let main_v27 : FVec Ideal S800000x16 .f32 := Host.dotGeneral (F := Ideal) dot_S800000x129_S129x16_S800000x16_1_0_0_1_n_n none main_v26 a2
  let main_v28 : FVec Ideal S1x16 .f32 := broadcastInDim S1x16 ![1] bcast_S16_S1x16_1 a3
  let main_v29 : FVec Ideal S800000x16 .f32 := broadcastInDim S800000x16 ![0, 1] bcast_S1x16_S800000x16_0_1 main_v28
  addf main_v27 main_v29

/-- The unit-slope ELU, entry by entry: x where x > 0, otherwise 1 · expm1 of x (read where x > 0 as 0). -/
def eluAll (x : FVec Ideal S800000x16 .f32) : FVec Ideal S800000x16 .f32 :=
  let main_call0_cst : FVec Ideal S_ .f32 := constant (F := Ideal) S_ .f32 0x00000000#32
  let main_call0_v0 : FVec Ideal S800000x16 .f32 := broadcastInDim S800000x16 ![] bcast_S_S800000x16 main_call0_cst
  let main_call0_v1 : IVec S800000x16 1 := cmpf .ogt x main_call0_v0
  let main_call0_cst_0 : FVec Ideal S_ .f32 := constant (F := Ideal) S_ .f32 0x00000000#32
  let main_call0_v2 : FVec Ideal S800000x16 .f32 := broadcastInDim S800000x16 ![] bcast_S_S800000x16 main_call0_cst_0
  let main_call0_v3 : IVec S800000x16 1 := cmpf .ogt x main_call0_v2
  let main_call0_cst_1 : FVec Ideal S_ .f32 := constant (F := Ideal) S_ .f32 0x00000000#32
  let main_call0_call0_v0 : FVec Ideal S_ .f32 := id main_call0_cst_1
  let main_call0_call0_v1 : FVec Ideal S800000x16 .f32 := broadcastInDim S800000x16 ![] bcast_S_S800000x16 main_call0_call0_v0
  let main_call0_v4 : FVec Ideal S800000x16 .f32 := select main_call0_v3 main_call0_call0_v1 x
  let main_call0_v5 : FVec Ideal S800000x16 .f32 := Host.expm1 (F := Ideal) main_call0_v4
  let main_call0_cst_2 : FVec Ideal S_ .f32 := constant (F := Ideal) S_ .f32 0x3F800000#32
  let main_call0_v6 : FVec Ideal S800000x16 .f32 := broadcastInDim S800000x16 ![] bcast_S_S800000x16 main_call0_cst_2
  let main_call0_v7 : FVec Ideal S800000x16 .f32 := mulf main_call0_v6 main_call0_v5
  select main_call0_v1 x main_call0_v7

/-- The second layer, its bias, and the logistic function 1 / (1 + exp (-·)) of it, as a vector over the edges. -/
def gateVec (hdn : FVec Ideal S800000x16 .f32) (a4 : FVec Ideal S16x1 .f32) (a5 : FVec Ideal S1 .f32) : FVec Ideal S800000 .f32 :=
  let main_v32 : FVec Ideal S800000x1 .f32 := Host.dotGeneral (F := Ideal) dot_S800000x16_S16x1_S800000x1_1_0_0_1_n_n none hdn a4
  let main_v33 : FVec Ideal S1x1 .f32 := broadcastInDim S1x1 ![1] bcast_S1_S1x1_1 a5
  let main_v34 : FVec Ideal S800000x1 .f32 := broadcastInDim S800000x1 ![0, 1] bcast_S1x1_S800000x1_0_1 main_v33
  let main_v35 : FVec Ideal S800000x1 .f32 := addf main_v32 main_v34
  let main_v36 : FVec Ideal S800000x1 .f32 := Host.negf (F := Ideal) main_v35
  let main_v37 : FVec Ideal S800000x1 .f32 := Host.exp (F := Ideal) main_v36
  let main_cst_4 : FVec Ideal S_ .f32 := constant (F := Ideal) S_ .f32 0x3F800000#32
  let main_v38 : FVec Ideal S800000x1 .f32 := broadcastInDim S800000x1 ![] bcast_S_S800000x1 main_cst_4
  let main_v39 : FVec Ideal S800000x1 .f32 := addf main_v38 main_v37
  let main_cst_5 : FVec Ideal S_ .f32 := constant (F := Ideal) S_ .f32 0x3F800000#32
  let main_v40 : FVec Ideal S800000x1 .f32 := broadcastInDim S800000x1 ![] bcast_S_S800000x1 main_cst_5
  let main_v41 : FVec Ideal S800000x1 .f32 := Host.divf (F := Ideal) main_v40 main_v39
  shapeCast S800000 main_v41 shapeCasts_S800000x1_S800000

/-- The source rows scaled by the gate and the gates themselves, each summed into the destination nodes from zero; the
    gate sums floored; the quotient. -/
def nodeAvg (hs : FVec Ideal S800000x64 .f32) (g : FVec Ideal S800000 .f32) (dw : IVec S800000 32) : FVec Ideal S50000x64 .f32 :=
  let main_v43 : FVec Ideal S800000x1 .f32 := broadcastInDim S800000x1 ![0] bcast_S800000_S800000x1_0 g
  let main_v44 : FVec Ideal S800000x64 .f32 := broadcastInDim S800000x64 ![0, 1] bcast_S800000x1_S800000x64_0_1 main_v43
  let main_v45 : FVec Ideal S800000x64 .f32 := mulf hs main_v44
  let main_cst_6 : FVec Ideal S_ .f32 := constant (F := Ideal) S_ .f32 0x00000000#32
  let main_v46 : FVec Ideal S50000x64 .f32 := broadcastInDim S50000x64 ![] bcast_S_S50000x64 main_cst_6
  let main_v47 : IVec S800000x1 32 := broadcastInDim S800000x1 ![0] bcast_S800000_S800000x1_0 dw
  let main_v48 : FVec Ideal S50000x64 .f32 := Host.scatterAdd (F := Ideal) scatter_S50000x64_S800000x1_S800000x64_1_0_0_1 main_v46 main_v47 main_v45
  let main_cst_7 : FVec Ideal S_ .f32 := constant (F := Ideal) S_ .f32 0x00000000#32
  let main_v49 : FVec Ideal S50000 .f32 := broadcastInDim S50000 ![] bcast_S_S50000 main_cst_7
  let main_v50 : IVec S800000x1 32 := broadcastInDim S800000x1 ![0] bcast_S800000_S800000x1_0 dw
  let main_v51 : FVec Ideal S50000 .f32 := Host.scatterAdd (F := Ideal) scatter_S50000_S800000x1_S800000_n_0_0_1 main_v49 main_v50 g
  let main_cst_8 : FVec Ideal S_ .f32 := constant (F := Ideal) S_ .f32 0x322BCC77#32
  let main_v52 : FVec Ideal S50000 .f32 := broadcastInDim S50000 ![] bcast_S_S50000 main_cst_8
  let main_v53 : FVec Ideal S50000 .f32 := maximumf main_v51 main_v52
  let main_v54 : FVec Ideal S50000x1 .f32 := broadcastInDim S50000x1 ![0] bcast_S50000_S50000x1_0 main_v53
  let main_v55 : FVec Ideal S50000x64 .f32 := broadcastInDim S50000x64 ![0, 1] bcast_S50000x1_S50000x64_0_1 main_v54
  Host.divf (F := Ideal) main_v48 main_v55

/-- The reference's result array as a function of its arguments: the stages composed. -/
def refVal (a0 : FVec Ideal S50000x64 .f32) (a1 : IVec S2x800000 32) (a2 : FVec Ideal S129x16 .f32)
    (a3 : FVec Ideal S16 .f32) (a4 : FVec Ideal S16x1 .f32) (a5 : FVec Ideal S1 .f32) : FVec Ideal S50000x64 .f32 :=
  let hs : FVec Ideal S800000x64 .f32 := gatherRows a0 (srcWords a1)
  let hd : FVec Ideal S800000x64 .f32 := gatherRows a0 (dstWords a1)
  nodeAvg hs (gateVec (eluAll (layer1 hs hd (simCol hs hd) a2 a3)) a4 a5) (dstWords a1)

end Cert.ReferenceIdeal.EdgeValue

end
-- ==== Proof.RRun.lean ====
/-
  The reference program's run, read back. Its entry function is a straight line of host operations: the 37 before the
  call of the activation, the activation's own 15 (its two selections are functions of their own, listed where they are
  called, over the call's buffers), and the 30 after it. Listed in order they are one sequence, and a sequence's run
  leaves every buffer at the fold of the operations' results over the launch contents; the result buffer's fold is the
  composed term of the six arguments, and no operation writes an argument. The line is read in eight stages, one per
  stage of the pure function: each stage's fold is computed from arbitrary contents (its result buffer at the stage's
  function of the buffers it reads, every buffer it does not write unchanged), and the stages are composed.
-/
import proofs.«430099_j78073915507114_1_alg».proof.Proof.Gen.ReferenceIdeal
import proofs.«430099_j78073915507114_1_alg».proof.Proof.RVal
import Idealize.ShloMosaic.Lib.StableHlo.Run

noncomputable section

namespace Cert.ReferenceIdeal.EdgeValue

open Cert.ReferenceIdeal Cert.ReferenceIdeal.Gen Idealize.ShloMosaic Idealize.ShloMosaic.TcCoe Idealize.SL.Sem Idealize.ShloMosaic.StableHlo

variable {F : FTy → Type} [FloatOps F]

/-- The entry function's 82 operations, in order: the activation's fifteen stand where it is called (after the first
    layer's sum, before the second layer's product), its selections' where they are called. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v17 main_v10 main_v18 (subf : (⟨S800000x64, .f32⟩ : BufTy).Contents (Elt F) → (⟨S800000x64, .f32⟩ : BufTy).Contents (Elt F) → (⟨S800000x64, .f32⟩ : BufTy).Contents (Elt F)),
    binary main_v18 main_v18 main_v19 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    binary main_v19 main_cst main_v20 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v20 main_v21 (broadcastInDim S800000x1 ![0] bcast_S800000_S800000x1_0 : (⟨S800000, .f32⟩ : BufTy).Contents (Elt F) → (⟨S800000x1, .f32⟩ : BufTy).Contents (Elt F)),
    unary main_v21 main_v22 (Host.negf : (⟨S800000x1, .f32⟩ : BufTy).Contents (Elt F) → (⟨S800000x1, .f32⟩ : BufTy).Contents (Elt F)),
    nullary main_cst_3 (constant S_ .f32 0x43000000#32),
    unary main_cst_3 main_v23 (broadcastInDim S800000x1 ![] bcast_S_S800000x1 : (⟨S_, .f32⟩ : BufTy).Contents (Elt F) → (⟨S800000x1, .f32⟩ : BufTy).Contents (Elt F)),
    binary main_v22 main_v23 main_v24 (Host.divf : (⟨S800000x1, .f32⟩ : BufTy).Contents (Elt F) → (⟨S800000x1, .f32⟩ : BufTy).Contents (Elt F) → (⟨S800000x1, .f32⟩ : BufTy).Contents (Elt F)),
    unary main_v24 main_v25 (Host.exp : (⟨S800000x1, .f32⟩ : BufTy).Contents (Elt F) → (⟨S800000x1, .f32⟩ : BufTy).Contents (Elt F)),
    nary ![main_v17, main_v10, main_v25] main_v26 (fun u => concatenate S800000x129 1 [⟨S800000x64, u 0⟩, ⟨S800000x64, u 1⟩, ⟨S800000x1, u 2⟩] concatenates_S800000x64_S800000x64_S800000x1_S800000x129_d1),
    binary main_v26 main_arg2 main_v27 ((fun l r => Host.dotGeneral dot_S800000x129_S129x16_S800000x16_1_0_0_1_n_n none l r) : (⟨S800000x129, .f32⟩ : BufTy).Contents (Elt F) → (⟨S129x16, .f32⟩ : BufTy).Contents (Elt F) → (⟨S800000x16, .f32⟩ : BufTy).Contents (Elt F)),
    unary main_arg3 main_v28 (broadcastInDim S1x16 ![1] bcast_S16_S1x16_1 : (⟨S16, .f32⟩ : BufTy).Contents (Elt F) → (⟨S1x16, .f32⟩ : BufTy).Contents (Elt F)),
    unary main_v28 main_v29 (broadcastInDim S800000x16 ![0, 1] bcast_S1x16_S800000x16_0_1 : (⟨S1x16, .f32⟩ : BufTy).Contents (Elt F) → (⟨S800000x16, .f32⟩ : BufTy).Contents (Elt F)),
    binary main_v27 main_v29 main_v30 (addf : (⟨S800000x16, .f32⟩ : BufTy).Contents (Elt F) → (⟨S800000x16, .f32⟩ : BufTy).Contents (Elt F) → (⟨S800000x16, .f32⟩ : BufTy).Contents (Elt F)),
    TRef.nullary main_call0.cst (constant S_ .f32 0x00000000#32),
    TRef.unary main_call0.cst main_call0.v0 (broadcastInDim S800000x16 ![] bcast_S_S800000x16),
    TRef.binary (.of main_v30 : TRef sig ⟨S800000x16, .f32⟩) main_call0.v0 main_call0.v1 (cmpf .ogt),
    TRef.nullary main_call0.cst_0 (constant S_ .f32 0x00000000#32),
    TRef.unary main_call0.cst_0 main_call0.v2 (broadcastInDim S800000x16 ![] bcast_S_S800000x16),
    TRef.binary (.of main_v30 : TRef sig ⟨S800000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S800000x16 ![] bcast_S_S800000x16),
    TRef.ternary main_call0.v3 main_call0.call0.v1 (.of main_v30 : TRef sig ⟨S800000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S800000x16 ![] bcast_S_S800000x16),
    TRef.binary main_call0.v6 main_call0.v5 main_call0.v7 mulf,
    TRef.ternary main_call0.v1 (.of main_v30 : TRef sig ⟨S800000x16, .f32⟩) main_call0.v7 main_call0.call1.v0 select,
    binary main_v31 main_arg4 main_v32 ((fun l r => Host.dotGeneral dot_S800000x16_S16x1_S800000x1_1_0_0_1_n_n none l r) : (⟨S800000x16, .f32⟩ : BufTy).Contents (Elt F) → (⟨S16x1, .f32⟩ : BufTy).Contents (Elt F) → (⟨S800000x1, .f32⟩ : BufTy).Contents (Elt F)),
    unary main_arg5 main_v33 (broadcastInDim S1x1 ![1] bcast_S1_S1x1_1 : (⟨S1, .f32⟩ : BufTy).Contents (Elt F) → (⟨S1x1, .f32⟩ : BufTy).Contents (Elt F)),
    unary main_v33 main_v34 (broadcastInDim S800000x1 ![0, 1] bcast_S1x1_S800000x1_0_1 : (⟨S1x1, .f32⟩ : BufTy).Contents (Elt F) → (⟨S800000x1, .f32⟩ : BufTy).Contents (Elt F)),
    binary main_v32 main_v34 main_v35 (addf : (⟨S800000x1, .f32⟩ : BufTy).Contents (Elt F) → (⟨S800000x1, .f32⟩ : BufTy).Contents (Elt F) → (⟨S800000x1, .f32⟩ : BufTy).Contents (Elt F)),
    unary main_v35 main_v36 (Host.negf : (⟨S800000x1, .f32⟩ : BufTy).Contents (Elt F) → (⟨S800000x1, .f32⟩ : BufTy).Contents (Elt F)),
    unary main_v36 main_v37 (Host.exp : (⟨S800000x1, .f32⟩ : BufTy).Contents (Elt F) → (⟨S800000x1, .f32⟩ : BufTy).Contents (Elt F)),
    nullary main_cst_4 (constant S_ .f32 0x3F800000#32),
    unary main_cst_4 main_v38 (broadcastInDim S800000x1 ![] bcast_S_S800000x1 : (⟨S_, .f32⟩ : BufTy).Contents (Elt F) → (⟨S800000x1, .f32⟩ : BufTy).Contents (Elt F)),
    binary main_v38 main_v37 main_v39 (addf : (⟨S800000x1, .f32⟩ : BufTy).Contents (Elt F) → (⟨S800000x1, .f32⟩ : BufTy).Contents (Elt F) → (⟨S800000x1, .f32⟩ : BufTy).Contents (Elt F)),
    nullary main_cst_5 (constant S_ .f32 0x3F800000#32),
    unary main_cst_5 main_v40 (broadcastInDim S800000x1 ![] bcast_S_S800000x1 : (⟨S_, .f32⟩ : BufTy).Contents (Elt F) → (⟨S800000x1, .f32⟩ : BufTy).Contents (Elt F)),
    binary main_v40 main_v39 main_v41 (Host.divf : (⟨S800000x1, .f32⟩ : BufTy).Contents (Elt F) → (⟨S800000x1, .f32⟩ : BufTy).Contents (Elt F) → (⟨S800000x1, .f32⟩ : BufTy).Contents (Elt F)),
    reshape main_v41 main_v42 rfl shapeCasts_S800000x1_S800000,
    unary main_v42 main_v43 (broadcastInDim S800000x1 ![0] bcast_S800000_S800000x1_0 : (⟨S800000, .f32⟩ : BufTy).Contents (Elt F) → (⟨S800000x1, .f32⟩ : BufTy).Contents (Elt F)),
    unary main_v43 main_v44 (broadcastInDim S800000x64 ![0, 1] bcast_S800000x1_S800000x64_0_1 : (⟨S800000x1, .f32⟩ : BufTy).Contents (Elt F) → (⟨S800000x64, .f32⟩ : BufTy).Contents (Elt F)),
    binary main_v10 main_v44 main_v45 (mulf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    unary main_cst_6 main_v46 (broadcastInDim S50000x64 ![] bcast_S_S50000x64 : (⟨S_, .f32⟩ : BufTy).Contents (Elt F) → (⟨S50000x64, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x00000000#32),
    unary main_cst_7 main_v49 (broadcastInDim S50000 ![] bcast_S_S50000 : (⟨S_, .f32⟩ : BufTy).Contents (Elt F) → (⟨S50000, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v42 main_v51 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_8 (constant S_ .f32 0x322BCC77#32),
    unary main_cst_8 main_v52 (broadcastInDim S50000 ![] bcast_S_S50000 : (⟨S_, .f32⟩ : BufTy).Contents (Elt F) → (⟨S50000, .f32⟩ : BufTy).Contents (Elt F)),
    binary main_v51 main_v52 main_v53 (maximumf : (⟨S50000, .f32⟩ : BufTy).Contents (Elt F) → (⟨S50000, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)),
    unary main_v54 main_v55 (broadcastInDim S50000x64 ![0, 1] bcast_S50000x1_S50000x64_0_1 : (⟨S50000x1, .f32⟩ : BufTy).Contents (Elt F) → (⟨S50000x64, .f32⟩ : BufTy).Contents (Elt F)),
    binary main_v48 main_v55 main_v56 (Host.divf : (⟨S50000x64, .f32⟩ : BufTy).Contents (Elt F) → (⟨S50000x64, .f32⟩ : BufTy).Contents (Elt F) → (⟨S50000x64, .f32⟩ : BufTy).Contents (Elt F)) ]

-- eighty-two binds re-associated: the rewrite under the chain recurses once per statement
set_option maxRecDepth 4096 in
set_option maxHeartbeats 4000000 in
/-- The entry function is that sequence: its two windows in order, the activation and its selections unfolded at their
    calls, sequencing re-associated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- The two rows of index words: operations 1 to 4. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- The buffers stage 1 writes. -/
abbrev seg1_W : List (Ref sig .tc) := [main_v0, main_v1, main_v2, main_v3]

/-- The source rows' gather: the wrap of a negative word, then the row gather (operations 5 to 13). -/
abbrev seg2 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The buffers stage 2 writes. -/
abbrev seg2_W : List (Ref sig .tc) := [main_c, main_v4, main_v5, main_c_0, main_v6, main_v7, main_v8, main_v9, main_v10]

/-- The destination rows' gather (operations 14 to 22). -/
abbrev seg3 : List (HloOp τ sig (Elt F)) :=
  [ nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The buffers stage 3 writes. -/
abbrev seg3_W : List (Ref sig .tc) := [main_c_1, main_v11, main_v12, main_c_2, main_v13, main_v14, main_v15, main_v16, main_v17]

/-- The similarity column (operations 23 to 32). -/
abbrev seg4 : List (HloOp τ sig (Elt F)) :=
  [ binary main_v17 main_v10 main_v18 (subf : (⟨S800000x64, .f32⟩ : BufTy).Contents (Elt F) → (⟨S800000x64, .f32⟩ : BufTy).Contents (Elt F) → (⟨S800000x64, .f32⟩ : BufTy).Contents (Elt F)),
    binary main_v18 main_v18 main_v19 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    binary main_v19 main_cst main_v20 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v20 main_v21 (broadcastInDim S800000x1 ![0] bcast_S800000_S800000x1_0 : (⟨S800000, .f32⟩ : BufTy).Contents (Elt F) → (⟨S800000x1, .f32⟩ : BufTy).Contents (Elt F)),
    unary main_v21 main_v22 (Host.negf : (⟨S800000x1, .f32⟩ : BufTy).Contents (Elt F) → (⟨S800000x1, .f32⟩ : BufTy).Contents (Elt F)),
    nullary main_cst_3 (constant S_ .f32 0x43000000#32),
    unary main_cst_3 main_v23 (broadcastInDim S800000x1 ![] bcast_S_S800000x1 : (⟨S_, .f32⟩ : BufTy).Contents (Elt F) → (⟨S800000x1, .f32⟩ : BufTy).Contents (Elt F)),
    binary main_v22 main_v23 main_v24 (Host.divf : (⟨S800000x1, .f32⟩ : BufTy).Contents (Elt F) → (⟨S800000x1, .f32⟩ : BufTy).Contents (Elt F) → (⟨S800000x1, .f32⟩ : BufTy).Contents (Elt F)),
    unary main_v24 main_v25 (Host.exp : (⟨S800000x1, .f32⟩ : BufTy).Contents (Elt F) → (⟨S800000x1, .f32⟩ : BufTy).Contents (Elt F)) ]

/-- The buffers stage 4 writes. -/
abbrev seg4_W : List (Ref sig .tc) := [main_v18, main_v19, main_cst, main_v20, main_v21, main_v22, main_cst_3, main_v23, main_v24, main_v25]

/-- The first layer over the 129 joined columns (operations 33 to 37). -/
abbrev seg5 : List (HloOp τ sig (Elt F)) :=
  [ nary ![main_v17, main_v10, main_v25] main_v26 (fun u => concatenate S800000x129 1 [⟨S800000x64, u 0⟩, ⟨S800000x64, u 1⟩, ⟨S800000x1, u 2⟩] concatenates_S800000x64_S800000x64_S800000x1_S800000x129_d1),
    binary main_v26 main_arg2 main_v27 ((fun l r => Host.dotGeneral dot_S800000x129_S129x16_S800000x16_1_0_0_1_n_n none l r) : (⟨S800000x129, .f32⟩ : BufTy).Contents (Elt F) → (⟨S129x16, .f32⟩ : BufTy).Contents (Elt F) → (⟨S800000x16, .f32⟩ : BufTy).Contents (Elt F)),
    unary main_arg3 main_v28 (broadcastInDim S1x16 ![1] bcast_S16_S1x16_1 : (⟨S16, .f32⟩ : BufTy).Contents (Elt F) → (⟨S1x16, .f32⟩ : BufTy).Contents (Elt F)),
    unary main_v28 main_v29 (broadcastInDim S800000x16 ![0, 1] bcast_S1x16_S800000x16_0_1 : (⟨S1x16, .f32⟩ : BufTy).Contents (Elt F) → (⟨S800000x16, .f32⟩ : BufTy).Contents (Elt F)),
    binary main_v27 main_v29 main_v30 (addf : (⟨S800000x16, .f32⟩ : BufTy).Contents (Elt F) → (⟨S800000x16, .f32⟩ : BufTy).Contents (Elt F) → (⟨S800000x16, .f32⟩ : BufTy).Contents (Elt F)) ]

/-- The buffers stage 5 writes. -/
abbrev seg5_W : List (Ref sig .tc) := [main_v26, main_v27, main_v28, main_v29, main_v30]

/-- The activation, its selections in place (operations 38 to 52). -/
abbrev seg6 : List (HloOp τ sig (Elt F)) :=
  [ TRef.nullary main_call0.cst (constant S_ .f32 0x00000000#32),
    TRef.unary main_call0.cst main_call0.v0 (broadcastInDim S800000x16 ![] bcast_S_S800000x16),
    TRef.binary (.of main_v30 : TRef sig ⟨S800000x16, .f32⟩) main_call0.v0 main_call0.v1 (cmpf .ogt),
    TRef.nullary main_call0.cst_0 (constant S_ .f32 0x00000000#32),
    TRef.unary main_call0.cst_0 main_call0.v2 (broadcastInDim S800000x16 ![] bcast_S_S800000x16),
    TRef.binary (.of main_v30 : TRef sig ⟨S800000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S800000x16 ![] bcast_S_S800000x16),
    TRef.ternary main_call0.v3 main_call0.call0.v1 (.of main_v30 : TRef sig ⟨S800000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S800000x16 ![] bcast_S_S800000x16),
    TRef.binary main_call0.v6 main_call0.v5 main_call0.v7 mulf,
    TRef.ternary main_call0.v1 (.of main_v30 : TRef sig ⟨S800000x16, .f32⟩) main_call0.v7 main_call0.call1.v0 select ]

/-- The buffers stage 6 writes. -/
abbrev seg6_W : List (Ref sig .tc) := [main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]

/-- The second layer and the logistic function (operations 53 to 65). -/
abbrev seg7 : List (HloOp τ sig (Elt F)) :=
  [ binary main_v31 main_arg4 main_v32 ((fun l r => Host.dotGeneral dot_S800000x16_S16x1_S800000x1_1_0_0_1_n_n none l r) : (⟨S800000x16, .f32⟩ : BufTy).Contents (Elt F) → (⟨S16x1, .f32⟩ : BufTy).Contents (Elt F) → (⟨S800000x1, .f32⟩ : BufTy).Contents (Elt F)),
    unary main_arg5 main_v33 (broadcastInDim S1x1 ![1] bcast_S1_S1x1_1 : (⟨S1, .f32⟩ : BufTy).Contents (Elt F) → (⟨S1x1, .f32⟩ : BufTy).Contents (Elt F)),
    unary main_v33 main_v34 (broadcastInDim S800000x1 ![0, 1] bcast_S1x1_S800000x1_0_1 : (⟨S1x1, .f32⟩ : BufTy).Contents (Elt F) → (⟨S800000x1, .f32⟩ : BufTy).Contents (Elt F)),
    binary main_v32 main_v34 main_v35 (addf : (⟨S800000x1, .f32⟩ : BufTy).Contents (Elt F) → (⟨S800000x1, .f32⟩ : BufTy).Contents (Elt F) → (⟨S800000x1, .f32⟩ : BufTy).Contents (Elt F)),
    unary main_v35 main_v36 (Host.negf : (⟨S800000x1, .f32⟩ : BufTy).Contents (Elt F) → (⟨S800000x1, .f32⟩ : BufTy).Contents (Elt F)),
    unary main_v36 main_v37 (Host.exp : (⟨S800000x1, .f32⟩ : BufTy).Contents (Elt F) → (⟨S800000x1, .f32⟩ : BufTy).Contents (Elt F)),
    nullary main_cst_4 (constant S_ .f32 0x3F800000#32),
    unary main_cst_4 main_v38 (broadcastInDim S800000x1 ![] bcast_S_S800000x1 : (⟨S_, .f32⟩ : BufTy).Contents (Elt F) → (⟨S800000x1, .f32⟩ : BufTy).Contents (Elt F)),
    binary main_v38 main_v37 main_v39 (addf : (⟨S800000x1, .f32⟩ : BufTy).Contents (Elt F) → (⟨S800000x1, .f32⟩ : BufTy).Contents (Elt F) → (⟨S800000x1, .f32⟩ : BufTy).Contents (Elt F)),
    nullary main_cst_5 (constant S_ .f32 0x3F800000#32),
    unary main_cst_5 main_v40 (broadcastInDim S800000x1 ![] bcast_S_S800000x1 : (⟨S_, .f32⟩ : BufTy).Contents (Elt F) → (⟨S800000x1, .f32⟩ : BufTy).Contents (Elt F)),
    binary main_v40 main_v39 main_v41 (Host.divf : (⟨S800000x1, .f32⟩ : BufTy).Contents (Elt F) → (⟨S800000x1, .f32⟩ : BufTy).Contents (Elt F) → (⟨S800000x1, .f32⟩ : BufTy).Contents (Elt F)),
    reshape main_v41 main_v42 rfl shapeCasts_S800000x1_S800000 ]

/-- The buffers stage 7 writes. -/
abbrev seg7_W : List (Ref sig .tc) := [main_v32, main_v33, main_v34, main_v35, main_v36, main_v37, main_cst_4, main_v38, main_v39, main_cst_5, main_v40, main_v41, main_v42]

/-- The two sums by destination word, the floor and the quotient (operations 66 to 82). -/
abbrev seg8 : List (HloOp τ sig (Elt F)) :=
  [ unary main_v42 main_v43 (broadcastInDim S800000x1 ![0] bcast_S800000_S800000x1_0 : (⟨S800000, .f32⟩ : BufTy).Contents (Elt F) → (⟨S800000x1, .f32⟩ : BufTy).Contents (Elt F)),
    unary main_v43 main_v44 (broadcastInDim S800000x64 ![0, 1] bcast_S800000x1_S800000x64_0_1 : (⟨S800000x1, .f32⟩ : BufTy).Contents (Elt F) → (⟨S800000x64, .f32⟩ : BufTy).Contents (Elt F)),
    binary main_v10 main_v44 main_v45 (mulf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    unary main_cst_6 main_v46 (broadcastInDim S50000x64 ![] bcast_S_S50000x64 : (⟨S_, .f32⟩ : BufTy).Contents (Elt F) → (⟨S50000x64, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x00000000#32),
    unary main_cst_7 main_v49 (broadcastInDim S50000 ![] bcast_S_S50000 : (⟨S_, .f32⟩ : BufTy).Contents (Elt F) → (⟨S50000, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v42 main_v51 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_8 (constant S_ .f32 0x322BCC77#32),
    unary main_cst_8 main_v52 (broadcastInDim S50000 ![] bcast_S_S50000 : (⟨S_, .f32⟩ : BufTy).Contents (Elt F) → (⟨S50000, .f32⟩ : BufTy).Contents (Elt F)),
    binary main_v51 main_v52 main_v53 (maximumf : (⟨S50000, .f32⟩ : BufTy).Contents (Elt F) → (⟨S50000, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)),
    unary main_v54 main_v55 (broadcastInDim S50000x64 ![0, 1] bcast_S50000x1_S50000x64_0_1 : (⟨S50000x1, .f32⟩ : BufTy).Contents (Elt F) → (⟨S50000x64, .f32⟩ : BufTy).Contents (Elt F)),
    binary main_v48 main_v55 main_v56 (Host.divf : (⟨S50000x64, .f32⟩ : BufTy).Contents (Elt F) → (⟨S50000x64, .f32⟩ : BufTy).Contents (Elt F) → (⟨S50000x64, .f32⟩ : BufTy).Contents (Elt F)) ]

/-- The buffers stage 8 writes. -/
abbrev seg8_W : List (Ref sig .tc) := [main_v43, main_v44, main_v45, main_cst_6, main_v46, main_v47, main_v48, main_cst_7, main_v49, main_v50, main_v51, main_cst_8, main_v52, main_v53, main_v54, main_v55, main_v56]

/-- The fold over a concatenation: the second list's fold from the first list's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- An operation of three literal operands leaves its function's value with each operand's contents at its own
    reference (under the binder of the general statement the reference of operand `k` is no literal). -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The entry function's operations are the eight stages in order. -/
theorem ops_split : (ops : List (HloOp τ sig (Elt F)))
    = seg1 ++ (seg2 ++ (seg3 ++ (seg4 ++ (seg5 ++ (seg6 ++ (seg7 ++ seg8)))))) := rfl

theorem seg1_writes : (seg1 : List (HloOp τ sig (Elt F))).Forall fun op => op.writes ⊆ (seg1_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 1 leaves a buffer it does not write as it was. -/
theorem seg1_keep {r : Ref sig .tc} (h : r ∉ seg1_W) (W : Valuation τ sig (Elt F)) :
    after seg1 W (Proc.devRef .tc r) = W (Proc.devRef .tc r) :=
  after_of_writes_sub seg1 W seg1_writes h

theorem seg2_writes : (seg2 : List (HloOp τ sig (Elt F))).Forall fun op => op.writes ⊆ (seg2_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 2 leaves a buffer it does not write as it was. -/
theorem seg2_keep {r : Ref sig .tc} (h : r ∉ seg2_W) (W : Valuation τ sig (Elt F)) :
    after seg2 W (Proc.devRef .tc r) = W (Proc.devRef .tc r) :=
  after_of_writes_sub seg2 W seg2_writes h

theorem seg3_writes : (seg3 : List (HloOp τ sig (Elt F))).Forall fun op => op.writes ⊆ (seg3_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 3 leaves a buffer it does not write as it was. -/
theorem seg3_keep {r : Ref sig .tc} (h : r ∉ seg3_W) (W : Valuation τ sig (Elt F)) :
    after seg3 W (Proc.devRef .tc r) = W (Proc.devRef .tc r) :=
  after_of_writes_sub seg3 W seg3_writes h

theorem seg4_writes : (seg4 : List (HloOp τ sig (Elt F))).Forall fun op => op.writes ⊆ (seg4_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 4 leaves a buffer it does not write as it was. -/
theorem seg4_keep {r : Ref sig .tc} (h : r ∉ seg4_W) (W : Valuation τ sig (Elt F)) :
    after seg4 W (Proc.devRef .tc r) = W (Proc.devRef .tc r) :=
  after_of_writes_sub seg4 W seg4_writes h

theorem seg5_writes : (seg5 : List (HloOp τ sig (Elt F))).Forall fun op => op.writes ⊆ (seg5_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 5 leaves a buffer it does not write as it was. -/
theorem seg5_keep {r : Ref sig .tc} (h : r ∉ seg5_W) (W : Valuation τ sig (Elt F)) :
    after seg5 W (Proc.devRef .tc r) = W (Proc.devRef .tc r) :=
  after_of_writes_sub seg5 W seg5_writes h

theorem seg6_writes : (seg6 : List (HloOp τ sig (Elt F))).Forall fun op => op.writes ⊆ (seg6_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 6 leaves a buffer it does not write as it was. -/
theorem seg6_keep {r : Ref sig .tc} (h : r ∉ seg6_W) (W : Valuation τ sig (Elt F)) :
    after seg6 W (Proc.devRef .tc r) = W (Proc.devRef .tc r) :=
  after_of_writes_sub seg6 W seg6_writes h

theorem seg7_writes : (seg7 : List (HloOp τ sig (Elt F))).Forall fun op => op.writes ⊆ (seg7_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 7 leaves a buffer it does not write as it was. -/
theorem seg7_keep {r : Ref sig .tc} (h : r ∉ seg7_W) (W : Valuation τ sig (Elt F)) :
    after seg7 W (Proc.devRef .tc r) = W (Proc.devRef .tc r) :=
  after_of_writes_sub seg7 W seg7_writes h

theorem seg8_writes : (seg8 : List (HloOp τ sig (Elt F))).Forall fun op => op.writes ⊆ (seg8_W.map (Proc.devRef (τ := τ) .tc)).toFinset := by
  simp only [List.Forall]; simp only [nullary_writes, unary_writes, binary_writes, ternary_writes, reshape_writes, nary_writes, Finset.singleton_subset_iff, List.mem_toFinset]
  and_intros <;> exact List.mem_map_of_mem (by decide)
/-- Stage 8 leaves a buffer it does not write as it was. -/
theorem seg8_keep {r : Ref sig .tc} (h : r ∉ seg8_W) (W : Valuation τ sig (Elt F)) :
    after seg8 W (Proc.devRef .tc r) = W (Proc.devRef .tc r) :=
  after_of_writes_sub seg8 W seg8_writes h

/-! What each stage leaves at its result, from any contents. -/

theorem seg1_src (W : Valuation τ sig (Elt Ideal)) :
    after (seg1 (F := Ideal)) W (Proc.devRef .tc main_v1) = srcWords (W (Proc.devRef .tc main_arg1)) := by
  after_results; rfl
theorem seg1_dst (W : Valuation τ sig (Elt Ideal)) :
    after (seg1 (F := Ideal)) W (Proc.devRef .tc main_v3) = dstWords (W (Proc.devRef .tc main_arg1)) := by
  after_results; rfl
theorem seg2_val (W : Valuation τ sig (Elt Ideal)) :
    after (seg2 (F := Ideal)) W (Proc.devRef .tc main_v10) = gatherRows (W (Proc.devRef .tc main_arg0)) (W (Proc.devRef .tc main_v1)) := by
  after_results; rfl
theorem seg3_val (W : Valuation τ sig (Elt Ideal)) :
    after (seg3 (F := Ideal)) W (Proc.devRef .tc main_v17) = gatherRows (W (Proc.devRef .tc main_arg0)) (W (Proc.devRef .tc main_v3)) := by
  after_results; rfl
theorem seg4_val (W : Valuation τ sig (Elt Ideal)) :
    after (seg4 (F := Ideal)) W (Proc.devRef .tc main_v25) = simCol (W (Proc.devRef .tc main_v10)) (W (Proc.devRef .tc main_v17)) := by
  after_results; rfl
theorem seg5_val (W : Valuation τ sig (Elt Ideal)) :
    after (seg5 (F := Ideal)) W (Proc.devRef .tc main_v30)
      = layer1 (W (Proc.devRef .tc main_v10)) (W (Proc.devRef .tc main_v17)) (W (Proc.devRef .tc main_v25)) (W (Proc.devRef .tc main_arg2)) (W (Proc.devRef .tc main_arg3)) := by
  simp only [after_cons, after_nil]
  repeat (first
    | rw [nary3_result] | rw [unary_result] | rw [binary_result]
    | (rw [unary_result_ne]; rotate_left; decide)
    | (rw [binary_result_ne]; rotate_left; decide)
    | (rw [nary_result_ne]; rotate_left; decide))
  rfl
theorem seg6_val (W : Valuation τ sig (Elt Ideal)) :
    after (seg6 (F := Ideal)) W (Proc.devRef .tc main_v31) = eluAll (W (Proc.devRef .tc main_v30)) := by
  after_results; rfl
theorem seg7_val (W : Valuation τ sig (Elt Ideal)) :
    after (seg7 (F := Ideal)) W (Proc.devRef .tc main_v42) = gateVec (W (Proc.devRef .tc main_v31)) (W (Proc.devRef .tc main_arg4)) (W (Proc.devRef .tc main_arg5)) := by
  after_results; rfl
theorem seg8_val (W : Valuation τ sig (Elt Ideal)) :
    after (seg8 (F := Ideal)) W (Proc.devRef .tc main_v56) = nodeAvg (W (Proc.devRef .tc main_v10)) (W (Proc.devRef .tc main_v42)) (W (Proc.devRef .tc main_v3)) := by
  after_results; rfl

/-! The whole line. -/

/-- The result buffer after the whole line, from any contents: the stages composed, each read where the next needs it. -/
theorem after_out (V : Valuation τ sig (Elt Ideal)) :
    after (ops (F := Ideal)) V (Proc.devRef .tc main_v56)
      = refVal (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [ops_split]
  simp only [after_app]
  rw [seg8_val]
  rw [seg7_val, seg7_keep (r := main_v10) (by decide), seg7_keep (r := main_v3) (by decide)]
  rw [seg6_val, seg6_keep (r := main_arg4) (by decide), seg6_keep (r := main_arg5) (by decide), seg6_keep (r := main_v10) (by decide), seg6_keep (r := main_v3) (by decide)]
  rw [seg5_val, seg5_keep (r := main_arg4) (by decide), seg5_keep (r := main_arg5) (by decide), seg5_keep (r := main_v10) (by decide), seg5_keep (r := main_v3) (by decide)]
  rw [seg4_val, seg4_keep (r := main_v10) (by decide), seg4_keep (r := main_v17) (by decide), seg4_keep (r := main_arg2) (by decide), seg4_keep (r := main_arg3) (by decide), seg4_keep (r := main_arg4) (by decide), seg4_keep (r := main_arg5) (by decide), seg4_keep (r := main_v3) (by decide)]
  rw [seg3_val, seg3_keep (r := main_v10) (by decide), seg3_keep (r := main_arg2) (by decide), seg3_keep (r := main_arg3) (by decide), seg3_keep (r := main_arg4) (by decide), seg3_keep (r := main_arg5) (by decide), seg3_keep (r := main_v3) (by decide)]
  rw [seg2_val, seg2_keep (r := main_arg0) (by decide), seg2_keep (r := main_v3) (by decide), seg2_keep (r := main_arg2) (by decide), seg2_keep (r := main_arg3) (by decide), seg2_keep (r := main_arg4) (by decide), seg2_keep (r := main_arg5) (by decide)]
  rw [seg1_src, seg1_dst, seg1_keep (r := main_arg0) (by decide), seg1_keep (r := main_arg2) (by decide), seg1_keep (r := main_arg3) (by decide), seg1_keep (r := main_arg4) (by decide), seg1_keep (r := main_arg5) (by decide)]
  rfl

/-- A buffer no stage writes is unchanged by the whole line. -/
theorem ops_keep {r : Ref sig .tc} (h1 : r ∉ seg1_W) (h2 : r ∉ seg2_W) (h3 : r ∉ seg3_W) (h4 : r ∉ seg4_W) (h5 : r ∉ seg5_W)
    (h6 : r ∉ seg6_W) (h7 : r ∉ seg7_W) (h8 : r ∉ seg8_W) (V : Valuation τ sig (Elt F)) :
    after ops V (Proc.devRef .tc r) = V (Proc.devRef .tc r) := by
  rw [ops_split]
  simp only [after_app]
  rw [seg8_keep h8, seg7_keep h7, seg6_keep h6, seg5_keep h5, seg4_keep h4, seg3_keep h3, seg2_keep h2, seg1_keep h1]

/-- THE REFERENCE PROGRAM'S RUN: every weakly fair execution ends with the result buffer at `refVal` of the six
    arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
        = refVal (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v56).trans (after_out _),
      (h c main_arg0).trans (ops_keep (by decide) (by decide) (by decide) (by decide) (by decide) (by decide) (by decide) (by decide) _),
      (h c main_arg1).trans (ops_keep (by decide) (by decide) (by decide) (by decide) (by decide) (by decide) (by decide) (by decide) _),
      (h c main_arg2).trans (ops_keep (by decide) (by decide) (by decide) (by decide) (by decide) (by decide) (by decide) (by decide) _),
      (h c main_arg3).trans (ops_keep (by decide) (by decide) (by decide) (by decide) (by decide) (by decide) (by decide) (by decide) _),
      (h c main_arg4).trans (ops_keep (by decide) (by decide) (by decide) (by decide) (by decide) (by decide) (by decide) (by decide) _),
      (h c main_arg5).trans (ops_keep (by decide) (by decide) (by decide) (by decide) (by decide) (by decide) (by decide) (by decide) _)⟩)
    (run_seq scopedRefs_eq scopedSems_eq defs main (fun _ => ops) main_eq (fun _ => ops_sub) m ρ)

end Cert.ReferenceIdeal.EdgeValue

end
-- ==== Proof.RReadA.lean ====
/-
  The reference's first stages read at an index: the two rows of index words; the row gather, which for a word in
  range (no wrap, no clamp) returns the row of the feature table the word names; the similarity column, exp of minus
  the squared distance of the edge's two rows over 128.
-/
import proofs.«430099_j78073915507114_1_alg».proof.Proof.RVal
import proofs.«430099_j78073915507114_1_alg».proof.Proof.Spec
import proofs.«430099_j78073915507114_1_alg».proof.Proof.LibScatterRead
import Idealize.ShloMosaic.PureOps.Ideal.Laws
import Idealize.ShloMosaic.Lib.ValueIdx
import Idealize.ShloMosaic.Lib.IdealHost
import Idealize.ShloMosaic.Lib.Pipeline.Value

noncomputable section

open Idealize.ShloMosaic Idealize.ShloMosaic.TcCoe Idealize.SL.Sem Idealize.ShloMosaic.ValueIdx

namespace Cert.ReferenceIdeal.EdgeValue

open Cert.ReferenceIdeal Cert.ReferenceIdeal.Gen

/-- Entry e of the source words is entry (0, e) of the index array. -/
theorem srcWords_apply (a1 : IVec S2x800000 32) (e : Fin 800000) : srcWords a1 (ix1 e) = a1 (ix2 (0 : Fin 2) e) := by
  unfold srcWords
  -- the cast of the one-row matrix to a vector keeps the row-major position: entry e is entry (0, e)
  refine (shapeCast_apply _ shapeCasts_S1x800000_S800000 (ix1 e) (ix2 (0 : Fin 1) e) (by
    rw [Shape.rowMajor_val_two, Shape.rowMajor_val_one]; show 0 * 800000 + e.val = e.val; omega)).trans ?_
  -- the slice at offsets (0, 0) reads the array at the same coordinates
  refine extractStridedSlice_apply ![0, 0] a1 slices_S2x800000_S1x800000_0_0 (ix2 (0 : Fin 1) e) (ix2 (0 : Fin 2) e) ?_
  intro a
  match a with
  | ⟨0, _⟩ => rfl
  | ⟨1, _⟩ => show e.val = 0 + e.val; omega

/-- Entry e of the destination words is entry (1, e) of the index array. -/
theorem dstWords_apply (a1 : IVec S2x800000 32) (e : Fin 800000) : dstWords a1 (ix1 e) = a1 (ix2 (1 : Fin 2) e) := by
  unfold dstWords
  refine (shapeCast_apply _ shapeCasts_S1x800000_S800000 (ix1 e) (ix2 (0 : Fin 1) e) (by
    rw [Shape.rowMajor_val_two, Shape.rowMajor_val_one]; show 0 * 800000 + e.val = e.val; omega)).trans ?_
  -- the slice at offsets (1, 0) reads the array one row down
  refine extractStridedSlice_apply ![1, 0] a1 slices_S2x800000_S1x800000_1_0 (ix2 (0 : Fin 1) e) (ix2 (1 : Fin 2) e) ?_
  intro a
  match a with
  | ⟨0, _⟩ => rfl
  | ⟨1, _⟩ => show e.val = 0 + e.val; omega

/-- For a word in range, row e of the gathered rows is the row of the table the word names. -/
theorem gatherRows_apply (a0 : FVec Ideal S50000x64 .f32) (w : IVec S800000 32) (e : Fin 800000)
    (h0 : 0 ≤ (w (ix1 e)).toInt) (h1 : (w (ix1 e)).toInt < 50000) (k : Fin 64) :
    (gatherRows a0 w : S800000x64.Idx → EReal) (ix2 e k) = (a0 : S50000x64.Idx → EReal) (ix2 (EdgeGate.rowOf (w (ix1 e))) k) := by
  -- the signed compare with zero is false at a word that is not negative
  have hc : cmpi .slt w (broadcastInDim S800000 ![] bcast_S_S800000 (constantI S_ 32 0#32)) (ix1 e) = 0#1 := by
    apply eq_zero_of_ne_one
    intro hlt
    have hlt' := IntOp.cmpi_slt.1 hlt
    rw [broadcastInDim_scalar_apply] at hlt'
    have z0 : (0#32 : BitVec 32).toInt = 0 := by decide
    have : (constantI S_ 32 0#32 ix0).toInt = 0 := z0
    omega
  -- so the select keeps the word unwrapped, and the one-column broadcast reads it at (e, 0)
  have hw : (broadcastInDim S800000x1 ![0] bcast_S800000_S800000x1_0
      (select (cmpi .slt w (broadcastInDim S800000 ![] bcast_S_S800000 (constantI S_ 32 0#32)))
        (addi w (broadcastInDim S800000 ![] bcast_S_S800000 (constantI S_ 32 50000#32))) w)) (ix2 e (0 : Fin 1)) = w (ix1 e) := by
    rw [broadcastInDim_apply ![0] bcast_S800000_S800000x1_0 _ (ix2 e (0 : Fin 1)) (ix1 e) (fun a => by
      match a with
      | ⟨0, _⟩ => rfl)]
    rw [select_apply, hc, select_zero]
  unfold gatherRows
  -- the word read signed is the row number, so the clamp of the gather does nothing
  exact ScatterRead.gather_rows_apply _ rfl rfl rfl rfl rfl rfl rfl a0 _ e k _
    (by rw [hw]; exact (EdgeGate.rowOf_val h0 h1).symm)

/-- The host's exponential at an index is the exact exponential of the entry. -/
private theorem hostExp_apply {s : Shape} (x : FVec Ideal s .f32) (i : s.Idx) : Host.exp (F := Ideal) x i = Ideal.exp (x i) := rfl

/-- The host's negation at an index is the negative of the entry. -/
private theorem hostNegf_apply {s : Shape} (x : FVec Ideal s .f32) (i : s.Idx) : Host.negf (F := Ideal) x i = -(x i) := rfl

/-- The similarity column as one term: exp of (minus the row sums of the squared differences, as a column) over the
    broadcast divisor. -/
private theorem simCol_eq (hs hd : FVec Ideal S800000x64 .f32) :
    simCol hs hd = Host.exp (F := Ideal) (Host.divf (F := Ideal) (Host.negf (F := Ideal)
      (broadcastInDim S800000x1 ![0] bcast_S800000_S800000x1_0
        (Host.reduceAdd (F := Ideal) (mulf (subf hd hs) (subf hd hs)) (constant (F := Ideal) S_ .f32 0x00000000#32) reducesTo_S800000x64_S800000_d1 h_S_)))
      (broadcastInDim S800000x1 ![] bcast_S_S800000x1 (constant (F := Ideal) S_ .f32 0x43000000#32))) := rfl

/-- Dropping axis 1 of an 800000 x 64 matrix leaves a vector over the rows. -/
private theorem reduces_d1 : S800000x64.Reduces [1] S800000 := by decide

/-- Row e with column k put back on the dropped axis is the entry (e, k). -/
private theorem lift_d1 (e : Fin 800000) (k : Fin (S800000x64.size 1)) : reduces_d1.lift (ix1 e) k = ix2 e k := by
  funext a
  match a with
  | ⟨0, _⟩ => exact Fin.ext rfl
  | ⟨1, _⟩ => exact Fin.ext rfl

/-- The similarity column at edge e is the Gaussian similarity of the edge's two rows. -/
theorem simCol_apply (hs hd : FVec Ideal S800000x64 .f32) (e : Fin 800000) :
    (simCol hs hd : S800000x1.Idx → EReal) (ix2 e (0 : Fin 1))
      = EdgeGate.sim (fun k => (hs : S800000x64.Idx → EReal) (ix2 e k)) (fun k => (hd : S800000x64.Idx → EReal) (ix2 e k)) := by
  -- the pointwise operations and the two broadcasts read at (e, 0): exp ((-(row sum at e)) / the divisor's word)
  rw [simCol_eq, hostExp_apply, hostDivf_apply, hostNegf_apply, broadcastInDim_scalar_apply,
    broadcastInDim_apply ![0] bcast_S800000_S800000x1_0 _ (ix2 e (0 : Fin 1)) (ix1 e) (fun a => by
      match a with
      | ⟨0, _⟩ => rfl)]
  -- the row sum is the initial value plus the sum over the 64 columns; the initial value is the zero word
  rw [hostReduceAdd_apply, Ideal.hostReduceAdd_single reducesTo_S800000x64_S800000_d1 reduces_d1]
  rw [constant_apply, constant_apply, Ideal.ofBits_zero_f32, zero_add]
  -- each summand is the square of the difference of the two rows' entries
  simp only [lift_d1, mulf_apply, subf_apply]
  unfold EdgeGate.sim EdgeGate.sqDist
  rfl

end Cert.ReferenceIdeal.EdgeValue

end
-- ==== Proof.RReadB.lean ====
/-
  The reference's middle stages read at an index: the first layer (the product of the 129 joined columns with the
  matrix is the sum over the 64 destination columns, plus that over the 64 source columns, plus the similarity's term,
  and then the bias); the unit-slope ELU entry by entry; the second layer and the logistic function.
-/
import proofs.«430099_j78073915507114_1_alg».proof.Proof.RVal
import proofs.«430099_j78073915507114_1_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

open Idealize.ShloMosaic Idealize.ShloMosaic.TcCoe Idealize.SL.Sem Idealize.ShloMosaic.ValueIdx

namespace Cert.ReferenceIdeal.EdgeValue

open Cert.ReferenceIdeal Cert.ReferenceIdeal.Gen

/-! ## The two contractions at an index

Each product contracts the second axis of its left operand with the first axis of its right one; the four lemmas per
record say which coordinate of the result index, or of the contraction index, each operand axis reads. -/

private theorem lhs_first_0 (i : S800000x16.Idx) (q : dot_S800000x129_S129x16_S800000x16_1_0_0_1_n_n.contr.Idx) :
    (dot_S800000x129_S129x16_S800000x16_1_0_0_1_n_n.lhsIdx i q 0).val = (i 0).val := by
  unfold DotDims.lhsIdx
  rw [dif_neg (show ¬(0 : Fin S800000x129.rank) ∈ dot_S800000x129_S129x16_S800000x16_1_0_0_1_n_n.lhsBatch by decide),
    dif_pos (show (0 : Fin S800000x129.rank) ∈ dot_S800000x129_S129x16_S800000x16_1_0_0_1_n_n.lhsNonContracting by decide)]
  rfl
private theorem lhs_first_1 (i : S800000x16.Idx) (q : dot_S800000x129_S129x16_S800000x16_1_0_0_1_n_n.contr.Idx) :
    (dot_S800000x129_S129x16_S800000x16_1_0_0_1_n_n.lhsIdx i q 1).val = (q ⟨0, by decide⟩).val :=
  dot_S800000x129_S129x16_S800000x16_1_0_0_1_n_n.lhsIdx_val_of_single rfl i q
private theorem rhs_first_0 (i : S800000x16.Idx) (q : dot_S800000x129_S129x16_S800000x16_1_0_0_1_n_n.contr.Idx) :
    (dot_S800000x129_S129x16_S800000x16_1_0_0_1_n_n.rhsIdx i q 0).val = (q ⟨0, by decide⟩).val :=
  dot_S800000x129_S129x16_S800000x16_1_0_0_1_n_n.rhsIdx_val_of_single rfl i q
private theorem rhs_first_1 (i : S800000x16.Idx) (q : dot_S800000x129_S129x16_S800000x16_1_0_0_1_n_n.contr.Idx) :
    (dot_S800000x129_S129x16_S800000x16_1_0_0_1_n_n.rhsIdx i q 1).val = (i 1).val := by
  unfold DotDims.rhsIdx
  rw [dif_neg (show ¬(1 : Fin S129x16.rank) ∈ dot_S800000x129_S129x16_S800000x16_1_0_0_1_n_n.rhsBatch by decide),
    dif_pos (show (1 : Fin S129x16.rank) ∈ dot_S800000x129_S129x16_S800000x16_1_0_0_1_n_n.rhsNonContracting by decide)]
  rfl

/-- The first layer's product at (e, c): row e of the joined columns against column c of the matrix. -/
private theorem firstDot_apply (l : FVec Ideal S800000x129 .f32) (w : FVec Ideal S129x16 .f32) (e : Fin 800000) (c : Fin 16) :
    (Host.dotGeneral (F := Ideal) dot_S800000x129_S129x16_S800000x16_1_0_0_1_n_n none l w : S800000x16.Idx → EReal) (ix2 e c)
      = ∑ k : Fin 129, (l : S800000x129.Idx → EReal) (ix2 e k) * (w : S129x16.Idx → EReal) (ix2 k c) := by
  simp only [Host.dotGeneral]
  rw [Ideal.dotGeneral_apply, ← Equiv.sum_comp (contrEquiv1 dot_S800000x129_S129x16_S800000x16_1_0_0_1_n_n 129 rfl rfl).symm]
  refine Finset.sum_congr rfl fun k _ => ?_
  have hk := contrEquiv1_symm_val dot_S800000x129_S129x16_S800000x16_1_0_0_1_n_n 129 rfl rfl k
  have el : dot_S800000x129_S129x16_S800000x16_1_0_0_1_n_n.lhsIdx (ix2 e c) ((contrEquiv1 dot_S800000x129_S129x16_S800000x16_1_0_0_1_n_n 129 rfl rfl).symm k) = ix2 e k :=
    funext fun a => Fin.ext (by
      match a with
      | ⟨0, _⟩ => exact lhs_first_0 _ _
      | ⟨1, _⟩ => exact (lhs_first_1 _ _).trans hk)
  have er : dot_S800000x129_S129x16_S800000x16_1_0_0_1_n_n.rhsIdx (ix2 e c) ((contrEquiv1 dot_S800000x129_S129x16_S800000x16_1_0_0_1_n_n 129 rfl rfl).symm k) = ix2 k c :=
    funext fun a => Fin.ext (by
      match a with
      | ⟨0, _⟩ => exact (rhs_first_0 _ _).trans hk
      | ⟨1, _⟩ => exact rhs_first_1 _ _)
  rw [el, er]

private theorem lhs_second_0 (i : S800000x1.Idx) (q : dot_S800000x16_S16x1_S800000x1_1_0_0_1_n_n.contr.Idx) :
    (dot_S800000x16_S16x1_S800000x1_1_0_0_1_n_n.lhsIdx i q 0).val = (i 0).val := by
  unfold DotDims.lhsIdx
  rw [dif_neg (show ¬(0 : Fin S800000x16.rank) ∈ dot_S800000x16_S16x1_S800000x1_1_0_0_1_n_n.lhsBatch by decide),
    dif_pos (show (0 : Fin S800000x16.rank) ∈ dot_S800000x16_S16x1_S800000x1_1_0_0_1_n_n.lhsNonContracting by decide)]
  rfl
private theorem lhs_second_1 (i : S800000x1.Idx) (q : dot_S800000x16_S16x1_S800000x1_1_0_0_1_n_n.contr.Idx) :
    (dot_S800000x16_S16x1_S800000x1_1_0_0_1_n_n.lhsIdx i q 1).val = (q ⟨0, by decide⟩).val :=
  dot_S800000x16_S16x1_S800000x1_1_0_0_1_n_n.lhsIdx_val_of_single rfl i q
private theorem rhs_second_0 (i : S800000x1.Idx) (q : dot_S800000x16_S16x1_S800000x1_1_0_0_1_n_n.contr.Idx) :
    (dot_S800000x16_S16x1_S800000x1_1_0_0_1_n_n.rhsIdx i q 0).val = (q ⟨0, by decide⟩).val :=
  dot_S800000x16_S16x1_S800000x1_1_0_0_1_n_n.rhsIdx_val_of_single rfl i q
private theorem rhs_second_1 (i : S800000x1.Idx) (q : dot_S800000x16_S16x1_S800000x1_1_0_0_1_n_n.contr.Idx) :
    (dot_S800000x16_S16x1_S800000x1_1_0_0_1_n_n.rhsIdx i q 1).val = (i 1).val := by
  unfold DotDims.rhsIdx
  rw [dif_neg (show ¬(1 : Fin S16x1.rank) ∈ dot_S800000x16_S16x1_S800000x1_1_0_0_1_n_n.rhsBatch by decide),
    dif_pos (show (1 : Fin S16x1.rank) ∈ dot_S800000x16_S16x1_S800000x1_1_0_0_1_n_n.rhsNonContracting by decide)]
  rfl

/-- The second layer's product at (e, u): row e of the activations against the one column of weights. -/
private theorem secondDot_apply (l : FVec Ideal S800000x16 .f32) (w : FVec Ideal S16x1 .f32) (e : Fin 800000) (u : Fin 1) :
    (Host.dotGeneral (F := Ideal) dot_S800000x16_S16x1_S800000x1_1_0_0_1_n_n none l w : S800000x1.Idx → EReal) (ix2 e u)
      = ∑ k : Fin 16, (l : S800000x16.Idx → EReal) (ix2 e k) * (w : S16x1.Idx → EReal) (ix2 k u) := by
  simp only [Host.dotGeneral]
  rw [Ideal.dotGeneral_apply, ← Equiv.sum_comp (contrEquiv1 dot_S800000x16_S16x1_S800000x1_1_0_0_1_n_n 16 rfl rfl).symm]
  refine Finset.sum_congr rfl fun k _ => ?_
  have hk := contrEquiv1_symm_val dot_S800000x16_S16x1_S800000x1_1_0_0_1_n_n 16 rfl rfl k
  have el : dot_S800000x16_S16x1_S800000x1_1_0_0_1_n_n.lhsIdx (ix2 e u) ((contrEquiv1 dot_S800000x16_S16x1_S800000x1_1_0_0_1_n_n 16 rfl rfl).symm k) = ix2 e k :=
    funext fun a => Fin.ext (by
      match a with
      | ⟨0, _⟩ => exact lhs_second_0 _ _
      | ⟨1, _⟩ => exact (lhs_second_1 _ _).trans hk)
  have er : dot_S800000x16_S16x1_S800000x1_1_0_0_1_n_n.rhsIdx (ix2 e u) ((contrEquiv1 dot_S800000x16_S16x1_S800000x1_1_0_0_1_n_n 16 rfl rfl).symm k) = ix2 k u :=
    funext fun a => Fin.ext (by
      match a with
      | ⟨0, _⟩ => exact (rhs_second_0 _ _).trans hk
      | ⟨1, _⟩ => exact rhs_second_1 _ _)
  rw [el, er]

/-! ## The joined columns at an index -/

/-- Columns 0..63 of the joined array are the destination rows. -/
private theorem joined_rowD (hs hd : FVec Ideal S800000x64 .f32) (sm : FVec Ideal S800000x1 .f32) (e : Fin 800000) (k : Fin 64) :
    (concatenate S800000x129 1 [⟨S800000x64, hd⟩, ⟨S800000x64, hs⟩, ⟨S800000x1, sm⟩] concatenates_S800000x64_S800000x64_S800000x1_S800000x129_d1 : S800000x129.Idx → EReal) (ix2 e (EdgeGate.rowD k)) = (hd : S800000x64.Idx → EReal) (ix2 e k) := by
  refine concatenate_apply_piece (1 : Fin S800000x129.rank) _ _ (ix2 e (EdgeGate.rowD k)) 0 (by show 0 < 3; omega) S800000x64 hd rfl rfl 0 rfl
    (ix2 e k) ?_ ?_
  · intro b hb
    match b, hb with
    | ⟨0, _⟩, _ => rfl
    | ⟨1, _⟩, hb => exact absurd (Fin.ext rfl) hb
  · exact Nat.zero_add _

/-- Columns 64..127 are the source rows. -/
private theorem joined_rowS (hs hd : FVec Ideal S800000x64 .f32) (sm : FVec Ideal S800000x1 .f32) (e : Fin 800000) (k : Fin 64) :
    (concatenate S800000x129 1 [⟨S800000x64, hd⟩, ⟨S800000x64, hs⟩, ⟨S800000x1, sm⟩] concatenates_S800000x64_S800000x64_S800000x1_S800000x129_d1 : S800000x129.Idx → EReal) (ix2 e (EdgeGate.rowS k)) = (hs : S800000x64.Idx → EReal) (ix2 e k) := by
  refine concatenate_apply_piece (1 : Fin S800000x129.rank) _ _ (ix2 e (EdgeGate.rowS k)) 1 (by show 1 < 3; omega) S800000x64 hs rfl rfl 64 rfl
    (ix2 e k) ?_ ?_
  · intro b hb
    match b, hb with
    | ⟨0, _⟩, _ => rfl
    | ⟨1, _⟩, hb => exact absurd (Fin.ext rfl) hb
  · rfl

/-- Column 128 is the similarity. -/
private theorem joined_rowSim (hs hd : FVec Ideal S800000x64 .f32) (sm : FVec Ideal S800000x1 .f32) (e : Fin 800000) :
    (concatenate S800000x129 1 [⟨S800000x64, hd⟩, ⟨S800000x64, hs⟩, ⟨S800000x1, sm⟩] concatenates_S800000x64_S800000x64_S800000x1_S800000x129_d1 : S800000x129.Idx → EReal) (ix2 e EdgeGate.rowSim) = (sm : S800000x1.Idx → EReal) (ix2 e (0 : Fin 1)) := by
  refine concatenate_apply_piece (1 : Fin S800000x129.rank) _ _ (ix2 e EdgeGate.rowSim) 2 (by show 2 < 3; omega) S800000x1 sm rfl rfl 128 rfl
    (ix2 e (0 : Fin 1)) ?_ ?_
  · intro b hb
    match b, hb with
    | ⟨0, _⟩, _ => rfl
    | ⟨1, _⟩, hb => exact absurd (Fin.ext rfl) hb
  · rfl

/-! ## The first layer -/

/-- The bias row broadcast over the edges, at (e, c), is the bias at c. -/
private theorem biasRows_apply (a3 : FVec Ideal S16 .f32) (e : Fin 800000) (c : Fin 16) :
    (broadcastInDim S800000x16 ![0, 1] bcast_S1x16_S800000x16_0_1 (broadcastInDim S1x16 ![1] bcast_S16_S1x16_1 a3) : S800000x16.Idx → EReal) (ix2 e c)
      = (a3 : S16.Idx → EReal) (ix1 c) := by
  refine (broadcastInDim_apply _ _ _ (ix2 e c) (ix2 (0 : Fin 1) c) ?_).trans ?_
  · intro a
    match a with
    | ⟨0, _⟩ => rfl
    | ⟨1, _⟩ => rfl
  · refine broadcastInDim_apply _ _ _ (ix2 (0 : Fin 1) c) (ix1 c) ?_
    intro a
    match a with
    | ⟨0, _⟩ => rfl

/-- The first layer at edge e, column c, is `EdgeGate.pre` of the edge's two rows, when the similarity column holds the
    rows' similarity there. -/
theorem layer1_apply (hs hd : FVec Ideal S800000x64 .f32) (sm : FVec Ideal S800000x1 .f32) (a2 : FVec Ideal S129x16 .f32)
    (a3 : FVec Ideal S16 .f32) (e : Fin 800000) (c : Fin 16)
    (hsm : (sm : S800000x1.Idx → EReal) (ix2 e (0 : Fin 1))
      = EdgeGate.sim (fun k => (hs : S800000x64.Idx → EReal) (ix2 e k)) (fun k => (hd : S800000x64.Idx → EReal) (ix2 e k))) :
    (layer1 hs hd sm a2 a3 : S800000x16.Idx → EReal) (ix2 e c)
      = EdgeGate.pre (fun k => (hs : S800000x64.Idx → EReal) (ix2 e k)) (fun k => (hd : S800000x64.Idx → EReal) (ix2 e k))
          (fun k q => (a2 : S129x16.Idx → EReal) (ix2 k q)) (fun q => (a3 : S16.Idx → EReal) (ix1 q)) c := by
  unfold layer1
  simp only []
  rw [addf_apply, firstDot_apply, biasRows_apply, EdgeGate.sum129_split]
  simp only [joined_rowD, joined_rowS, joined_rowSim, hsm]
  rfl

/-! ## The activation -/

/-- The activation, entry by entry, is the unit-slope ELU. -/
theorem eluAll_apply (x : FVec Ideal S800000x16 .f32) (i : S800000x16.Idx) :
    (eluAll x : S800000x16.Idx → EReal) i = EdgeGate.elu ((x : S800000x16.Idx → EReal) i) := by
  show Scalar.select (Ideal.cmp .ogt ((x : S800000x16.Idx → EReal) i) (Ideal.ofBits .f32 0x00000000#32)) ((x : S800000x16.Idx → EReal) i)
      (Ideal.ofBits .f32 0x3F800000#32
        * (Ideal.exp (Scalar.select (Ideal.cmp .ogt ((x : S800000x16.Idx → EReal) i) (Ideal.ofBits .f32 0x00000000#32))
            (Ideal.ofBits .f32 0x00000000#32) ((x : S800000x16.Idx → EReal) i)) - 1))
    = EdgeGate.elu ((x : S800000x16.Idx → EReal) i)
  rw [Ideal.ofBits_zero_f32, Ideal.ofBits_one_f32, one_mul]
  unfold EdgeGate.elu Ideal.cmp Scalar.select
  by_cases h : (0 : EReal) < (x : S800000x16.Idx → EReal) i
  · simp [h]
  · simp [h]

/-! ## The second layer and the logistic function -/

/-- The second bias broadcast over the edges, at (e, 0), is the bias. -/
private theorem biasCol_apply (a5 : FVec Ideal S1 .f32) (e : Fin 800000) :
    (broadcastInDim S800000x1 ![0, 1] bcast_S1x1_S800000x1_0_1 (broadcastInDim S1x1 ![1] bcast_S1_S1x1_1 a5) : S800000x1.Idx → EReal) (ix2 e (0 : Fin 1))
      = (a5 : S1.Idx → EReal) (ix1 (0 : Fin 1)) := by
  refine (broadcastInDim_apply _ _ _ (ix2 e (0 : Fin 1)) (ix2 (0 : Fin 1) (0 : Fin 1)) ?_).trans ?_
  · intro a
    match a with
    | ⟨0, _⟩ => rfl
    | ⟨1, _⟩ => rfl
  · refine broadcastInDim_apply _ _ _ (ix2 (0 : Fin 1) (0 : Fin 1)) (ix1 (0 : Fin 1)) ?_
    intro a
    match a with
    | ⟨0, _⟩ => rfl

/-- The gate vector at edge e is the logistic function of the second layer's sum plus its bias. -/
theorem gateVec_apply (hdn : FVec Ideal S800000x16 .f32) (a4 : FVec Ideal S16x1 .f32) (a5 : FVec Ideal S1 .f32) (e : Fin 800000) :
    (gateVec hdn a4 a5 : S800000.Idx → EReal) (ix1 e)
      = Ideal.logistic ((∑ c : Fin 16, (hdn : S800000x16.Idx → EReal) (ix2 e c) * (a4 : S16x1.Idx → EReal) (ix2 c (0 : Fin 1)))
          + (a5 : S1.Idx → EReal) (ix1 (0 : Fin 1))) := by
  unfold gateVec
  simp only []
  rw [shapeCast_apply _ shapeCasts_S800000x1_S800000 (ix1 e) (ix2 e (0 : Fin 1))
    (by rw [Shape.rowMajor_val_two, Shape.rowMajor_val_one]; show e.val * 1 + 0 = e.val; omega)]
  show Ideal.div (Ideal.ofBits .f32 0x3F800000#32) (Ideal.ofBits .f32 0x3F800000#32
      + Ideal.exp (-((Host.dotGeneral (F := Ideal) dot_S800000x16_S16x1_S800000x1_1_0_0_1_n_n none hdn a4 : S800000x1.Idx → EReal) (ix2 e (0 : Fin 1))
        + (broadcastInDim S800000x1 ![0, 1] bcast_S1x1_S800000x1_0_1 (broadcastInDim S1x1 ![1] bcast_S1_S1x1_1 a5) : S800000x1.Idx → EReal) (ix2 e (0 : Fin 1))))) = _
  rw [secondDot_apply, biasCol_apply, Ideal.ofBits_one_f32]
  rfl

end Cert.ReferenceIdeal.EdgeValue

end
-- ==== Proof.RReadC.lean ====
/-
  The reference's last stage read at an index: each scatter-add from zero leaves, at node i, the sum of the updates
  whose destination word read signed is i; the gate sums are floored; the result is the quotient.
-/
import proofs.«430099_j78073915507114_1_alg».proof.Proof.RVal
import proofs.«430099_j78073915507114_1_alg».proof.Proof.Spec
import proofs.«430099_j78073915507114_1_alg».proof.Proof.LibScatterRead
import Idealize.ShloMosaic.PureOps.Ideal.Laws
import Idealize.ShloMosaic.Lib.ValueIdx
import Idealize.ShloMosaic.Lib.IdealHost
import Idealize.ShloMosaic.Lib.Pipeline.Value

noncomputable section

open Idealize.ShloMosaic Idealize.ShloMosaic.TcCoe Idealize.SL.Sem Idealize.ShloMosaic.ValueIdx

namespace Cert.ReferenceIdeal.EdgeValue

open Cert.ReferenceIdeal Cert.ReferenceIdeal.Gen

/-- The result at node i, feature j: the sum over the edges into i of the source entry times the gate, over the larger
    of the sum of those gates and the floor. -/
theorem nodeAvg_apply (hs : FVec Ideal S800000x64 .f32) (g : FVec Ideal S800000 .f32) (dw : IVec S800000 32) (i : Fin 50000) (j : Fin 64) :
    (nodeAvg hs g dw : S50000x64.Idx → EReal) (ix2 i j)
      = Ideal.div (∑ e ∈ Finset.univ.filter (fun e : Fin 800000 => (dw (ix1 e)).toInt = (i.val : ℤ)),
            (hs : S800000x64.Idx → EReal) (ix2 e j) * (g : S800000.Idx → EReal) (ix1 e))
          (max (∑ e ∈ Finset.univ.filter (fun e : Fin 800000 => (dw (ix1 e)).toInt = (i.val : ℤ)), (g : S800000.Idx → EReal) (ix1 e))
            EdgeGate.floorW) := by
  -- the index array, the destination words as one column, read at (e, 0) is the word of edge e
  have hidx : ∀ e : Fin 800000,
      (broadcastInDim S800000x1 ![0] bcast_S800000_S800000x1_0 dw : IVec S800000x1 32) (ix2 e (0 : Fin 1)) = dw (ix1 e) :=
    fun e => broadcastInDim_apply ![0] bcast_S800000_S800000x1_0 dw (ix2 e (0 : Fin 1)) (ix1 e)
      (fun a => match a with | ⟨0, _⟩ => rfl)
  -- so the edges whose index word is i are the edges whose destination word is i
  have hfilter : (Finset.univ.filter (fun e : Fin 800000 =>
        ((broadcastInDim S800000x1 ![0] bcast_S800000_S800000x1_0 dw : IVec S800000x1 32) (ix2 e (0 : Fin 1))).toInt = (i.val : ℤ)))
      = Finset.univ.filter (fun e : Fin 800000 => (dw (ix1 e)).toInt = (i.val : ℤ)) :=
    Finset.filter_congr (fun e _ => by rw [hidx e])
  -- the gate as a column, then along the 64 features, read at (e, j) is the gate of edge e
  have hg : ∀ e : Fin 800000,
      (broadcastInDim S800000x64 ![0, 1] bcast_S800000x1_S800000x64_0_1
        (broadcastInDim S800000x1 ![0] bcast_S800000_S800000x1_0 g) : FVec Ideal S800000x64 .f32) (ix2 e j) = g (ix1 e) :=
    fun e => (broadcastInDim_apply ![0, 1] bcast_S800000x1_S800000x64_0_1 _ (ix2 e j) (ix2 e (0 : Fin 1))
      (fun a => match a with | ⟨0, _⟩ => rfl | ⟨1, _⟩ => rfl)).trans
      (broadcastInDim_apply ![0] bcast_S800000_S800000x1_0 g (ix2 e (0 : Fin 1)) (ix1 e)
        (fun a => match a with | ⟨0, _⟩ => rfl))
  -- the zero word is the real zero
  have hz : Ideal.ofBits .f32 0x00000000#32 = (0 : EReal) := Ideal.ofBits_zero_f32
  unfold nodeAvg
  rw [hostDivf_apply]
  refine congrArg₂ Ideal.div ?_ ?_
  · -- the scaled rows summed into node i, from zero
    rw [ScatterRead.scatterAdd_rows_apply _ rfl rfl rfl rfl, hfilter, broadcastInDim_scalar_apply, constant_apply, hz, zero_add]
    refine Finset.sum_congr rfl (fun e _ => ?_)
    rw [mulf_apply, hg e]
  · -- the floored gate sum, one column broadcast along the features
    rw [broadcastInDim_apply ![0, 1] bcast_S50000x1_S50000x64_0_1 _ (ix2 i j) (ix2 i (0 : Fin 1))
        (fun a => match a with | ⟨0, _⟩ => rfl | ⟨1, _⟩ => rfl),
      broadcastInDim_apply ![0] bcast_S50000_S50000x1_0 _ (ix2 i (0 : Fin 1)) (ix1 i)
        (fun a => match a with | ⟨0, _⟩ => rfl),
      maximumf_apply, ScatterRead.scatterAdd_vec_apply _ rfl rfl rfl rfl, hfilter,
      broadcastInDim_scalar_apply, broadcastInDim_scalar_apply, constant_apply, constant_apply, hz, zero_add]

end Cert.ReferenceIdeal.EdgeValue

end
-- ==== Proof.RRead.lean ====
/-
  The reference's function is the specification: under the index-range hypothesis, stage by stage, the gathered rows are
  the rows the index words name, the similarity, first layer, activation and gate at an edge are the edge's, and the two
  scatter-adds sum them over the edges into each node; so the result array is `EdgeGate.G` of the arguments.
-/
import proofs.«430099_j78073915507114_1_alg».proof.Proof.RVal
import proofs.«430099_j78073915507114_1_alg».proof.Proof.Spec
import proofs.«430099_j78073915507114_1_alg».proof.Proof.RReadA
import proofs.«430099_j78073915507114_1_alg».proof.Proof.RReadB
import proofs.«430099_j78073915507114_1_alg».proof.Proof.RReadC

noncomputable section

open Idealize.ShloMosaic Idealize.ShloMosaic.TcCoe Idealize.SL.Sem Idealize.ShloMosaic.ValueIdx

namespace Cert.ReferenceIdeal.EdgeValue

open Cert.ReferenceIdeal Cert.ReferenceIdeal.Gen

variable (a0 : FVec Ideal S50000x64 .f32) (a1 : IVec S2x800000 32) (a2 : FVec Ideal S129x16 .f32)
  (a3 : FVec Ideal S16 .f32) (a4 : FVec Ideal S16x1 .f32) (a5 : FVec Ideal S1 .f32)

/-- The gathered source rows at edge e are the edge's source row. -/
theorem src_row (hr : EdgeGate.InRange a1) (e : Fin 800000) :
    (fun k : Fin 64 => (gatherRows a0 (srcWords a1) : S800000x64.Idx → EReal) (ix2 e k)) = EdgeGate.srcRow a0 a1 e := by
  funext k
  have h := hr (0 : Fin 2) e
  have hw : srcWords a1 (ix1 e) = a1 (ix2 (0 : Fin 2) e) := srcWords_apply a1 e
  rw [gatherRows_apply a0 (srcWords a1) e (by rw [hw]; exact h.1) (by rw [hw]; exact h.2) k, hw]
  rfl

/-- The gathered destination rows at edge e are the edge's destination row. -/
theorem dst_row (hr : EdgeGate.InRange a1) (e : Fin 800000) :
    (fun k : Fin 64 => (gatherRows a0 (dstWords a1) : S800000x64.Idx → EReal) (ix2 e k)) = EdgeGate.dstRow a0 a1 e := by
  funext k
  have h := hr (1 : Fin 2) e
  have hw : dstWords a1 (ix1 e) = a1 (ix2 (1 : Fin 2) e) := dstWords_apply a1 e
  rw [gatherRows_apply a0 (dstWords a1) e (by rw [hw]; exact h.1) (by rw [hw]; exact h.2) k, hw]
  rfl

/-- The gate vector at edge e is the edge's gate. -/
theorem gate_edge (hr : EdgeGate.InRange a1) (e : Fin 800000) :
    (gateVec (eluAll (layer1 (gatherRows a0 (srcWords a1)) (gatherRows a0 (dstWords a1))
        (simCol (gatherRows a0 (srcWords a1)) (gatherRows a0 (dstWords a1))) a2 a3)) a4 a5 : S800000.Idx → EReal) (ix1 e)
      = EdgeGate.edgeGate a0 a1 a2 a3 a4 a5 e := by
  rw [gateVec_apply]
  unfold EdgeGate.edgeGate EdgeGate.gate
  refine congrArg Ideal.logistic (congrArg (· + _) (Finset.sum_congr rfl fun c _ => congrArg (· * _) ?_))
  rw [eluAll_apply, layer1_apply _ _ _ a2 a3 e c (simCol_apply _ _ e), src_row a0 a1 hr e, dst_row a0 a1 hr e]

/-- THE REFERENCE'S RESULT is `G` of the arguments, when the index words are in range. -/
theorem refVal_eq (hr : EdgeGate.InRange a1) : refVal a0 a1 a2 a3 a4 a5 = EdgeGate.G a0 a1 a2 a3 a4 a5 := by
  funext ij
  obtain ⟨i, j, rfl⟩ : ∃ (i : Fin 50000) (j : Fin 64), ij = ix2 i j := ⟨ij 0, ij 1, eq_ix2 ij⟩
  unfold refVal
  rw [nodeAvg_apply]
  show _ = EdgeGate.Gat a0 a1 a2 a3 a4 a5 i j
  unfold EdgeGate.Gat
  have hf : (Finset.univ.filter fun e : Fin 800000 => (dstWords a1 (ix1 e)).toInt = (i.val : ℤ)) = EdgeGate.into a1 i := by
    unfold EdgeGate.into
    exact Finset.filter_congr fun e _ => by rw [dstWords_apply]
  rw [hf]
  refine congrArg₂ Ideal.div (Finset.sum_congr rfl fun e _ => ?_)
    (congrArg (max · EdgeGate.floorW) (Finset.sum_congr rfl fun e _ => gate_edge a0 a1 a2 a3 a4 a5 hr e))
  rw [gate_edge a0 a1 a2 a3 a4 a5 hr e]
  exact congrArg (· * _) (congrFun (src_row a0 a1 hr e) j)

end Cert.ReferenceIdeal.EdgeValue

end
-- ==== Proof.lean ====
/-
  The certificate's five claims for the edge-gated message-passing kernel against its jnp reference.

  Both programs compute, at node i and feature j, the sum over the edges into i of the source node's feature times the
  edge's gate, divided by the larger of the sum of those gates and the floor 1e-8; the gate is the logistic function of
  a two-layer network (unit-slope ELU between the layers) of the destination row, the source row and their Gaussian
  similarity (Proof/Spec.lean, `EdgeGate.G`). The kernel program gathers the rows on the host in fill mode, runs the
  network per block of 8000 edges in one launch that leaves an 800000 x 65 array (64 weighted features and the gate), and
  scatter-adds that array by destination word on the host; the reference gathers with a clamp, joins the 129 columns into
  one product and scatter-adds the weighted rows and the gates apart. With every index word in [0, 50000) — the one
  conjunct added to the precondition — neither the fill nor the clamp acts and the two are the same function; only
  commutativity and associativity of the sums are used, so the finiteness of the float inputs is never opened.

  The three frames: the two kernel programs' by their generated frame runs, the reference's by its run read back
  (Proof/RRun.lean) with the result dropped. The ideal pass rewrote nothing, so `preserves` is `True`. The value claim:
  the kernel program's run ends at `G` (Proof/KRun.lean), the reference's at its composed term (Proof/RRun.lean), which
  is `G` (Proof/RRead.lean), of arguments that agree.
-/
import proofs.«430099_j78073915507114_1_alg».proof.Defs
import proofs.«430099_j78073915507114_1_alg».proof.Proof.Gen.Kernel
import proofs.«430099_j78073915507114_1_alg».proof.Proof.Gen.Kernel.Skeleton
import proofs.«430099_j78073915507114_1_alg».proof.Proof.Gen.Kernel.Launch
import proofs.«430099_j78073915507114_1_alg».proof.Proof.Gen.Kernel.Points
import proofs.«430099_j78073915507114_1_alg».proof.Proof.Gen.Kernel.Frame
import proofs.«430099_j78073915507114_1_alg».proof.Proof.Gen.KernelIdeal
import proofs.«430099_j78073915507114_1_alg».proof.Proof.Gen.KernelIdeal.Skeleton
import proofs.«430099_j78073915507114_1_alg».proof.Proof.Gen.KernelIdeal.Launch
import proofs.«430099_j78073915507114_1_alg».proof.Proof.Gen.KernelIdeal.Points
import proofs.«430099_j78073915507114_1_alg».proof.Proof.Gen.KernelIdeal.Frame
import proofs.«430099_j78073915507114_1_alg».proof.Proof.Gen.ReferenceIdeal
import proofs.«430099_j78073915507114_1_alg».proof.Proof.Gen.Pre_finite_inputs
import proofs.«430099_j78073915507114_1_alg».proof.Proof.PreDecode
import proofs.«430099_j78073915507114_1_alg».proof.Proof.KRun
import proofs.«430099_j78073915507114_1_alg».proof.Proof.RRun
import proofs.«430099_j78073915507114_1_alg».proof.Proof.RRead
import Idealize.ShloMosaic.Adequacy
import Idealize.ShloMosaic.Init

noncomputable section

namespace Cert.Proof

open Idealize.ShloMosaic Idealize.SL.Sem

/-- The word-level kernel program runs and keeps its arguments: its generated frame run. -/
theorem frame_k : Cert.frame_Kernel := fun m ρ _ => Cert.Kernel.Gen.frame m ρ

/-- The idealized kernel program runs and keeps its arguments: its generated frame run. -/
theorem frame_ki : Cert.frame_KernelIdeal := fun m ρ _ => Cert.KernelIdeal.Gen.frame m ρ

/-- The reference runs and keeps its arguments: its run read back, the result dropped. -/
theorem frame_ri : Cert.frame_ReferenceIdeal := fun m ρ _ =>
  (θ_run Cert.ReferenceIdeal.defs _ _).mono (fun _ h c => (h c).2) (Cert.ReferenceIdeal.EdgeValue.run m ρ)

/-- Both runs end at `EdgeGate.G` of the kernel program's arguments: the kernel program's by its run read through
    the launch and the host tail, the reference's because its composed term is `G` of its own arguments, which agree. -/
theorem algebraic : Cert.algebraic_KernelIdeal_ReferenceIdeal := by
  intro m ρ m' ρ' hpre hagree
  have hr : ∀ c : Dev Cert.KernelIdeal.nD,
      EdgeGate.InRange (m ((c.tc : Thread Cert.KernelIdeal.nD Cert.KernelIdeal.τ).loc Cert.KernelIdeal.main_arg1)) :=
    fun c => Cert.Pre_finite_inputs.Decode.inRange_of_pre _ _ _ _ _ _ (hpre c)
  refine ⟨_, Cert.KernelIdeal.EdgeValue.run m ρ hr, ?_⟩
  refine (θ_run Cert.ReferenceIdeal.defs _ _).mono (fun _ h c => ⟨(h c).1.trans ?_, (h c).2⟩)
    (Cert.ReferenceIdeal.EdgeValue.run m' ρ')
  obtain ⟨h0, h1, h2, h3, h4, h5⟩ := hagree c
  rw [h0, h1, h2, h3, h4, h5]
  exact Cert.ReferenceIdeal.EdgeValue.refVal_eq _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
